-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_v4) = v1 c
          ∧ r.2.mem ((c.tc : Thread Cert.ReferenceIdeal.nD Cert.ReferenceIdeal.τ).loc Cert.ReferenceIdeal.main_v9) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x16384 : Shape := ⟨2, ![16384, 16384]⟩
abbrev S16384x512 : Shape := ⟨2, ![16384, 512]⟩
abbrev S512x256 : Shape := ⟨2, ![512, 256]⟩
abbrev S256x64 : Shape := ⟨2, ![256, 64]⟩
abbrev S16384x64 : Shape := ⟨2, ![16384, 64]⟩
abbrev S_ : Shape := ⟨0, ![]⟩

class Facts : Prop where
  bcast_S_S16384x16384 : S_.BroadcastsInDim S16384x16384 (![] : Fin 0 → Fin S16384x16384.rank)
  reducesTo_S16384x16384_S_d0_1 : S16384x16384.ReducesTo [0, 1] S_
  h_S_ : 0 < S_.numel
  bcast_S_S16384x512 : S_.BroadcastsInDim S16384x512 (![] : Fin 0 → Fin S16384x512.rank)
  reducesTo_S16384x512_S_d0_1 : S16384x512.ReducesTo [0, 1] S_
  bcast_S_S512x256 : S_.BroadcastsInDim S512x256 (![] : Fin 0 → Fin S512x256.rank)
  reducesTo_S512x256_S_d0_1 : S512x256.ReducesTo [0, 1] S_
  bcast_S_S256x64 : S_.BroadcastsInDim S256x64 (![] : Fin 0 → Fin S256x64.rank)
  reducesTo_S256x64_S_d0_1 : S256x64.ReducesTo [0, 1] S_
  bcast_S_S16384x64 : S_.BroadcastsInDim S16384x64 (![] : Fin 0 → Fin S16384x64.rank)
  reducesTo_S16384x64_S_d0_1 : S16384x64.ReducesTo [0, 1] S_

variable [Facts]

def fn_part1 {F : FTy → Type} [FloatOps F] (main_arg4 : FVec F S256x64 .f32) (main_arg5 : FVec F S16384x64 .f32) (main_v13 : IVec S_ 1) (main_v16 : IVec S256x64 1) : IVec S_ 1 :=
  let main_c_5 : IVec S_ 1 := constantI S_ 1 1#1
  let main_v17 : IVec S_ 1 := (fun x v => Host.reduce IntOp.andi x v reducesTo_S256x64_S_d0_1 h_S_) main_v16 main_c_5
  let main_v18 : IVec S_ 1 := andi main_v13 main_v17
  let main_v19 : FVec F S256x64 .f32 := Host.absf main_arg4
  let main_cst_6 : FVec F S_ .f32 := constant S_ .f32 0x7F800000#32
  let main_v20 : FVec F S256x64 .f32 := broadcastInDim S256x64 ![] bcast_S_S256x64 main_cst_6
  let main_v21 : IVec S256x64 1 := cmpf .olt main_v19 main_v20
  let main_c_7 : IVec S_ 1 := constantI S_ 1 1#1
  let main_v22 : IVec S_ 1 := (fun x v => Host.reduce IntOp.andi x v reducesTo_S256x64_S_d0_1 h_S_) main_v21 main_c_7
  let main_v23 : IVec S_ 1 := andi main_v18 main_v22
  let main_v24 : FVec F S16384x64 .f32 := Host.absf main_arg5
  let main_cst_8 : FVec F S_ .f32 := constant S_ .f32 0x7F800000#32
  let main_v25 : FVec F S16384x64 .f32 := broadcastInDim S16384x64 ![] bcast_S_S16384x64 main_cst_8
  let main_v26 : IVec S16384x64 1 := cmpf .olt main_v24 main_v25
  let main_c_9 : IVec S_ 1 := constantI S_ 1 1#1
  let main_v27 : IVec S_ 1 := (fun x v => Host.reduce IntOp.andi x v reducesTo_S16384x64_S_d0_1 h_S_) main_v26 main_c_9
  let main_v28 : IVec S_ 1 := andi main_v23 main_v27
  main_v28

def fn {F : FTy → Type} [FloatOps F] (main_arg0 : FVec F S16384x16384 .f32) (main_arg1 : FVec F S16384x512 .f32) (main_arg2 : FVec F S512x256 .f32) (main_arg3 : FVec F S256x64 .f32) (main_arg4 : FVec F S256x64 .f32) (main_arg5 : FVec F S16384x64 .f32) : IVec S_ 1 :=
  let main_v0 : FVec F S16384x16384 .f32 := Host.absf main_arg0
  let main_cst : FVec F S_ .f32 := constant S_ .f32 0x7F800000#32
  let main_v1 : FVec F S16384x16384 .f32 := broadcastInDim S16384x16384 ![] bcast_S_S16384x16384 main_cst
  let main_v2 : IVec S16384x16384 1 := cmpf .olt main_v0 main_v1
  let main_c : IVec S_ 1 := constantI S_ 1 1#1
  let main_v3 : IVec S_ 1 := (fun x v => Host.reduce IntOp.andi x v reducesTo_S16384x16384_S_d0_1 h_S_) main_v2 main_c
  let main_v4 : FVec F S16384x512 .f32 := Host.absf main_arg1
  let main_cst_0 : FVec F S_ .f32 := constant S_ .f32 0x7F800000#32
  let main_v5 : FVec F S16384x512 .f32 := broadcastInDim S16384x512 ![] bcast_S_S16384x512 main_cst_0
  let main_v6 : IVec S16384x512 1 := cmpf .olt main_v4 main_v5
  let main_c_1 : IVec S_ 1 := constantI S_ 1 1#1
  let main_v7 : IVec S_ 1 := (fun x v => Host.reduce IntOp.andi x v reducesTo_S16384x512_S_d0_1 h_S_) main_v6 main_c_1
  let main_v8 : IVec S_ 1 := andi main_v3 main_v7
  let main_v9 : FVec F S512x256 .f32 := Host.absf main_arg2
  let main_cst_2 : FVec F S_ .f32 := constant S_ .f32 0x7F800000#32
  let main_v10 : FVec F S512x256 .f32 := broadcastInDim S512x256 ![] bcast_S_S512x256 main_cst_2
  let main_v11 : IVec S512x256 1 := cmpf .olt main_v9 main_v10
  let main_c_3 : IVec S_ 1 := constantI S_ 1 1#1
  let main_v12 : IVec S_ 1 := (fun x v => Host.reduce IntOp.andi x v reducesTo_S512x256_S_d0_1 h_S_) main_v11 main_c_3
  let main_v13 : IVec S_ 1 := andi main_v8 main_v12
  let main_v14 : FVec F S256x64 .f32 := Host.absf main_arg3
  let main_cst_4 : FVec F S_ .f32 := constant S_ .f32 0x7F800000#32
  let main_v15 : FVec F S256x64 .f32 := broadcastInDim S256x64 ![] bcast_S_S256x64 main_cst_4
  let main_v16 : IVec S256x64 1 := cmpf .olt main_v14 main_v15
  fn_part1 (F := F) main_arg4 main_arg5 main_v13 main_v16
-- ==== Kernel.lean ====
abbrev S16384x16384 : Shape := ⟨2, ![16384, 16384]⟩
abbrev S16384x512 : Shape := ⟨2, ![16384, 512]⟩
abbrev S512x256 : Shape := ⟨2, ![512, 256]⟩
abbrev S256x64 : Shape := ⟨2, ![256, 64]⟩
abbrev S16384x64 : Shape := ⟨2, ![16384, 64]⟩
abbrev S16384x256 : Shape := ⟨2, ![16384, 256]⟩
abbrev S2048x512 : Shape := ⟨2, ![2048, 512]⟩
abbrev S2048x256 : Shape := ⟨2, ![2048, 256]⟩
abbrev S1024x2048 : Shape := ⟨2, ![1024, 2048]⟩
abbrev S1024x256 : Shape := ⟨2, ![1024, 256]⟩
abbrev S2048x64 : Shape := ⟨2, ![2048, 64]⟩
abbrev S1024x64 : Shape := ⟨2, ![1024, 64]⟩

abbrev nBuf : Space → Nat
  | .hbm => 13
  | .vmem => 36
  | .smem => 0
  | _ => 0

abbrev bufTy : (tb : Table) → Fin (tcTables nBuf tb) → BufTy
  | .hbm, ⟨0, _⟩ => ⟨S16384x16384, .f32⟩
  | .hbm, ⟨1, _⟩ => ⟨S16384x512, .f32⟩
  | .hbm, ⟨2, _⟩ => ⟨S512x256, .f32⟩
  | .hbm, ⟨3, _⟩ => ⟨S256x64, .f32⟩
  | .hbm, ⟨4, _⟩ => ⟨S256x64, .f32⟩
  | .hbm, ⟨5, _⟩ => ⟨S16384x64, .f32⟩
  | .hbm, ⟨6, _⟩ => ⟨S16384x256, .bf16⟩
  | .hbm, ⟨7, _⟩ => ⟨S16384x256, .bf16⟩
  | .hbm, ⟨8, _⟩ => ⟨S16384x64, .bf16⟩
  | .hbm, ⟨9, _⟩ => ⟨S16384x64, .bf16⟩
  | .hbm, ⟨10, _⟩ => ⟨S16384x64, .f32⟩
  | .hbm, ⟨11, _⟩ => ⟨S16384x64, .f32⟩
  | .hbm, ⟨12, _⟩ => ⟨S16384x64, .f32⟩
  | .local _ .vmem, ⟨0, _⟩ => ⟨S2048x512, .f32⟩
  | .local _ .vmem, ⟨1, _⟩ => ⟨S2048x512, .f32⟩
  | .local _ .vmem, ⟨2, _⟩ => ⟨S512x256, .f32⟩
  | .local _ .vmem, ⟨3, _⟩ => ⟨S2048x256, .bf16⟩
  | .local _ .vmem, ⟨4, _⟩ => ⟨S2048x256, .bf16⟩
  | .local _ .vmem, ⟨5, _⟩ => ⟨S1024x2048, .f32⟩
  | .local _ .vmem, ⟨6, _⟩ => ⟨S1024x2048, .f32⟩
  | .local _ .vmem, ⟨7, _⟩ => ⟨S2048x256, .bf16⟩
  | .local _ .vmem, ⟨8, _⟩ => ⟨S2048x256, .bf16⟩
  | .local _ .vmem, ⟨9, _⟩ => ⟨S1024x256, .bf16⟩
  | .local _ .vmem, ⟨10, _⟩ => ⟨S1024x256, .bf16⟩
  | .local _ .vmem, ⟨11, _⟩ => ⟨S1024x256, .f32⟩
  | .local _ .vmem, ⟨12, _⟩ => ⟨S2048x256, .bf16⟩
  | .local _ .vmem, ⟨13, _⟩ => ⟨S2048x256, .bf16⟩
  | .local _ .vmem, ⟨14, _⟩ => ⟨S256x64, .f32⟩
  | .local _ .vmem, ⟨15, _⟩ => ⟨S256x64, .f32⟩
  | .local _ .vmem, ⟨16, _⟩ => ⟨S2048x64, .bf16⟩
  | .local _ .vmem, ⟨17, _⟩ => ⟨S2048x64, .bf16⟩
  | .local _ .vmem, ⟨18, _⟩ => ⟨S2048x64, .bf16⟩
  | .local _ .vmem, ⟨19, _⟩ => ⟨S2048x64, .bf16⟩
  | .local _ .vmem, ⟨20, _⟩ => ⟨S1024x2048, .f32⟩
  | .local _ .vmem, ⟨21, _⟩ => ⟨S1024x2048, .f32⟩
  | .local _ .vmem, ⟨22, _⟩ => ⟨S2048x64, .bf16⟩
  | .local _ .vmem, ⟨23, _⟩ => ⟨S2048x64, .bf16⟩
  | .local _ .vmem, ⟨24, _⟩ => ⟨S2048x64, .bf16⟩
  | .local _ .vmem, ⟨25, _⟩ => ⟨S2048x64, .bf16⟩
  | .local _ .vmem, ⟨26, _⟩ => ⟨S1024x64, .f32⟩
  | .local _ .vmem, ⟨27, _⟩ => ⟨S1024x64, .f32⟩
  | .local _ .vmem, ⟨28, _⟩ => ⟨S1024x64, .f32⟩
  | .local _ .vmem, ⟨29, _⟩ => ⟨S1024x64, .f32⟩
  | .local _ .vmem, ⟨30, _⟩ => ⟨S1024x64, .f32⟩
  | .local _ .vmem, ⟨31, _⟩ => ⟨S1024x64, .f32⟩
  | .local _ .vmem, ⟨32, _⟩ => ⟨S1024x64, .f32⟩
  | .local _ .vmem, ⟨33, _⟩ => ⟨S1024x64, .f32⟩
  | .local _ .vmem, ⟨34, _⟩ => ⟨S1024x64, .f32⟩
  | .local _ .vmem, ⟨35, _⟩ => ⟨S1024x64, .f32⟩
  | _, _ => ⟨S16384x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_scratch0 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc2_stg4_0 : Ref sig .tc := ⟨.vmem, 18, rfl⟩
abbrev cc2_stg4_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg2_1 : Ref sig .tc := ⟨.vmem, 25, rfl⟩
abbrev cc3_stg3_0 : Ref sig .tc := ⟨.vmem, 26, rfl⟩
abbrev cc3_stg3_1 : Ref sig .tc := ⟨.vmem, 27, rfl⟩
abbrev cc3_stg4_0 : Ref sig .tc := ⟨.vmem, 28, rfl⟩
abbrev cc3_stg4_1 : Ref sig .tc := ⟨.vmem, 29, rfl⟩
abbrev cc3_stg5_0 : Ref sig .tc := ⟨.vmem, 30, rfl⟩
abbrev cc3_stg5_1 : Ref sig .tc := ⟨.vmem, 31, rfl⟩
abbrev cc3_stg6_0 : Ref sig .tc := ⟨.vmem, 32, rfl⟩
abbrev cc3_stg6_1 : Ref sig .tc := ⟨.vmem, 33, rfl⟩
abbrev cc3_scratch0 : Ref sig .tc := ⟨.vmem, 34, rfl⟩
abbrev cc3_scratch1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16
abbrev cc2_sem4_0 : DmaSem sig := 17
abbrev cc2_sem4_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem3_1 : DmaSem sig := 26
abbrev cc3_sem4_0 : DmaSem sig := 27
abbrev cc3_sem4_1 : DmaSem sig := 28
abbrev cc3_sem5_0 : DmaSem sig := 29
abbrev cc3_sem5_1 : DmaSem sig := 30
abbrev cc3_sem6_0 : DmaSem sig := 31
abbrev cc3_sem6_1 : DmaSem sig := 32

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![16, 8], ![false, false]⟩

def k1_cond2 (i : grid1.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x256 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2048x256 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S256x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2048x64 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S2048x64 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨2, ![16, 8], ![false, false]⟩

def k3_cond2 (i : grid3.Coords) : BitVec 1 :=
  let arg1 : BitVec 32 := BitVec.ofNat 32 (i 1).val
  let c7_i32 : BitVec 32 := 7#32
  let v21 : BitVec 1 := Scalar.cmpi .eq arg1 c7_i32
  let v22 : BitVec 32 := Scalar.extui v21
  let c0_i32_15 : BitVec 32 := 0#32
  let v23 : BitVec 1 := Scalar.cmpi .ne v22 c0_i32_15
  v23

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S1024x2048 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S2048x64 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S2048x64 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![false, true]

abbrev stage3_3 : Fin 2 → Memref sig .tc .vmem S1024x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, false]

abbrev stage3_4 : Fin 2 → Memref sig .tc .vmem S1024x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, false]

abbrev stage3_5 : Fin 2 → Memref sig .tc .vmem S1024x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, false]

abbrev stage3_6 : Fin 2 → Memref sig .tc .vmem S1024x64 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true, false]

class Facts₀ : Prop where
  inb_S2048x512_S2048x512_0_0 : ∀ a, (![0, 0] : Fin 2 → Nat) a + S2048x512.size a ≤ S2048x512.size a
  h_S2048x512 : 0 < S2048x512.numel
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  inb_S2048x256_S2048x256_0_0 : ∀ a, (![0, 0] : Fin 2 → Nat) a + S2048x256.size a ≤ S2048x256.size a
  h_S2048x256 : 0 < S2048x256.numel
  packedbf16_S2048x256_S2048x256_0_0 : (Rect.unit (s := S2048x256) ![0, 0] S2048x256.size inb_S2048x256_S2048x256_0_0).PackedRows (EltTy.packing .bf16)
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1024x2048_S1024x2048_0_0 : ∀ a, (![0, 0] : Fin 2 → Nat) a + S1024x2048.size a ≤ S1024x2048.size a
  h_S1024x2048 : 0 < S1024x2048.numel
  shapeCasts_S2048x256_S2048x256 : S2048x256.ShapeCasts S2048x256
  packedbf16_S1024x256_S1024x256_0_0 : (Rect.unit (s := S1024x256) ![0, 0] S1024x256.size inb_S1024x256_S1024x256_0_0).PackedRows (EltTy.packing .bf16)
  inb_S256x64_S256x64_0_0 : ∀ a, (![0, 0] : Fin 2 → Nat) a + S256x64.size a ≤ S256x64.size a
  h_S256x64 : 0 < S256x64.numel
  inb_S2048x64_S2048x64_0_0 : ∀ a, (![0, 0] : Fin 2 → Nat) a + S2048x64.size a ≤ S2048x64.size a
  h_S2048x64 : 0 < S2048x64.numel
  packedbf16_S2048x64_S2048x64_0_0 : (Rect.unit (s := S2048x64) ![0, 0] S2048x64.size inb_S2048x64_S2048x64_0_0).PackedRows (EltTy.packing .bf16)
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  shapeCasts_S2048x64_S2048x64 : S2048x64.ShapeCasts S2048x64
  dot_S2048x512_S512x256_S2048x256_1_0_0_1_n_n_wf : DotDims.WF S2048x512 S512x256 S2048x256 [1] [0] [0] [1] [] []
  dot_S1024x2048_S2048x256_S1024x256_1_0_0_1_n_n_wf : DotDims.WF S1024x2048 S2048x256 S1024x256 [1] [0] [0] [1] [] []
  dot_S2048x256_S256x64_S2048x64_1_0_0_1_n_n_wf : DotDims.WF S2048x256 S256x64 S2048x64 [1] [0] [0] [1] [] []
  dot_S1024x2048_S2048x64_S1024x64_1_0_0_1_n_n_wf : DotDims.WF S1024x2048 S2048x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S16384x512.size a
  hwx0_0 : ∀ i : grid0.Coords, EltTy.bits .f32 = 32 ∨ (Rect.block (s := S16384x512) S2048x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x256.size a ≤ S16384x256.size a
  hwx0_2 : ∀ i : grid0.Coords, EltTy.bits .bf16 = 32 ∨ (Rect.block (s := S16384x256) S2048x256.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S16384x16384.size a
  hwx1_0 : ∀ i : grid1.Coords, EltTy.bits .f32 = 32 ∨ (Rect.block (s := S16384x16384) S1024x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x256.size a ≤ S16384x256.size a
  hwx1_1 : ∀ i : grid1.Coords, EltTy.bits .bf16 = 32 ∨ (Rect.block (s := S16384x256) S2048x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x256.size a ≤ S16384x256.size a
  hwx1_2 : ∀ i : grid1.Coords, EltTy.bits .bf16 = 32 ∨ (Rect.block (s := S16384x256) S1024x256.size (cc1_transform_2 i) (hinb1_2 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x256.size a ≤ S16384x256.size a
  hwx2_0 : ∀ i : grid2.Coords, EltTy.bits .bf16 = 32 ∨ (Rect.block (s := S16384x256) S2048x256.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x64.size a ≤ S256x64.size a
  hwx2_1 : ∀ i : grid2.Coords, EltTy.bits .f32 = 32 ∨ (Rect.block (s := S256x64) S256x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x64.size a ≤ S256x64.size a
  hwx2_2 : ∀ i : grid2.Coords, EltTy.bits .f32 = 32 ∨ (Rect.block (s := S256x64) S256x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2048x64.size a ≤ S16384x64.size a
  hwx2_3 : ∀ i : grid2.Coords, EltTy.bits .bf16 = 32 ∨ (Rect.block (s := S16384x64) S2048x64.size (cc2_transform_3 i) (hinb2_3 i)).WholeWords (EltTy.packing .bf16)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2048x64.size a ≤ S16384x64.size a
  hwx2_4 : ∀ i : grid2.Coords, EltTy.bits .bf16 = 32 ∨ (Rect.block (s := S16384x64) S2048x64.size (cc2_transform_4 i) (hinb2_4 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x2048.size a ≤ S16384x16384.size a
  hwx3_0 : ∀ i : grid3.Coords, EltTy.bits .f32 = 32 ∨ (Rect.block (s := S16384x16384) S1024x2048.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2048x64.size a ≤ S16384x64.size a
  hwx3_1 : ∀ i : grid3.Coords, EltTy.bits .bf16 = 32 ∨ (Rect.block (s := S16384x64) S2048x64.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2048x64.size a ≤ S16384x64.size a
  hwx3_2 : ∀ i : grid3.Coords, EltTy.bits .bf16 = 32 ∨ (Rect.block (s := S16384x64) S2048x64.size (cc3_transform_2 i) (hinb3_2 i)).WholeWords (EltTy.packing .bf16)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1024x64.size a ≤ S16384x64.size a
  hwx3_3 : ∀ i : grid3.Coords, EltTy.bits .f32 = 32 ∨ (Rect.block (s := S16384x64) S1024x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S1024x64.size a ≤ S16384x64.size a
  hwx3_4 : ∀ i : grid3.Coords, EltTy.bits .f32 = 32 ∨ (Rect.block (s := S16384x64) S1024x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S1024x64.size a ≤ S16384x64.size a
  hwx3_5 : ∀ i : grid3.Coords, EltTy.bits .f32 = 32 ∨ (Rect.block (s := S16384x64) S1024x64.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S1024x64.size a ≤ S16384x64.size a
  hwx3_6 : ∀ i : grid3.Coords, EltTy.bits .f32 = 32 ∨ (Rect.block (s := S16384x64) S1024x64.size (cc3_transform_6 i) (hinb3_6 i)).WholeWords (EltTy.packing .f32)

variable [Facts₀]

def dot_S2048x512_S512x256_S2048x256_1_0_0_1_n_n : DotDims S2048x512 S512x256 S2048x256 where
  lhsContracting := [1]
  rhsContracting := [0]
  lhsNonContracting := [0]
  rhsNonContracting := [1]
  lhsBatch := []
  rhsBatch := []
  wf := dot_S2048x512_S512x256_S2048x256_1_0_0_1_n_n_wf
def dot_S1024x2048_S2048x256_S1024x256_1_0_0_1_n_n : DotDims S1024x2048 S2048x256 S1024x256 where
  lhsContracting := [1]
  rhsContracting := [0]
  lhsNonContracting := [0]
  rhsNonContracting := [1]
  lhsBatch := []
  rhsBatch := []
  wf := dot_S1024x2048_S2048x256_S1024x256_1_0_0_1_n_n_wf
def dot_S2048x256_S256x64_S2048x64_1_0_0_1_n_n : DotDims S2048x256 S256x64 S2048x64 where
  lhsContracting := [1]
  rhsContracting := [0]
  lhsNonContracting := [0]
  rhsNonContracting := [1]
  lhsBatch := []
  rhsBatch := []
  wf := dot_S2048x256_S256x64_S2048x64_1_0_0_1_n_n_wf
def dot_S1024x2048_S2048x64_S1024x64_1_0_0_1_n_n : DotDims S1024x2048 S2048x64 S1024x64 where
  lhsContracting := [1]
  rhsContracting := [0]
  lhsNonContracting := [0]
  rhsNonContracting := [1]
  lhsBatch := []
  rhsBatch := []
  wf := dot_S1024x2048_S2048x64_S1024x64_1_0_0_1_n_n_wf

abbrev win0_0 : Pipeline.Window sig grid0 :=
  Pipeline.Window.ofSpec (Memref.whole main_arg1) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2048x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S2048x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1024x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

abbrev win2_0 : Pipeline.Window sig grid2 :=
  Pipeline.Window.ofSpec (Memref.whole main_v1) S2048x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg3) S256x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg4) S256x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v2_0) S2048x64.size cc2_transform_3 reads2_3 true false 2 stage2_3 sem2_3
    hrank2 hreads2_3 hinb2_3 nbuf2_3 (Memref.isWhole_whole _) hwx2_3 hstage2_3

abbrev win2_4 : Pipeline.Window sig grid2 :=
  Pipeline.Window.ofSpec (Memref.whole main_v2_1) S2048x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_arg0) S1024x2048.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v2_0) S2048x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v2_1) S2048x64.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg5) S1024x64.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v3_0) S1024x64.size cc3_transform_4 reads3_4 true false 2 stage3_4 sem3_4
    hrank3 hreads3_4 hinb3_4 nbuf3_4 (Memref.isWhole_whole _) hwx3_4 hstage3_4

abbrev win3_5 : Pipeline.Window sig grid3 :=
  Pipeline.Window.ofSpec (Memref.whole main_v3_1) S1024x64.size cc3_transform_5 reads3_5 true false 2 stage3_5 sem3_5
    hrank3 hreads3_5 hinb3_5 nbuf3_5 (Memref.isWhole_whole _) hwx3_5 hstage3_5

abbrev win3_6 : Pipeline.Window sig grid3 :=
  Pipeline.Window.ofSpec (Memref.whole main_v3_2) S1024x64.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev idle3 : Fin 7 → grid3.Coords → Bool := fun | 0 => fun _ => false | 1 => fun _ => false | 2 => fun _ => false | 3 => fun _ => false | 4 => fun i => !(k3_cond2 i == 1#1) | 5 => fun i => !(k3_cond2 i == 1#1) | 6 => fun i => !(k3_cond2 i == 1#1) | ⟨_ + 7, h⟩ => absurd h (Nat.not_lt.2 (Nat.le_add_left _ _))

class Facts : Prop extends Facts₀ where

variable [Facts]
-- ==== ReferenceIdeal.lean ====
abbrev S16384x16384 : Shape := ⟨2, ![16384, 16384]⟩
abbrev S16384x512 : Shape := ⟨2, ![16384, 512]⟩
abbrev S512x256 : Shape := ⟨2, ![512, 256]⟩
abbrev S256x64 : Shape := ⟨2, ![256, 64]⟩
abbrev S16384x64 : Shape := ⟨2, ![16384, 64]⟩
abbrev S16384x256 : Shape := ⟨2, ![16384, 256]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S16384x16384, .f32⟩
  | .hbm, ⟨1, _⟩ => ⟨S16384x512, .f32⟩
  | .hbm, ⟨2, _⟩ => ⟨S512x256, .f32⟩
  | .hbm, ⟨3, _⟩ => ⟨S256x64, .f32⟩
  | .hbm, ⟨4, _⟩ => ⟨S256x64, .f32⟩
  | .hbm, ⟨5, _⟩ => ⟨S16384x64, .f32⟩
  | .hbm, ⟨6, _⟩ => ⟨S16384x256, .f32⟩
  | .hbm, ⟨7, _⟩ => ⟨S16384x256, .f32⟩
  | .hbm, ⟨8, _⟩ => ⟨S16384x256, .f32⟩
  | .hbm, ⟨9, _⟩ => ⟨S16384x64, .f32⟩
  | .hbm, ⟨10, _⟩ => ⟨S16384x64, .f32⟩
  | .hbm, ⟨11, _⟩ => ⟨S16384x64, .f32⟩
  | .hbm, ⟨12, _⟩ => ⟨S16384x64, .f32⟩
  | .hbm, ⟨13, _⟩ => ⟨S_, .f32⟩
  | .hbm, ⟨14, _⟩ => ⟨S16384x64, .f32⟩
  | .hbm, ⟨15, _⟩ => ⟨S16384x64, .f32⟩
  | .hbm, ⟨16, _⟩ => ⟨S_, .f32⟩
  | .hbm, ⟨17, _⟩ => ⟨S16384x64, .f32⟩
  | .hbm, ⟨18, _⟩ => ⟨S16384x64, .f32⟩
  | .hbm, ⟨19, _⟩ => ⟨S16384x64, .f32⟩
  | .hbm, ⟨20, _⟩ => ⟨S16384x64, .f32⟩
  | _, _ => ⟨S16384x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_call0_cst : Ref sig .tc := ⟨.hbm, 13, rfl⟩
abbrev main_call0_v0 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩

abbrev nD : Nat := 1
abbrev τ : Topo := Topo.v7x

variable {F : FTy → Type} [FloatOps F]

class Facts₀ : Prop where
  bcast_S_S16384x64 : S_.BroadcastsInDim S16384x64 (![] : Fin 0 → Fin S16384x64.rank)
  dot_S16384x512_S512x256_S16384x256_1_0_0_1_n_n_wf : DotDims.WF S16384x512 S512x256 S16384x256 [1] [0] [0] [1] [] []
  dot_S16384x16384_S16384x256_S16384x256_1_0_0_1_n_n_wf : DotDims.WF S16384x16384 S16384x256 S16384x256 [1] [0] [0] [1] [] []
  dot_S16384x256_S256x64_S16384x64_1_0_0_1_n_n_wf : DotDims.WF S16384x256 S256x64 S16384x64 [1] [0] [0] [1] [] []
  dot_S16384x16384_S16384x64_S16384x64_1_0_0_1_n_n_wf : DotDims.WF S16384x16384 S16384x64 S16384x64 [1] [0] [0] [1] [] []

variable [Facts₀]

def dot_S16384x512_S512x256_S16384x256_1_0_0_1_n_n : DotDims S16384x512 S512x256 S16384x256 where
  lhsContracting := [1]
  rhsContracting := [0]
  lhsNonContracting := [0]
  rhsNonContracting := [1]
  lhsBatch := []
  rhsBatch := []
  wf := dot_S16384x512_S512x256_S16384x256_1_0_0_1_n_n_wf
def dot_S16384x16384_S16384x256_S16384x256_1_0_0_1_n_n : DotDims S16384x16384 S16384x256 S16384x256 where
  lhsContracting := [1]
  rhsContracting := [0]
  lhsNonContracting := [0]
  rhsNonContracting := [1]
  lhsBatch := []
  rhsBatch := []
  wf := dot_S16384x16384_S16384x256_S16384x256_1_0_0_1_n_n_wf
def dot_S16384x256_S256x64_S16384x64_1_0_0_1_n_n : DotDims S16384x256 S256x64 S16384x64 where
  lhsContracting := [1]
  rhsContracting := [0]
  lhsNonContracting := [0]
  rhsNonContracting := [1]
  lhsBatch := []
  rhsBatch := []
  wf := dot_S16384x256_S256x64_S16384x64_1_0_0_1_n_n_wf
def dot_S16384x16384_S16384x64_S16384x64_1_0_0_1_n_n : DotDims S16384x16384 S16384x64 S16384x64 where
  lhsContracting := [1]
  rhsContracting := [0]
  lhsNonContracting := [0]
  rhsNonContracting := [1]
  lhsBatch := []
  rhsBatch := []
  wf := dot_S16384x16384_S16384x64_S16384x64_1_0_0_1_n_n_wf

class Facts : Prop extends Facts₀ where

variable [Facts]
-- ==== Proof.Word.Basics.lean ====
/-
  A fact every launch's whole-tile accesses share.
-/
import proofs.«137944_j3831110828045_1_alg».proof.Proof.Gen.Kernel.Launch
import proofs.«137944_j3831110828045_1_alg».proof.Proof.Gen.Kernel.Skeleton
import proofs.«137944_j3831110828045_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The offsets of a whole-tile access are all zero. -/
theorem zero_off : (![0, 0] : Fin 2 → Nat) = fun _ => 0 := funext fun a => by fin_cases a <;> rfl

end Cert.Kernel.Hand

end
-- ==== Proof.Word.Reg0.lean ====
/-
  The first launch: a row tile of the feature matrix times the whole first weight matrix.
  At every one of its 8 grid points the body reads the point's 2048-row tile of the features and the weight
  matrix, and overwrites the point's 2048-row tile of the product with their matrix product. Stated for any
  contents `V` the launch finds in the arrays: what each window's buffer holds before and after the body, the
  body's run, and the per-point obligation of the pipeline rule.
-/
import proofs.«137944_j3831110828045_1_alg».proof.Proof.Word.Basics

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The feature tile's buffer holds the point's tile whether or not it was fetched at the point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight matrix's buffer holds the whole matrix at every point (its block index never moves). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

set_option maxHeartbeats 1000000 in
/-- The body on whole buffers: the two inputs are left as found, the product tile's buffer ends at the matrix product of the two loads. -/
theorem sound_kernel0 (c : Dev nD) (E : Set ℕ) (i : grid0.Coords) (arg1 : Memref sig .tc .vmem S2048x512 .f32) (harg1 : arg1.IsWhole) (arg2 : Memref sig .tc .vmem S512x256 .f32) (harg2 : arg2.IsWhole) (arg3 : Memref sig .tc .vmem S2048x256 .bf16) (harg3 : arg3.IsWhole)
    (x0 : Vec F S2048x512 .f32) (x1 : Vec F S512x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (k0_pay1 x0 x1)) -∗ K ⟨⟩))
      ⊢ wp frame (wpE (defs₀ (F := F)) Variants.none c none) E (cc0__dense_kernel i arg1 harg1 arg2 harg2 arg3 harg3) K := by
  simp only [cc0__dense_kernel_eq_skeleton]; unfold cc0__dense_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  refine (View.read_writes_eq_canon _ _ _ (fun y => ⟨_, List.mem_cons_self .., View.mem_set_unit_zero zero_off inb_S2048x256_S2048x256_0_0 y⟩)).trans ?_
  rw [View.canon_cons_unit_zero zero_off]
  try sl_unfold_words
  simp only [View.readAt_eq_ld, View.ld_unit_zero (S := S2048x512) zero_off, View.ld_unit_zero (S := S512x256) zero_off]

/-- The launch's proof data: the arrays as found; after the body each input's buffer at its block and the
    product tile's at the matrix product of the two blocks; the scratch side untouched; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay1 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = k0_pay1 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline rule's obligation at every point. -/
theorem body_obligation0 (c : Dev nD) : BodyObligation (dat0 (F := F) V c) (defs₀ (F := F)) Variants.none () Set.univ := fun t => by
  rw [bigSep_W0, bigSep_W0]
  exact sound_body0 V c t

end

end Cert.Kernel.Hand

end
-- ==== Proof.Word.Dat1.lean ====
/-
  The second launch's data: the adjacency matrix times the first product, accumulated over column tiles,
  then tanh. The grid is 16 row tiles by 8 column tiles, the column tile moving fastest. A scratch buffer of one
  1024 x 256 tile carries the running sum across the 8 column tiles of a row tile: at the first column tile
  it is reset to zero, at every column tile the product of the adjacency tile and the matching 2048 rows of
  the first product is added to it, and at the last column tile its tanh is written to the output tile.
  Here, for any contents `V` the launch finds in the arrays: which points are first and last column tiles,
  the running sum after every grid point (`acc1`), the invariant that holds the scratch at it, and the
  pipeline rule's proof data.
-/
import proofs.«137944_j3831110828045_1_alg».proof.Proof.Word.Basics

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## Which kind of point: first column tile, last column tile -/

/-- The body's first test: the column-tile coordinate is 0. -/
abbrev first1 (i : grid1.Coords) : Prop := (Scalar.cmpi .ne (Scalar.extui (Scalar.cmpi .eq (BitVec.ofNat 32 (i 1).val) 0#32)) 0#32) = 1#1
/-- The body's second test: the column-tile coordinate is 7. -/
abbrev last1 (i : grid1.Coords) : Prop := k1_cond2 i = 1#1

theorem first1_iff : ∀ t : Fin cfg1.N, first1 (grid1.coords t) ↔ t.val % 8 = 0 :=
  (by decide +kernel : ∀ t : Fin grid1.N, first1 (grid1.coords t) ↔ t.val % 8 = 0)
theorem last1_iff : ∀ t : Fin cfg1.N, last1 (grid1.coords t) ↔ t.val % 8 = 7 :=
  (by decide +kernel : ∀ t : Fin grid1.N, last1 (grid1.coords t) ↔ t.val % 8 = 7)

/-- The two input windows are never idle; the output window is idle, and not written back, away from the last
    column tile, and live at it. -/
theorem live1_0 : ∀ t : Fin cfg1.N, cfg1.idle 0 (grid1.coords t) = false := by decide +kernel
theorem live1_1 : ∀ t : Fin cfg1.N, cfg1.idle 1 (grid1.coords t) = false := by decide +kernel
theorem idle1_2 : ∀ t : Fin cfg1.N, ¬last1 (grid1.coords t) → cfg1.idle 2 (grid1.coords t) = true := by decide +kernel
theorem noflush1_2 : ∀ t : Fin cfg1.N, ¬last1 (grid1.coords t) → (cfg1.win 2).flush t = false := by decide +kernel
theorem live1_2 : ∀ t : Fin cfg1.N, last1 (grid1.coords t) → cfg1.idle 2 (grid1.coords t) = false := by decide +kernel

/-- The scratch tile, as a whole buffer. -/
abbrev scr1 : Memref sig .tc .vmem S1024x256 .f32 := Memref.whole cc1_scratch0

section
variable (V : (c : Dev nD) → (b : Ref sig .tc) → Buf (Elt F) ((c : Thread nD τ).loc b))

/-- Window `w`'s block at point `t`, read off its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input's buffer holds the point's block whether or not it was fetched at the point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- THE RUNNING SUM after point `n`: the point's tile product added to zero at a first column tile, to the
    running sum after the point before otherwise. -/
def acc1 (c : Dev nD) : (n : ℕ) → n < cfg1.N → Vec F S1024x256 .f32
  | 0, hn => k1_pay2 (iblk1 V c 0 ⟨0, hn⟩) (k1_pay1 (F := F)) (iblk1 V c 1 ⟨0, hn⟩)
  | n + 1, hn => k1_pay2 (iblk1 V c 0 ⟨n + 1, hn⟩)
      (if (n + 1) % 8 = 0 then (k1_pay1 (F := F)) else acc1 c n (Nat.lt_of_succ_lt hn)) (iblk1 V c 1 ⟨n + 1, hn⟩)

theorem acc1_first (c : Dev nD) (t : Fin cfg1.N) (h : t.val % 8 = 0) :
    acc1 V c t.val t.isLt = k1_pay2 (iblk1 V c 0 t) (k1_pay1 (F := F)) (iblk1 V c 1 t) := by
  obtain ⟨n, hn⟩ := t
  cases n with
  | zero => rfl
  | succ n => exact congrArg (fun z => k1_pay2 (iblk1 V c 0 ⟨n + 1, hn⟩) z (iblk1 V c 1 ⟨n + 1, hn⟩)) (if_pos h)

theorem acc1_next (c : Dev nD) (t : Fin cfg1.N) (h : ¬t.val % 8 = 0) :
    acc1 V c t.val t.isLt = k1_pay2 (iblk1 V c 0 t) (acc1 V c (t.val - 1) (Nat.lt_of_le_of_lt (Nat.sub_le _ _) t.isLt)) (iblk1 V c 1 t) := by
  obtain ⟨n, hn⟩ := t
  cases n with
  | zero => exact absurd (Nat.zero_mod _) h
  | succ n => exact congrArg (fun z => k1_pay2 (iblk1 V c 0 ⟨n + 1, hn⟩) z (iblk1 V c 1 ⟨n + 1, hn⟩)) (if_neg h)

/-- What rides beside the scratch in the invariant: every other scoped buffer that is no staging buffer of this
    launch, at some contents, and the generator register at some state. -/
def rest1 (c : Dev nD) : sProp 𝕄 :=
  iprop(Pipeline.scopedRestBut (Ix := Unit) (Name := ℕ) (U := UR sig nD τ) (Lvl := ℕ) (Val := Elt F) spec1 c [cc1_scratch0] ∗ ∃ r, prngReg c r)

/-- The invariant before point `n`: before the first point whatever the launch hands over; afterwards the scratch
    at the running sum after the point before. -/
def Phi1 (c : Dev nD) : (n : ℕ) → n ≤ cfg1.N → sProp 𝕄
  | 0, _ => Pipeline.ΦA spec1 c
  | n + 1, hn => iprop(owns (c : Thread nD τ) scr1 fullShare (acc1 V c n hn) ∗ rest1 (F := F) c)

/-- The launch's proof data: the arrays as found; after the body each input's buffer at its block and the output
    tile's at the tanh of the running sum (read only at last column tiles); the invariant `Phi1`; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => k1_pay3 (acc1 V c t.val t.isLt)
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = k1_pay3 (acc1 V c t.val t.isLt) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

end

end Cert.Kernel.Hand

end
-- ==== Proof.Word.Reg2.lean ====
/-
  The third launch: a row tile of the hidden layer times each head's whole weight matrix.
  At every one of its 8 grid points the body reads the point's 2048-row tile of the hidden layer and the two
  weight matrices, and overwrites the point's 2048-row tile of each of the two products. Stated for any
  contents `V` the launch finds in the arrays: what each window's buffer holds before and after the body, the
  body's run, and the per-point obligation of the pipeline rule.
-/
import proofs.«137944_j3831110828045_1_alg».proof.Proof.Word.Basics

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the launch finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Each input's buffer holds the point's block whether or not it was fetched at the point (a weight matrix's
    block index never moves). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

set_option maxHeartbeats 1000000 in
/-- The body on whole buffers: the three inputs are left as found, each product tile's buffer ends at the
    product of the hidden tile and that head's weights. -/
theorem run2 (c : Dev nD) (E : Set ℕ) (i : grid2.Coords) (arg1 : Memref sig .tc .vmem S2048x256 .bf16) (harg1 : arg1.IsWhole) (arg2 : Memref sig .tc .vmem S256x64 .f32) (harg2 : arg2.IsWhole) (arg3 : Memref sig .tc .vmem S256x64 .f32) (harg3 : arg3.IsWhole) (arg4 : Memref sig .tc .vmem S2048x64 .bf16) (harg4 : arg4.IsWhole) (arg5 : Memref sig .tc .vmem S2048x64 .bf16) (harg5 : arg5.IsWhole)
    (x0 : Vec F S2048x256 .bf16) (x1 : Vec F S256x64 .f32) (x2 : Vec F S256x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (k2_pay2 x0 x1) ∗ owns (c : Thread nD τ) arg5 fullShare (k2_pay3 x0 x2)) -∗ K ⟨⟩))
      ⊢ wp frame (wpE (defs₀ (F := F)) Variants.none c none) E (cc2__dual_kernel i arg1 harg1 arg2 harg2 arg3 harg3 arg4 harg4 arg5 harg5) K := by
  simp only [cc2__dual_kernel_eq_skeleton]; unfold cc2__dual_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    refine (View.read_writes_eq_canon _ _ _ (fun y => ⟨_, List.mem_cons_self .., View.mem_set_unit_zero zero_off inb_S2048x64_S2048x64_0_0 y⟩)).trans ?_
    rw [View.canon_cons_unit_zero zero_off]
    try sl_unfold_words
    simp only [View.readAt_eq_ld, View.ld_unit_zero (S := S2048x256) zero_off, View.ld_unit_zero (S := S256x64) zero_off]
  iexists _; isplitr
  swap; · iexact H4
  ipureintro
  refine (View.read_writes_eq_canon _ _ _ (fun y => ⟨_, List.mem_cons_self .., View.mem_set_unit_zero zero_off inb_S2048x64_S2048x64_0_0 y⟩)).trans ?_
  rw [View.canon_cons_unit_zero zero_off]
  try sl_unfold_words
  simp only [View.readAt_eq_ld, View.ld_unit_zero (S := S2048x256) zero_off, View.ld_unit_zero (S := S256x64) zero_off]

/-- The launch's proof data: the arrays as found; after the body each input's buffer at its block and each
    product tile's at the product of the hidden tile and the head's weights; the scratch side untouched. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => k2_pay2 (iblk2 V c 0 t) (iblk2 V c 1 t)
    | ⟨4, _⟩ => k2_pay3 (iblk2 V c 0 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = k2_pay2 (iblk2 V c 0 t) (iblk2 V c 1 t) := by dsimp only [dat2]
theorem after2_4 (c : Dev nD) (t : Fin cfg2.N) : (dat2 V c).after 4 t = k2_pay3 (iblk2 V c 0 t) (iblk2 V c 2 t) := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (run2 c Set.univ _ _ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline rule's obligation at every point. -/
theorem body_obligation2 (c : Dev nD) : BodyObligation (dat2 (F := F) V c) (defs₀ (F := F)) Variants.none () Set.univ := fun t => by
  rw [bigSep_W2, bigSep_W2]
  exact sound_body2 V c t

end

end Cert.Kernel.Hand

end
-- ==== Proof.Word.Dat3.lean ====
/-
  The fourth launch's data: the adjacency matrix times each head's product, accumulated over column tiles,
  then the heads' epilogue. The grid is 16 row tiles by 8 column tiles, the column tile moving fastest. Two scratch
  buffers of one 1024 x 64 tile each carry the two running sums (mean head, deviation head) across the 8 column
  tiles of a row tile: at the first column tile both are reset to zero, at every column tile the product of the
  adjacency tile and the matching 2048 rows of each head's product is added, and at the last column tile the
  three output tiles are written: the mean (the first sum), the deviation (the second sum clamped below at zero,
  plus a small constant) and the sample (noise times deviation plus mean).
  Here, for any contents `V` the launch finds in the arrays: which points are first and last column tiles, the
  two running sums after every grid point, the invariant that holds the scratch buffers at them, and the pipeline
  rule's proof data.
-/
import proofs.«137944_j3831110828045_1_alg».proof.Proof.Word.Basics

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## Which kind of point: first column tile, last column tile -/

/-- The body's first test: the column-tile coordinate is 0. -/
abbrev first3 (i : grid3.Coords) : Prop := (Scalar.cmpi .ne (Scalar.extui (Scalar.cmpi .eq (BitVec.ofNat 32 (i 1).val) 0#32)) 0#32) = 1#1
/-- The body's second test: the column-tile coordinate is 7. -/
abbrev last3 (i : grid3.Coords) : Prop := k3_cond2 i = 1#1

theorem first3_iff : ∀ t : Fin cfg3.N, first3 (grid3.coords t) ↔ t.val % 8 = 0 :=
  (by decide +kernel : ∀ t : Fin grid3.N, first3 (grid3.coords t) ↔ t.val % 8 = 0)
theorem last3_iff : ∀ t : Fin cfg3.N, last3 (grid3.coords t) ↔ t.val % 8 = 7 :=
  (by decide +kernel : ∀ t : Fin grid3.N, last3 (grid3.coords t) ↔ t.val % 8 = 7)

/-- The four input windows are never idle; each output window is idle, and not written back, away from the last
    column tile, and live at it. -/
theorem live3_0 : ∀ t : Fin cfg3.N, cfg3.idle 0 (grid3.coords t) = false := by decide +kernel
theorem live3_1 : ∀ t : Fin cfg3.N, cfg3.idle 1 (grid3.coords t) = false := by decide +kernel
theorem live3_2 : ∀ t : Fin cfg3.N, cfg3.idle 2 (grid3.coords t) = false := by decide +kernel
theorem live3_3 : ∀ t : Fin cfg3.N, cfg3.idle 3 (grid3.coords t) = false := by decide +kernel
theorem idle3_4 : ∀ t : Fin cfg3.N, ¬last3 (grid3.coords t) → cfg3.idle 4 (grid3.coords t) = true := by decide +kernel
theorem idle3_5 : ∀ t : Fin cfg3.N, ¬last3 (grid3.coords t) → cfg3.idle 5 (grid3.coords t) = true := by decide +kernel
theorem idle3_6 : ∀ t : Fin cfg3.N, ¬last3 (grid3.coords t) → cfg3.idle 6 (grid3.coords t) = true := by decide +kernel
theorem noflush3_4 : ∀ t : Fin cfg3.N, ¬last3 (grid3.coords t) → (cfg3.win 4).flush t = false := by decide +kernel
theorem noflush3_5 : ∀ t : Fin cfg3.N, ¬last3 (grid3.coords t) → (cfg3.win 5).flush t = false := by decide +kernel
theorem noflush3_6 : ∀ t : Fin cfg3.N, ¬last3 (grid3.coords t) → (cfg3.win 6).flush t = false := by decide +kernel
theorem live3_4 : ∀ t : Fin cfg3.N, last3 (grid3.coords t) → cfg3.idle 4 (grid3.coords t) = false := by decide +kernel
theorem live3_5 : ∀ t : Fin cfg3.N, last3 (grid3.coords t) → cfg3.idle 5 (grid3.coords t) = false := by decide +kernel
theorem live3_6 : ∀ t : Fin cfg3.N, last3 (grid3.coords t) → cfg3.idle 6 (grid3.coords t) = false := by decide +kernel

/-- The two scratch tiles, as whole buffers: the mean head's, the deviation head's. -/
abbrev scr3m : Memref sig .tc .vmem S1024x64 .f32 := Memref.whole cc3_scratch0
abbrev scr3s : Memref sig .tc .vmem S1024x64 .f32 := Memref.whole cc3_scratch1

section
variable (V : (c : Dev nD) → (b : Ref sig .tc) → Buf (Elt F) ((c : Thread nD τ).loc b))

/-- Window `w`'s block at point `t`, read off its array as the launch finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input's buffer holds the point's block whether or not it was fetched at the point (the noise tile is
    fetched at first column tiles only: its block index does not move in between). -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- THE MEAN HEAD'S RUNNING SUM after point `n`: the point's tile product added to zero at a first column tile,
    to the running sum after the point before otherwise. -/
def acc3m (c : Dev nD) : (n : ℕ) → n < cfg3.N → Vec F S1024x64 .f32
  | 0, hn => k3_pay4 (iblk3 V c 0 ⟨0, hn⟩) (k3_pay1 (F := F)) (iblk3 V c 1 ⟨0, hn⟩)
  | n + 1, hn => k3_pay4 (iblk3 V c 0 ⟨n + 1, hn⟩)
      (if (n + 1) % 8 = 0 then (k3_pay1 (F := F)) else acc3m c n (Nat.lt_of_succ_lt hn)) (iblk3 V c 1 ⟨n + 1, hn⟩)

/-- THE DEVIATION HEAD'S RUNNING SUM after point `n`, likewise. -/
def acc3s (c : Dev nD) : (n : ℕ) → n < cfg3.N → Vec F S1024x64 .f32
  | 0, hn => k3_pay5 (iblk3 V c 0 ⟨0, hn⟩) (k3_pay2 (F := F)) (iblk3 V c 2 ⟨0, hn⟩)
  | n + 1, hn => k3_pay5 (iblk3 V c 0 ⟨n + 1, hn⟩)
      (if (n + 1) % 8 = 0 then (k3_pay2 (F := F)) else acc3s c n (Nat.lt_of_succ_lt hn)) (iblk3 V c 2 ⟨n + 1, hn⟩)

theorem acc3m_first (c : Dev nD) (t : Fin cfg3.N) (h : t.val % 8 = 0) :
    acc3m V c t.val t.isLt = k3_pay4 (iblk3 V c 0 t) (k3_pay1 (F := F)) (iblk3 V c 1 t) := by
  obtain ⟨n, hn⟩ := t
  cases n with
  | zero => rfl
  | succ n => exact congrArg (fun z => k3_pay4 (iblk3 V c 0 ⟨n + 1, hn⟩) z (iblk3 V c 1 ⟨n + 1, hn⟩)) (if_pos h)
theorem acc3m_next (c : Dev nD) (t : Fin cfg3.N) (h : ¬t.val % 8 = 0) :
    acc3m V c t.val t.isLt = k3_pay4 (iblk3 V c 0 t) (acc3m V c (t.val - 1) (Nat.lt_of_le_of_lt (Nat.sub_le _ _) t.isLt)) (iblk3 V c 1 t) := by
  obtain ⟨n, hn⟩ := t
  cases n with
  | zero => exact absurd (Nat.zero_mod _) h
  | succ n => exact congrArg (fun z => k3_pay4 (iblk3 V c 0 ⟨n + 1, hn⟩) z (iblk3 V c 1 ⟨n + 1, hn⟩)) (if_neg h)
theorem acc3s_first (c : Dev nD) (t : Fin cfg3.N) (h : t.val % 8 = 0) :
    acc3s V c t.val t.isLt = k3_pay5 (iblk3 V c 0 t) (k3_pay2 (F := F)) (iblk3 V c 2 t) := by
  obtain ⟨n, hn⟩ := t
  cases n with
  | zero => rfl
  | succ n => exact congrArg (fun z => k3_pay5 (iblk3 V c 0 ⟨n + 1, hn⟩) z (iblk3 V c 2 ⟨n + 1, hn⟩)) (if_pos h)
theorem acc3s_next (c : Dev nD) (t : Fin cfg3.N) (h : ¬t.val % 8 = 0) :
    acc3s V c t.val t.isLt = k3_pay5 (iblk3 V c 0 t) (acc3s V c (t.val - 1) (Nat.lt_of_le_of_lt (Nat.sub_le _ _) t.isLt)) (iblk3 V c 2 t) := by
  obtain ⟨n, hn⟩ := t
  cases n with
  | zero => exact absurd (Nat.zero_mod _) h
  | succ n => exact congrArg (fun z => k3_pay5 (iblk3 V c 0 ⟨n + 1, hn⟩) z (iblk3 V c 2 ⟨n + 1, hn⟩)) (if_neg h)

/-- What rides beside the two scratch tiles in the invariant: every other scoped buffer that is no staging buffer
    of this launch, at some contents, and the generator register at some state. -/
def rest3 (c : Dev nD) : sProp 𝕄 :=
  iprop(Pipeline.scopedRestBut (Ix := Unit) (Name := ℕ) (U := UR sig nD τ) (Lvl := ℕ) (Val := Elt F) spec3 c [cc3_scratch0, cc3_scratch1] ∗ ∃ r, prngReg c r)

/-- The invariant before point `n`: before the first point whatever the launch hands over; afterwards the two
    scratch tiles at the running sums after the point before. -/
def Phi3 (c : Dev nD) : (n : ℕ) → n ≤ cfg3.N → sProp 𝕄
  | 0, _ => Pipeline.ΦA spec3 c
  | n + 1, hn => iprop(owns (c : Thread nD τ) scr3m fullShare (acc3m V c n hn) ∗ owns (c : Thread nD τ) scr3s fullShare (acc3s V c n hn) ∗ rest3 (F := F) c)

/-- The launch's proof data: the arrays as found; after the body each input's buffer at its block; the three
    output tiles (read only at last column tiles) at the sample, the mean and the deviation of the running sums;
    the invariant `Phi3`; nothing owed. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => k3_pay7 (acc3m V c t.val t.isLt) (acc3s V c t.val t.isLt) (iblk3 V c 3 t)
    | ⟨5, _⟩ => acc3m V c t.val t.isLt
    | ⟨6, _⟩ => k3_pay6 (acc3s V c t.val t.isLt)
  Φ t := Phi3 V c t.val (Nat.le_of_lt_succ t.isLt)
  q _ := fullShare
  owed _ := 0

theorem A_eq3 (c : Dev nD) (w : Fin cfg3.W) : (dat3 V c).A w = V c (Pipeline.arrRef spec3 w) := by
  dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = k3_pay7 (acc3m V c t.val t.isLt) (acc3s V c t.val t.isLt) (iblk3 V c 3 t) := by dsimp only [dat3]
theorem after3_5 (c : Dev nD) (t : Fin cfg3.N) : (dat3 V c).after 5 t = acc3m V c t.val t.isLt := by dsimp only [dat3]
theorem after3_6 (c : Dev nD) (t : Fin cfg3.N) : (dat3 V c).after 6 t = k3_pay6 (acc3s V c t.val t.isLt) := by dsimp only [dat3]
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

end

end Cert.Kernel.Hand

end
-- ==== Proof.Word.Fold.lean ====
/-
  The arrays' contents between the four launches, folded from the launch memory: each launch leaves its windows'
  arrays at what its write-backs computed from the contents it found, and every other array as it found it. From
  this fold: each launch's proof data at the contents it is entered with, every argument array read back to the
  launch memory (no launch writes one), and each intermediate and result array named as the launch that wrote it
  leaves it.
-/
import proofs.«137944_j3831110828045_1_alg».proof.Proof.Word.Reg0
import proofs.«137944_j3831110828045_1_alg».proof.Proof.Word.Dat1
import proofs.«137944_j3831110828045_1_alg».proof.Proof.Word.Reg2
import proofs.«137944_j3831110828045_1_alg».proof.Proof.Word.Dat3

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-- Core `c`'s arrays at launch. -/
abbrev W0 : Dev nD → Valuation τ sig (Elt F) := fun c b => m (c, b)
/-- The same read at the TensorCore's references: what the first launch finds. -/
abbrev E0 : (c : Dev nD) → (b : Ref sig .tc) → Buf (Elt F) ((c : Thread nD τ).loc b) := fun c b => W0 m c b

/-- After the first launch: its arrays at what its write-backs leave, the others as found. -/
def W1 (c : Dev nD) : Valuation τ sig (Elt F) :=
  Pipeline.withArrays spec0 c (W0 m c) fun w => (dat0 (E0 m) c).arrAt w cfg0.N
theorem W1_arr (c : Dev nD) (w : Fin cfg0.W) :
    W1 m c (Proc.devRef .tc (Pipeline.arrRef spec0 w)) = (dat0 (E0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
/-- What the second launch finds. -/
abbrev E1 : (c : Dev nD) → (b : Ref sig .tc) → Buf (Elt F) ((c : Thread nD τ).loc b) := fun c b => W1 m c b

/-- After the second launch. -/
def W2 (c : Dev nD) : Valuation τ sig (Elt F) :=
  Pipeline.withArrays spec1 c (W1 m c) fun w => (dat1 (E1 m) c).arrAt w cfg1.N
theorem W2_arr (c : Dev nD) (w : Fin cfg1.W) :
    W2 m c (Proc.devRef .tc (Pipeline.arrRef spec1 w)) = (dat1 (E1 m) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb
/-- What the third launch finds. -/
abbrev E2 : (c : Dev nD) → (b : Ref sig .tc) → Buf (Elt F) ((c : Thread nD τ).loc b) := fun c b => W2 m c b

/-- After the third launch. -/
def W3 (c : Dev nD) : Valuation τ sig (Elt F) :=
  Pipeline.withArrays spec2 c (W2 m c) fun w => (dat2 (E2 m) c).arrAt w cfg2.N
theorem W3_arr (c : Dev nD) (w : Fin cfg2.W) :
    W3 m c (Proc.devRef .tc (Pipeline.arrRef spec2 w)) = (dat2 (E2 m) c).arrAt w cfg2.N := by
  unfold W3; exact Pipeline.withArrays_arr spec2 launch2.win.arr_inj c _ _ w
theorem W3_of_ne (c : Dev nD) (b : Ref sig .tc) (hb : ∀ w, Pipeline.arrRef spec2 w ≠ b) :
    W3 m c (Proc.devRef .tc b) = W2 m c (Proc.devRef .tc b) := by
  unfold W3; exact Pipeline.withArrays_of_ne spec2 c _ _ b hb
/-- What the fourth launch finds. -/
abbrev E3 : (c : Dev nD) → (b : Ref sig .tc) → Buf (Elt F) ((c : Thread nD τ).loc b) := fun c b => W3 m c b

/-- After the fourth launch: the program's end. -/
def W4 (c : Dev nD) : Valuation τ sig (Elt F) :=
  Pipeline.withArrays spec3 c (W3 m c) fun w => (dat3 (E3 m) c).arrAt w cfg3.N
theorem W4_arr (c : Dev nD) (w : Fin cfg3.W) :
    W4 m c (Proc.devRef .tc (Pipeline.arrRef spec3 w)) = (dat3 (E3 m) c).arrAt w cfg3.N := by
  unfold W4; exact Pipeline.withArrays_arr spec3 launch3.win.arr_inj c _ _ w
theorem W4_of_ne (c : Dev nD) (b : Ref sig .tc) (hb : ∀ w, Pipeline.arrRef spec3 w ≠ b) :
    W4 m c (Proc.devRef .tc b) = W3 m c (Proc.devRef .tc b) := by
  unfold W4; exact Pipeline.withArrays_of_ne spec3 c _ _ b hb
/-- The contents at the program's end, read at the TensorCore's references. -/
abbrev E4 : (c : Dev nD) → (b : Ref sig .tc) → Buf (Elt F) ((c : Thread nD τ).loc b) := fun c b => W4 m c b

/-! ## What each launch's exit needs: its arrays at the next contents, the others unchanged -/

theorem exitArr0 (c : Dev nD) (w : Fin cfg0.W) : (dat0 (E0 m) c).arrAt w cfg0.N = E1 m c (Pipeline.arrRef spec0 w) := (W1_arr m c w).symm
theorem exitRest0 (c : Dev nD) : ∀ b, b ∉ Finset.univ.image (Pipeline.arrRef spec0) → E1 m c b = E0 m c b :=
  fun b hb => W1_of_ne m c b fun w e => hb (Finset.mem_image.mpr ⟨w, Finset.mem_univ _, e⟩)
theorem exitArr1 (c : Dev nD) (w : Fin cfg1.W) : (dat1 (E1 m) c).arrAt w cfg1.N = E2 m c (Pipeline.arrRef spec1 w) := (W2_arr m c w).symm
theorem exitRest1 (c : Dev nD) : ∀ b, b ∉ Finset.univ.image (Pipeline.arrRef spec1) → E2 m c b = E1 m c b :=
  fun b hb => W2_of_ne m c b fun w e => hb (Finset.mem_image.mpr ⟨w, Finset.mem_univ _, e⟩)
theorem exitArr2 (c : Dev nD) (w : Fin cfg2.W) : (dat2 (E2 m) c).arrAt w cfg2.N = E3 m c (Pipeline.arrRef spec2 w) := (W3_arr m c w).symm
theorem exitRest2 (c : Dev nD) : ∀ b, b ∉ Finset.univ.image (Pipeline.arrRef spec2) → E3 m c b = E2 m c b :=
  fun b hb => W3_of_ne m c b fun w e => hb (Finset.mem_image.mpr ⟨w, Finset.mem_univ _, e⟩)
theorem exitArr3 (c : Dev nD) (w : Fin cfg3.W) : (dat3 (E3 m) c).arrAt w cfg3.N = E4 m c (Pipeline.arrRef spec3 w) := (W4_arr m c w).symm
theorem exitRest3 (c : Dev nD) : ∀ b, b ∉ Finset.univ.image (Pipeline.arrRef spec3) → E4 m c b = E3 m c b :=
  fun b hb => W4_of_ne m c b fun w e => hb (Finset.mem_image.mpr ⟨w, Finset.mem_univ _, e⟩)

/-! ## An input window's array is left as found -/

theorem W1_in (c : Dev nD) (w : Fin cfg0.W) (hw : (cfg0.win w).isOut = false) :
    W1 m c (Proc.devRef .tc (Pipeline.arrRef spec0 w)) = W0 m c (Proc.devRef .tc (Pipeline.arrRef spec0 w)) :=
  (W1_arr m c w).trans (((dat0 (E0 m) c).arrAt_in w hw _).trans (A_eq0 (E0 m) c w))
theorem W2_in (c : Dev nD) (w : Fin cfg1.W) (hw : (cfg1.win w).isOut = false) :
    W2 m c (Proc.devRef .tc (Pipeline.arrRef spec1 w)) = W1 m c (Proc.devRef .tc (Pipeline.arrRef spec1 w)) :=
  (W2_arr m c w).trans (((dat1 (E1 m) c).arrAt_in w hw _).trans (A_eq1 (E1 m) c w))
theorem W3_in (c : Dev nD) (w : Fin cfg2.W) (hw : (cfg2.win w).isOut = false) :
    W3 m c (Proc.devRef .tc (Pipeline.arrRef spec2 w)) = W2 m c (Proc.devRef .tc (Pipeline.arrRef spec2 w)) :=
  (W3_arr m c w).trans (((dat2 (E2 m) c).arrAt_in w hw _).trans (A_eq2 (E2 m) c w))
theorem W4_in (c : Dev nD) (w : Fin cfg3.W) (hw : (cfg3.win w).isOut = false) :
    W4 m c (Proc.devRef .tc (Pipeline.arrRef spec3 w)) = W3 m c (Proc.devRef .tc (Pipeline.arrRef spec3 w)) :=
  (W4_arr m c w).trans (((dat3 (E3 m) c).arrAt_in w hw _).trans (A_eq3 (E3 m) c w))

end Cert.Kernel.Hand

end
-- ==== Proof.Word.Run1.lean ====
/-
  The second launch's body, run in each of its three kinds of grid point: a first column tile (the scratch is
  reset, then the tile product added), a middle one (the tile product added to what the scratch holds) and a last
  one (the same, then the tanh of the sum stored to the output tile). Each run names what the scratch and the
  output buffer end holding, as the printed body's own arithmetic of what it loaded.
-/
import proofs.«137944_j3831110828045_1_alg».proof.Proof.Word.Dat1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The body's run in each kind of point -/

section Runs

set_option maxHeartbeats 1000000 in
/-- First column tile: the scratch, whatever it held, ends at the tile product added to zero; the output
    buffer is not touched. -/
theorem run1_first (c : Dev nD) (E : Set ℕ) (i : grid1.Coords) (arg2 : Memref sig .tc .vmem S1024x2048 .f32) (harg2 : arg2.IsWhole) (arg3 : Memref sig .tc .vmem S2048x256 .bf16) (harg3 : arg3.IsWhole) (arg4 : Memref sig .tc .vmem S1024x256 .bf16) (harg4 : arg4.IsWhole) (arg5 : Memref sig .tc .vmem S1024x256 .f32) (harg5 : arg5.IsWhole)
    (h0 : first1 i) (h7 : ¬last1 i)
    (x0 : Vec F S1024x2048 .f32) (x1 : Vec F S2048x256 .bf16) (d4 : Vec F S1024x256 .bf16) (K : PUnit → sProp 𝕄) :
    iprop(owns (c : Thread nD τ) arg2 fullShare x0 ∗ owns (c : Thread nD τ) arg3 fullShare x1 ∗ owns (c : Thread nD τ) arg4 fullShare d4 ∗ (∃ d, owns (c : Thread nD τ) arg5 fullShare d)
        ∗ (iprop(owns (c : Thread nD τ) arg2 fullShare x0 ∗ owns (c : Thread nD τ) arg3 fullShare x1 ∗ owns (c : Thread nD τ) arg4 fullShare d4 ∗ owns (c : Thread nD τ) arg5 fullShare (k1_pay2 x0 (k1_pay1 (F := F)) x1)) -∗ K ⟨⟩))
      ⊢ wp frame (wpE (defs₀ (F := F)) Variants.none c none) E (cc1__adjmm_tanh_kernel i arg2 harg2 arg3 harg3 arg4 harg4 arg5 harg5) K := by
  simp only [cc1__adjmm_tanh_kernel_eq_skeleton]; unfold cc1__adjmm_tanh_kernel_skel
  unfold owns
  iintro ⟨⟨%f0, %hf0, H0⟩, ⟨%f1, %hf1, H1⟩, ⟨%f4, %hf4, H4⟩, ⟨%d5, %f5, -, H5⟩, Hk⟩
  subst hf0; subst hf1; subst hf4
  sl_exec (disch := first | exact h0 | exact h7)
  sl_step
  iapply Hk
  isplitl [H0]
  · iexists f0; isplitr; · ipureintro; rfl
    iexact H0
  isplitl [H1]
  · iexists f1; isplitr; · ipureintro; rfl
    iexact H1
  isplitl [H4]
  · iexists f4; isplitr; · ipureintro; rfl
    iexact H4
  iexists _; isplitr
  swap; · iexact H5
  ipureintro
  refine (View.read_writes_eq_canon _ _ _ (fun y => ⟨_, List.mem_cons_self .., View.mem_set_unit_zero zero_off inb_S1024x256_S1024x256_0_0 y⟩)).trans ?_
  rw [View.canon_cons_unit_zero zero_off]
  sl_unfold_words
  simp only [View.readAt_eq_ld, View.ld_unit_zero (S := S1024x2048) zero_off, View.ld_unit_zero (S := S2048x256) zero_off, View.readCov_unit_zero (S := S1024x256) _ zero_off]

set_option maxHeartbeats 1000000 in
/-- A middle column tile: the scratch at `xs` ends at `xs` plus the tile product; the output buffer is not touched. -/
theorem run1_mid (c : Dev nD) (E : Set ℕ) (i : grid1.Coords) (arg2 : Memref sig .tc .vmem S1024x2048 .f32) (harg2 : arg2.IsWhole) (arg3 : Memref sig .tc .vmem S2048x256 .bf16) (harg3 : arg3.IsWhole) (arg4 : Memref sig .tc .vmem S1024x256 .bf16) (harg4 : arg4.IsWhole) (arg5 : Memref sig .tc .vmem S1024x256 .f32) (harg5 : arg5.IsWhole)
    (h0 : ¬first1 i) (h7 : ¬last1 i)
    (x0 : Vec F S1024x2048 .f32) (x1 : Vec F S2048x256 .bf16) (d4 : Vec F S1024x256 .bf16) (xs : Vec F S1024x256 .f32) (K : PUnit → sProp 𝕄) :
    iprop(owns (c : Thread nD τ) arg2 fullShare x0 ∗ owns (c : Thread nD τ) arg3 fullShare x1 ∗ owns (c : Thread nD τ) arg4 fullShare d4 ∗ owns (c : Thread nD τ) arg5 fullShare xs
        ∗ (iprop(owns (c : Thread nD τ) arg2 fullShare x0 ∗ owns (c : Thread nD τ) arg3 fullShare x1 ∗ owns (c : Thread nD τ) arg4 fullShare d4 ∗ owns (c : Thread nD τ) arg5 fullShare (k1_pay2 x0 xs x1)) -∗ K ⟨⟩))
      ⊢ wp frame (wpE (defs₀ (F := F)) Variants.none c none) E (cc1__adjmm_tanh_kernel i arg2 harg2 arg3 harg3 arg4 harg4 arg5 harg5) K := by
  simp only [cc1__adjmm_tanh_kernel_eq_skeleton]; unfold cc1__adjmm_tanh_kernel_skel
  unfold owns
  iintro ⟨⟨%f0, %hf0, H0⟩, ⟨%f1, %hf1, H1⟩, ⟨%f4, %hf4, H4⟩, ⟨%f5, %hf5, H5⟩, Hk⟩
  subst hf0; subst hf1; subst hf4; subst hf5
  sl_exec (disch := first | exact h0 | exact h7)
  sl_step
  iapply Hk
  isplitl [H0]
  · iexists f0; isplitr; · ipureintro; rfl
    iexact H0
  isplitl [H1]
  · iexists f1; isplitr; · ipureintro; rfl
    iexact H1
  isplitl [H4]
  · iexists f4; isplitr; · ipureintro; rfl
    iexact H4
  iexists _; isplitr
  swap; · iexact H5
  ipureintro
  refine (View.read_writes_eq_canon _ _ _ (fun y => ⟨_, List.mem_cons_self .., View.mem_set_unit_zero zero_off inb_S1024x256_S1024x256_0_0 y⟩)).trans ?_
  rw [View.canon_cons_unit_zero zero_off]
  try sl_unfold_words
  simp only [View.readAt_eq_ld, View.ld_unit_zero (S := S1024x2048) zero_off, View.ld_unit_zero (S := S2048x256) zero_off, View.ld_unit_zero (S := S1024x256) zero_off]

set_option maxHeartbeats 1000000 in
/-- Last column tile: the scratch at `xs` ends at `xs` plus the tile product, and the output buffer, whatever
    it held, at the tanh of that sum. -/
theorem run1_last (c : Dev nD) (E : Set ℕ) (i : grid1.Coords) (arg2 : Memref sig .tc .vmem S1024x2048 .f32) (harg2 : arg2.IsWhole) (arg3 : Memref sig .tc .vmem S2048x256 .bf16) (harg3 : arg3.IsWhole) (arg4 : Memref sig .tc .vmem S1024x256 .bf16) (harg4 : arg4.IsWhole) (arg5 : Memref sig .tc .vmem S1024x256 .f32) (harg5 : arg5.IsWhole)
    (h0 : ¬first1 i) (h7 : last1 i)
    (x0 : Vec F S1024x2048 .f32) (x1 : Vec F S2048x256 .bf16) (xs : Vec F S1024x256 .f32) (K : PUnit → sProp 𝕄) :
    iprop(owns (c : Thread nD τ) arg2 fullShare x0 ∗ owns (c : Thread nD τ) arg3 fullShare x1 ∗ (∃ d, owns (c : Thread nD τ) arg4 fullShare d) ∗ owns (c : Thread nD τ) arg5 fullShare xs
        ∗ (iprop(owns (c : Thread nD τ) arg2 fullShare x0 ∗ owns (c : Thread nD τ) arg3 fullShare x1 ∗ owns (c : Thread nD τ) arg4 fullShare (k1_pay3 (k1_pay2 x0 xs x1)) ∗ owns (c : Thread nD τ) arg5 fullShare (k1_pay2 x0 xs x1)) -∗ K ⟨⟩))
      ⊢ wp frame (wpE (defs₀ (F := F)) Variants.none c none) E (cc1__adjmm_tanh_kernel i arg2 harg2 arg3 harg3 arg4 harg4 arg5 harg5) K := by
  simp only [cc1__adjmm_tanh_kernel_eq_skeleton]; unfold cc1__adjmm_tanh_kernel_skel
  unfold owns
  iintro ⟨⟨%f0, %hf0, H0⟩, ⟨%f1, %hf1, H1⟩, ⟨%d4, %f4, -, H4⟩, ⟨%f5, %hf5, H5⟩, Hk⟩
  subst hf0; subst hf1; subst hf5
  sl_exec (disch := first | exact h0 | exact h7)
  sl_step
  iapply Hk
  isplitl [H0]
  · iexists f0; isplitr; · ipureintro; rfl
    iexact H0
  isplitl [H1]
  · iexists f1; isplitr; · ipureintro; rfl
    iexact H1
  isplitl [H4]
  · iexists _; isplitr
    swap; · iexact H4
    ipureintro
    refine (View.read_writes_eq_canon _ _ _ (fun y => ⟨_, List.mem_cons_self .., View.mem_set_unit_zero zero_off inb_S1024x256_S1024x256_0_0 y⟩)).trans ?_
    rw [View.canon_cons_unit_zero zero_off]
    try sl_unfold_words
    simp only [View.readAt_eq_ld, View.ld_unit_zero (S := S1024x2048) zero_off, View.ld_unit_zero (S := S2048x256) zero_off, View.ld_unit_zero (S := S1024x256) zero_off, View.readCov_unit_zero (S := S1024x256) _ zero_off]
  iexists _; isplitr
  swap; · iexact H5
  ipureintro
  refine (View.read_writes_eq_canon _ _ _ (fun y => ⟨_, List.mem_cons_self .., View.mem_set_unit_zero zero_off inb_S1024x256_S1024x256_0_0 y⟩)).trans ?_
  rw [View.canon_cons_unit_zero zero_off]
  try sl_unfold_words
  simp only [View.readAt_eq_ld, View.ld_unit_zero (S := S1024x2048) zero_off, View.ld_unit_zero (S := S2048x256) zero_off, View.ld_unit_zero (S := S1024x256) zero_off]

end Runs

end Cert.Kernel.Hand

end
-- ==== Proof.Word.Obl1.lean ====
/-
  The second launch's per-point obligation: at every grid point the invariant hands the body the scratch — at
  anything at a first column tile, at the running sum after the point before otherwise — and takes it back at the
  running sum after this point; the output buffer is stored only at a last column tile. Also: what the launch hands
  over is the invariant before the first point, and the invariant after the last point gives it back.
-/
import proofs.«137944_j3831110828045_1_alg».proof.Proof.Word.Run1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- What the launch hands the body beside the windows, opened at the scratch. -/
theorem PhiA1_open (c : Dev nD) :
    (Pipeline.ΦA spec1 c : sProp 𝕄) ⊢ iprop((∃ d, owns (c : Thread nD τ) scr1 fullShare d) ∗ rest1 (F := F) c) := by
  unfold Pipeline.ΦA rest1; rw [scopedRest1_split]; simp only [scr1, owns_whole]
  iintro ⟨⟨Hs, Hb⟩, Hg⟩
  isplitl [Hs]; · iexact Hs
  isplitl [Hb]; · iexact Hb
  iexact Hg

/-- and closed again, the scratch's contents forgotten. -/
theorem PhiA1_close (c : Dev nD) :
    iprop((∃ d, owns (c : Thread nD τ) scr1 fullShare d) ∗ rest1 (F := F) c) ⊢ (Pipeline.ΦA spec1 c : sProp 𝕄) := by
  unfold Pipeline.ΦA rest1; rw [scopedRest1_split]; simp only [scr1, owns_whole]
  iintro ⟨Hs, Hb, Hg⟩
  isplitl [Hs Hb]
  · isplitl [Hs]; · iexact Hs
    iexact Hb
  iexact Hg

/-- Before any point the invariant holds the scratch at SOME contents beside the rest. -/
theorem Phi1_any (c : Dev nD) (n : ℕ) (h : n ≤ cfg1.N) :
    Phi1 V c n h ⊢ iprop((∃ d, owns (c : Thread nD τ) scr1 fullShare d) ∗ rest1 (F := F) c) := by
  cases n with
  | zero => exact PhiA1_open c
  | succ n =>
    show iprop(owns (c : Thread nD τ) scr1 fullShare (acc1 V c n h) ∗ rest1 (F := F) c) ⊢ _
    iintro ⟨Hs, Hr⟩
    isplitl [Hs]; · iexists _; iexact Hs
    iexact Hr

/-- Before a point that is not the first, at the running sum after the point before. -/
theorem Phi1_pos (c : Dev nD) (n : ℕ) (h : n ≤ cfg1.N) (hz : n ≠ 0) :
    Phi1 V c n h = iprop(owns (c : Thread nD τ) scr1 fullShare (acc1 V c (n - 1) (by omega)) ∗ rest1 (F := F) c) := by
  cases n with
  | zero => exact absurd rfl hz
  | succ n => rfl

theorem Phi1_castSucc (c : Dev nD) (t : Fin cfg1.N) :
    (dat1 V c).Φ t.castSucc = Phi1 V c t.val (Nat.le_of_lt t.isLt) := by
  dsimp only [dat1]; simp only [Fin.coe_castSucc]

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl,
    show (dat1 V c).Φ t.succ = iprop(owns (c : Thread nD τ) scr1 fullShare (acc1 V c t.val t.isLt) ∗ rest1 (F := F) c) from rfl,
    Phi1_castSucc,
    show (dat1 V c).leavesExact 0 t = owns (c : Thread nD τ) (st1_0 t) fullShare ((dat1 V c).after 0 t) from by
      unfold Dat.leavesExact; rw [live1_0 t],
    show (dat1 V c).leavesExact 1 t = owns (c : Thread nD τ) (st1_1 t) fullShare ((dat1 V c).after 1 t) from by
      unfold Dat.leavesExact; rw [live1_1 t],
    after1_0, after1_1]
  have hN : t.val < 128 := lt_of_lt_of_eq t.isLt N_1
  by_cases h0 : t.val % 8 = 0
  · -- a first column tile
    have hf : first1 (grid1.coords t) := (first1_iff t).mpr h0
    have hl : ¬last1 (grid1.coords t) := fun h => by have := (last1_iff t).mp h; omega
    rw [Dat.leavesExact_idle (dat1 V c) 2 t (idle1_2 t hl) (noflush1_2 t hl), acc1_first V c t h0]
    iintro ⟨HΦ, Ho, ⟨%d0, H0⟩, ⟨%d1, H1⟩, ⟨%d2, H2⟩⟩
    ihave HΦ' := (Phi1_any V c t.val _) $$ HΦ
    icases HΦ' with ⟨Hs, Hr⟩
    iapply (run1_first c Set.univ (grid1.coords t) _ _ _ _ _ _ _ _ hf hl (iblk1 V c 0 t) (iblk1 V c 1 t) _ _)
    isplitl [H0]; · iexact H0
    isplitl [H1]; · iexact H1
    isplitl [H2]; · iexact H2
    isplitl [Hs]; · iexact Hs
    iintro ⟨H0, H1, H2, Hs⟩
    isplitl [Hs Hr]
    · isplitl [Hs]; · iexact Hs
      iexact Hr
    isplitl [Ho]; · iexact Ho
    isplitl [H0]; · iexact H0
    isplitl [H1]; · iexact H1
    iexists _; iexact H2
  · have hf : ¬first1 (grid1.coords t) := fun h => h0 ((first1_iff t).mp h)
    have hz : t.val ≠ 0 := fun e => h0 (by rw [e])
    rw [Phi1_pos V c _ _ hz, acc1_next V c t h0]
    by_cases h7 : t.val % 8 = 7
    · -- a last column tile
      have hl : last1 (grid1.coords t) := (last1_iff t).mpr h7
      rw [show (dat1 V c).leavesExact 2 t = owns (c : Thread nD τ) (st1_2 t) fullShare ((dat1 V c).after 2 t) from by
        unfold Dat.leavesExact; rw [live1_2 t hl], after1_2, acc1_next V c t h0]
      iintro ⟨⟨Hs, Hr⟩, Ho, ⟨%d0, H0⟩, ⟨%d1, H1⟩, ⟨%d2, H2⟩⟩
      iapply (run1_last c Set.univ (grid1.coords t) _ _ _ _ _ _ _ _ hf hl (iblk1 V c 0 t) (iblk1 V c 1 t) _ _)
      isplitl [H0]; · iexact H0
      isplitl [H1]; · iexact H1
      isplitl [H2]; · iexists _; iexact H2
      isplitl [Hs]; · iexact Hs
      iintro ⟨H0, H1, H2, Hs⟩
      isplitl [Hs Hr]
      · isplitl [Hs]; · iexact Hs
        iexact Hr
      isplitl [Ho]; · iexact Ho
      isplitl [H0]; · iexact H0
      isplitl [H1]; · iexact H1
      iexact H2
    · -- a middle column tile
      have hl : ¬last1 (grid1.coords t) := fun h => h7 ((last1_iff t).mp h)
      rw [Dat.leavesExact_idle (dat1 V c) 2 t (idle1_2 t hl) (noflush1_2 t hl)]
      iintro ⟨⟨Hs, Hr⟩, Ho, ⟨%d0, H0⟩, ⟨%d1, H1⟩, ⟨%d2, H2⟩⟩
      iapply (run1_mid c Set.univ (grid1.coords t) _ _ _ _ _ _ _ _ hf hl (iblk1 V c 0 t) (iblk1 V c 1 t) _ _ _)
      isplitl [H0]; · iexact H0
      isplitl [H1]; · iexact H1
      isplitl [H2]; · iexact H2
      isplitl [Hs]; · iexact Hs
      iintro ⟨H0, H1, H2, Hs⟩
      isplitl [Hs Hr]
      · isplitl [Hs]; · iexact Hs
        iexact Hr
      isplitl [Ho]; · iexact Ho
      isplitl [H0]; · iexact H0
      isplitl [H1]; · iexact H1
      iexists _; iexact H2

/-- The pipeline rule's obligation at every point. -/
theorem body_obligation1 (c : Dev nD) : BodyObligation (dat1 (F := F) V c) (defs₀ (F := F)) Variants.none () Set.univ := fun t => by
  rw [bigSep_W1, bigSep_W1]
  exact sound_body1 V c t

/-- What the launch hands over is the invariant before the first point. -/
theorem hin1 (c : Dev nD) : Pipeline.ΦA spec1 c ⊢ (dat1 V c).Φ 0 := by
  rw [show (dat1 V c).Φ 0 = Pipeline.ΦA spec1 c from rfl]

/-- The invariant after the last point gives it back, the scratch's contents forgotten. -/
theorem hout1 (c : Dev nD) : (dat1 V c).Φ (Fin.last cfg1.N) ⊢ Pipeline.ΦA spec1 c := by
  rw [show (dat1 V c).Φ (Fin.last cfg1.N) = Phi1 V c (Fin.last cfg1.N).val (Nat.le_of_lt_succ (Fin.last cfg1.N).isLt) from rfl]
  exact (Phi1_any V c _ _).trans (PhiA1_close c)

end

end Cert.Kernel.Hand

end
-- ==== Proof.Word.Run3.lean ====
/-
  The fourth launch's body, run in each of its three kinds of grid point: a first column tile (both scratch tiles
  are reset, then each head's tile product is added), a middle one (each tile product is added to what its scratch
  holds) and a last one (the same, then the three output tiles are stored: the sample, the mean, the deviation).
  Each run names what the two scratch tiles and the three output buffers end holding, as the printed body's own
  arithmetic of what it loaded.
-/
import proofs.«137944_j3831110828045_1_alg».proof.Proof.Word.Dat3

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The body's run in each kind of point -/

section Runs

set_option maxHeartbeats 1000000 in
/-- First column tile: each scratch tile, whatever it held, ends at its head's tile product added to zero; the
    three output buffers are not touched. -/
theorem run3_first (c : Dev nD) (E : Set ℕ) (i : grid3.Coords) (arg2 : Memref sig .tc .vmem S1024x2048 .f32) (harg2 : arg2.IsWhole) (arg3 : Memref sig .tc .vmem S2048x64 .bf16) (harg3 : arg3.IsWhole) (arg4 : Memref sig .tc .vmem S2048x64 .bf16) (harg4 : arg4.IsWhole) (arg5 : Memref sig .tc .vmem S1024x64 .f32) (harg5 : arg5.IsWhole) (arg6 : Memref sig .tc .vmem S1024x64 .f32) (harg6 : arg6.IsWhole) (arg7 : Memref sig .tc .vmem S1024x64 .f32) (harg7 : arg7.IsWhole) (arg8 : Memref sig .tc .vmem S1024x64 .f32) (harg8 : arg8.IsWhole) (arg9 : Memref sig .tc .vmem S1024x64 .f32) (harg9 : arg9.IsWhole) (arg10 : Memref sig .tc .vmem S1024x64 .f32) (harg10 : arg10.IsWhole)
    (h0 : first3 i) (h7 : ¬last3 i)
    (x0 : Vec F S1024x2048 .f32) (x1 : Vec F S2048x64 .bf16) (x2 : Vec F S2048x64 .bf16) (x3 : Vec F S1024x64 .f32)
    (d6 d7 d8 : Vec F S1024x64 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare d6 ∗ owns (c : Thread nD τ) arg7 fullShare d7 ∗ owns (c : Thread nD τ) arg8 fullShare d8 ∗ (∃ d, owns (c : Thread nD τ) arg9 fullShare d) ∗ (∃ d, owns (c : Thread nD τ) arg10 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare d6 ∗ owns (c : Thread nD τ) arg7 fullShare d7 ∗ owns (c : Thread nD τ) arg8 fullShare d8
            ∗ owns (c : Thread nD τ) arg9 fullShare (k3_pay4 x0 (k3_pay1 (F := F)) x1) ∗ owns (c : Thread nD τ) arg10 fullShare (k3_pay5 x0 (k3_pay2 (F := F)) x2)) -∗ K ⟨⟩))
      ⊢ wp frame (wpE (defs₀ (F := F)) Variants.none c none) E (cc3__adjmm_heads_kernel i arg2 harg2 arg3 harg3 arg4 harg4 arg5 harg5 arg6 harg6 arg7 harg7 arg8 harg8 arg9 harg9 arg10 harg10) K := by
  simp only [cc3__adjmm_heads_kernel_eq_skeleton]; unfold cc3__adjmm_heads_kernel_skel
  unfold owns
  iintro ⟨⟨%f0, %hf0, H0⟩, ⟨%f1, %hf1, H1⟩, ⟨%f2, %hf2, H2⟩, ⟨%f3, %hf3, H3⟩, ⟨%f6, %hf6, H6⟩, ⟨%f7, %hf7, H7⟩, ⟨%f8, %hf8, H8⟩, ⟨%d9, %f9, -, H9⟩, ⟨%d10, %f10, -, H10⟩, Hk⟩
  subst hf0; subst hf1; subst hf2; subst hf3; subst hf6; subst hf7; subst hf8
  sl_exec (disch := first | exact h0 | exact h7)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    refine (View.read_writes_eq_canon _ _ _ (fun y => ⟨_, List.mem_cons_self .., View.mem_set_unit_zero zero_off inb_S1024x64_S1024x64_0_0 y⟩)).trans ?_
    rw [View.canon_cons_unit_zero zero_off]
    try sl_unfold_words
    simp only [View.readAt_eq_ld, View.ld_unit_zero (S := S1024x2048) zero_off, View.ld_unit_zero (S := S2048x64) zero_off, View.ld_unit_zero (S := S1024x64) zero_off, View.readCov_unit_zero (S := S1024x64) _ zero_off]
  iexists _; isplitr
  swap; · iexact H10
  ipureintro
  refine (View.read_writes_eq_canon _ _ _ (fun y => ⟨_, List.mem_cons_self .., View.mem_set_unit_zero zero_off inb_S1024x64_S1024x64_0_0 y⟩)).trans ?_
  rw [View.canon_cons_unit_zero zero_off]
  try sl_unfold_words
  simp only [View.readAt_eq_ld, View.ld_unit_zero (S := S1024x2048) zero_off, View.ld_unit_zero (S := S2048x64) zero_off, View.ld_unit_zero (S := S1024x64) zero_off, View.readCov_unit_zero (S := S1024x64) _ zero_off]

set_option maxHeartbeats 1000000 in
/-- A middle column tile: the scratch tiles at `xm`, `xs` end at these plus their heads' tile products; the three
    output buffers are not touched. -/
theorem run3_mid (c : Dev nD) (E : Set ℕ) (i : grid3.Coords) (arg2 : Memref sig .tc .vmem S1024x2048 .f32) (harg2 : arg2.IsWhole) (arg3 : Memref sig .tc .vmem S2048x64 .bf16) (harg3 : arg3.IsWhole) (arg4 : Memref sig .tc .vmem S2048x64 .bf16) (harg4 : arg4.IsWhole) (arg5 : Memref sig .tc .vmem S1024x64 .f32) (harg5 : arg5.IsWhole) (arg6 : Memref sig .tc .vmem S1024x64 .f32) (harg6 : arg6.IsWhole) (arg7 : Memref sig .tc .vmem S1024x64 .f32) (harg7 : arg7.IsWhole) (arg8 : Memref sig .tc .vmem S1024x64 .f32) (harg8 : arg8.IsWhole) (arg9 : Memref sig .tc .vmem S1024x64 .f32) (harg9 : arg9.IsWhole) (arg10 : Memref sig .tc .vmem S1024x64 .f32) (harg10 : arg10.IsWhole)
    (h0 : ¬first3 i) (h7 : ¬last3 i)
    (x0 : Vec F S1024x2048 .f32) (x1 : Vec F S2048x64 .bf16) (x2 : Vec F S2048x64 .bf16) (x3 : Vec F S1024x64 .f32)
    (d6 d7 d8 : Vec F S1024x64 .f32) (xm xs : Vec F S1024x64 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare d6 ∗ owns (c : Thread nD τ) arg7 fullShare d7 ∗ owns (c : Thread nD τ) arg8 fullShare d8 ∗ owns (c : Thread nD τ) arg9 fullShare xm ∗ owns (c : Thread nD τ) arg10 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare d6 ∗ owns (c : Thread nD τ) arg7 fullShare d7 ∗ owns (c : Thread nD τ) arg8 fullShare d8
            ∗ owns (c : Thread nD τ) arg9 fullShare (k3_pay4 x0 xm x1) ∗ owns (c : Thread nD τ) arg10 fullShare (k3_pay5 x0 xs x2)) -∗ K ⟨⟩))
      ⊢ wp frame (wpE (defs₀ (F := F)) Variants.none c none) E (cc3__adjmm_heads_kernel i arg2 harg2 arg3 harg3 arg4 harg4 arg5 harg5 arg6 harg6 arg7 harg7 arg8 harg8 arg9 harg9 arg10 harg10) K := by
  simp only [cc3__adjmm_heads_kernel_eq_skeleton]; unfold cc3__adjmm_heads_kernel_skel
  unfold owns
  iintro ⟨⟨%f0, %hf0, H0⟩, ⟨%f1, %hf1, H1⟩, ⟨%f2, %hf2, H2⟩, ⟨%f3, %hf3, H3⟩, ⟨%f6, %hf6, H6⟩, ⟨%f7, %hf7, H7⟩, ⟨%f8, %hf8, H8⟩, ⟨%f9, %hf9, H9⟩, ⟨%f10, %hf10, H10⟩, Hk⟩
  subst hf0; subst hf1; subst hf2; subst hf3; subst hf6; subst hf7; subst hf8; subst hf9; subst hf10
  sl_exec (disch := first | exact h0 | exact h7)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    refine (View.read_writes_eq_canon _ _ _ (fun y => ⟨_, List.mem_cons_self .., View.mem_set_unit_zero zero_off inb_S1024x64_S1024x64_0_0 y⟩)).trans ?_
    rw [View.canon_cons_unit_zero zero_off]
    try sl_unfold_words
    simp only [View.readAt_eq_ld, View.ld_unit_zero (S := S1024x2048) zero_off, View.ld_unit_zero (S := S2048x64) zero_off, View.ld_unit_zero (S := S1024x64) zero_off, View.readCov_unit_zero (S := S1024x64) _ zero_off]
  iexists _; isplitr
  swap; · iexact H10
  ipureintro
  refine (View.read_writes_eq_canon _ _ _ (fun y => ⟨_, List.mem_cons_self .., View.mem_set_unit_zero zero_off inb_S1024x64_S1024x64_0_0 y⟩)).trans ?_
  rw [View.canon_cons_unit_zero zero_off]
  try sl_unfold_words
  simp only [View.readAt_eq_ld, View.ld_unit_zero (S := S1024x2048) zero_off, View.ld_unit_zero (S := S2048x64) zero_off, View.ld_unit_zero (S := S1024x64) zero_off, View.readCov_unit_zero (S := S1024x64) _ zero_off]

set_option maxHeartbeats 1000000 in
/-- Last column tile: the scratch tiles at `xm`, `xs` end at the sums `xm`, `xs` plus their heads' tile
    products, and the three output buffers, whatever they held, at the sample, the mean and the deviation of
    these two sums. -/
theorem run3_last (c : Dev nD) (E : Set ℕ) (i : grid3.Coords) (arg2 : Memref sig .tc .vmem S1024x2048 .f32) (harg2 : arg2.IsWhole) (arg3 : Memref sig .tc .vmem S2048x64 .bf16) (harg3 : arg3.IsWhole) (arg4 : Memref sig .tc .vmem S2048x64 .bf16) (harg4 : arg4.IsWhole) (arg5 : Memref sig .tc .vmem S1024x64 .f32) (harg5 : arg5.IsWhole) (arg6 : Memref sig .tc .vmem S1024x64 .f32) (harg6 : arg6.IsWhole) (arg7 : Memref sig .tc .vmem S1024x64 .f32) (harg7 : arg7.IsWhole) (arg8 : Memref sig .tc .vmem S1024x64 .f32) (harg8 : arg8.IsWhole) (arg9 : Memref sig .tc .vmem S1024x64 .f32) (harg9 : arg9.IsWhole) (arg10 : Memref sig .tc .vmem S1024x64 .f32) (harg10 : arg10.IsWhole)
    (h0 : ¬first3 i) (h7 : last3 i)
    (x0 : Vec F S1024x2048 .f32) (x1 : Vec F S2048x64 .bf16) (x2 : Vec F S2048x64 .bf16) (x3 : Vec F S1024x64 .f32)
    (xm xs : Vec F S1024x64 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ owns (c : Thread nD τ) arg9 fullShare xm ∗ owns (c : Thread nD τ) arg10 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k3_pay7 (k3_pay4 x0 xm x1) (k3_pay5 x0 xs x2) x3) ∗ owns (c : Thread nD τ) arg7 fullShare (k3_pay4 x0 xm x1) ∗ owns (c : Thread nD τ) arg8 fullShare (k3_pay6 (k3_pay5 x0 xs x2))
            ∗ owns (c : Thread nD τ) arg9 fullShare (k3_pay4 x0 xm x1) ∗ owns (c : Thread nD τ) arg10 fullShare (k3_pay5 x0 xs x2)) -∗ K ⟨⟩))
      ⊢ wp frame (wpE (defs₀ (F := F)) Variants.none c none) E (cc3__adjmm_heads_kernel i arg2 harg2 arg3 harg3 arg4 harg4 arg5 harg5 arg6 harg6 arg7 harg7 arg8 harg8 arg9 harg9 arg10 harg10) K := by
  simp only [cc3__adjmm_heads_kernel_eq_skeleton]; unfold cc3__adjmm_heads_kernel_skel
  unfold owns
  iintro ⟨⟨%f0, %hf0, H0⟩, ⟨%f1, %hf1, H1⟩, ⟨%f2, %hf2, H2⟩, ⟨%f3, %hf3, H3⟩, ⟨%d6, %f6, -, H6⟩, ⟨%d7, %f7, -, H7⟩, ⟨%d8, %f8, -, H8⟩, ⟨%f9, %hf9, H9⟩, ⟨%f10, %hf10, H10⟩, Hk⟩
  subst hf0; subst hf1; subst hf2; subst hf3; subst hf9; subst hf10
  sl_exec (disch := first | exact h0 | exact h7)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H6]
  · iexists _; isplitr
    swap; · iexact H6
    ipureintro
    refine (View.read_writes_eq_canon _ _ _ (fun y => ⟨_, List.mem_cons_self .., View.mem_set_unit_zero zero_off inb_S1024x64_S1024x64_0_0 y⟩)).trans ?_
    rw [View.canon_cons_unit_zero zero_off]
    try sl_unfold_words
    simp only [View.readAt_eq_ld, View.ld_unit_zero (S := S1024x2048) zero_off, View.ld_unit_zero (S := S2048x64) zero_off, View.ld_unit_zero (S := S1024x64) zero_off, View.readCov_unit_zero (S := S1024x64) _ zero_off]
  isplitl [H7]
  · iexists _; isplitr
    swap; · iexact H7
    ipureintro
    refine (View.read_writes_eq_canon _ _ _ (fun y => ⟨_, List.mem_cons_self .., View.mem_set_unit_zero zero_off inb_S1024x64_S1024x64_0_0 y⟩)).trans ?_
    rw [View.canon_cons_unit_zero zero_off]
    try sl_unfold_words
    simp only [View.readAt_eq_ld, View.ld_unit_zero (S := S1024x2048) zero_off, View.ld_unit_zero (S := S2048x64) zero_off, View.ld_unit_zero (S := S1024x64) zero_off, View.readCov_unit_zero (S := S1024x64) _ zero_off]
  isplitl [H8]
  · iexists _; isplitr
    swap; · iexact H8
    ipureintro
    refine (View.read_writes_eq_canon _ _ _ (fun y => ⟨_, List.mem_cons_self .., View.mem_set_unit_zero zero_off inb_S1024x64_S1024x64_0_0 y⟩)).trans ?_
    rw [View.canon_cons_unit_zero zero_off]
    try sl_unfold_words
    simp only [View.readAt_eq_ld, View.ld_unit_zero (S := S1024x2048) zero_off, View.ld_unit_zero (S := S2048x64) zero_off, View.ld_unit_zero (S := S1024x64) zero_off, View.readCov_unit_zero (S := S1024x64) _ zero_off]
  isplitl [H9]
  · iexists _; isplitr
    swap; · iexact H9
    ipureintro
    refine (View.read_writes_eq_canon _ _ _ (fun y => ⟨_, List.mem_cons_self .., View.mem_set_unit_zero zero_off inb_S1024x64_S1024x64_0_0 y⟩)).trans ?_
    rw [View.canon_cons_unit_zero zero_off]
    try sl_unfold_words
    simp only [View.readAt_eq_ld, View.ld_unit_zero (S := S1024x2048) zero_off, View.ld_unit_zero (S := S2048x64) zero_off, View.ld_unit_zero (S := S1024x64) zero_off, View.readCov_unit_zero (S := S1024x64) _ zero_off]
  iexists _; isplitr
  swap; · iexact H10
  ipureintro
  refine (View.read_writes_eq_canon _ _ _ (fun y => ⟨_, List.mem_cons_self .., View.mem_set_unit_zero zero_off inb_S1024x64_S1024x64_0_0 y⟩)).trans ?_
  rw [View.canon_cons_unit_zero zero_off]
  try sl_unfold_words
  simp only [View.readAt_eq_ld, View.ld_unit_zero (S := S1024x2048) zero_off, View.ld_unit_zero (S := S2048x64) zero_off, View.ld_unit_zero (S := S1024x64) zero_off, View.readCov_unit_zero (S := S1024x64) _ zero_off]

end Runs

end Cert.Kernel.Hand

end
-- ==== Proof.Word.Obl3.lean ====
/-
  The fourth launch's per-point obligation: at every grid point the invariant hands the body the two scratch tiles
  — at anything at a first column tile, at the two running sums after the point before otherwise — and takes them
  back at the running sums after this point; the three output buffers are stored only at a last column tile, where
  they end at the sample, the mean and the deviation of the two running sums, and are handed back as found elsewhere.
  Also: what the launch hands over is the invariant before the first point, and the invariant after the last point
  gives it back.
-/
import proofs.«137944_j3831110828045_1_alg».proof.Proof.Word.Run3

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- The scoped buffers that are no staging buffer of this launch, split at its two scratch tiles: each of the two
    whole at some contents, then every other one unopened. -/
theorem scopedRest3_split (c : Dev nD) :
    (Pipeline.scopedRest (Ix := Unit) (Name := ℕ) (U := UR sig nD τ) (Lvl := ℕ) (Val := Elt F) spec3 c : sProp 𝕄)
      = iprop(iprop((∃ f : Buf (Elt F) ((c : Thread nD τ).loc cc3_scratch0), ((c : Thread nD τ).loc cc3_scratch0) ↦{fullShare} f)
            ∗ (∃ f : Buf (Elt F) ((c : Thread nD τ).loc cc3_scratch1), ((c : Thread nD τ).loc cc3_scratch1) ↦{fullShare} f))
          ∗ Pipeline.scopedRestBut (Ix := Unit) (Name := ℕ) (U := UR sig nD τ) (Lvl := ℕ) (Val := Elt F) spec3 c [cc3_scratch0, cc3_scratch1]) :=
  Pipeline.scopedRest_split_of_list spec3 c [cc3_scratch0, cc3_scratch1] (by decide) (by decide)

/-- What the launch hands the body beside the windows, opened at the two scratch tiles. -/
theorem PhiA3_open (c : Dev nD) :
    (Pipeline.ΦA spec3 c : sProp 𝕄) ⊢ iprop((∃ d, owns (c : Thread nD τ) scr3m fullShare d) ∗ (∃ d, owns (c : Thread nD τ) scr3s fullShare d) ∗ rest3 (F := F) c) := by
  unfold Pipeline.ΦA rest3; rw [scopedRest3_split]; simp only [scr3m, scr3s, owns_whole]
  iintro ⟨⟨⟨Hm, Hs⟩, Hb⟩, Hg⟩
  isplitl [Hm]; · iexact Hm
  isplitl [Hs]; · iexact Hs
  isplitl [Hb]; · iexact Hb
  iexact Hg

/-- and closed again, the contents of the two scratch tiles forgotten. -/
theorem PhiA3_close (c : Dev nD) :
    iprop((∃ d, owns (c : Thread nD τ) scr3m fullShare d) ∗ (∃ d, owns (c : Thread nD τ) scr3s fullShare d) ∗ rest3 (F := F) c) ⊢ (Pipeline.ΦA spec3 c : sProp 𝕄) := by
  unfold Pipeline.ΦA rest3; rw [scopedRest3_split]; simp only [scr3m, scr3s, owns_whole]
  iintro ⟨Hm, Hs, Hb, Hg⟩
  isplitl [Hm Hs Hb]
  · isplitl [Hm Hs]
    · isplitl [Hm]; · iexact Hm
      iexact Hs
    iexact Hb
  iexact Hg

/-- Before any point the invariant holds each scratch tile at SOME contents beside the rest. -/
theorem Phi3_any (c : Dev nD) (n : ℕ) (h : n ≤ cfg3.N) :
    Phi3 V c n h ⊢ iprop((∃ d, owns (c : Thread nD τ) scr3m fullShare d) ∗ (∃ d, owns (c : Thread nD τ) scr3s fullShare d) ∗ rest3 (F := F) c) := by
  cases n with
  | zero => exact PhiA3_open c
  | succ n =>
    show iprop(owns (c : Thread nD τ) scr3m fullShare (acc3m V c n h) ∗ owns (c : Thread nD τ) scr3s fullShare (acc3s V c n h) ∗ rest3 (F := F) c) ⊢ _
    iintro ⟨Hm, Hs, Hr⟩
    isplitl [Hm]; · iexists _; iexact Hm
    isplitl [Hs]; · iexists _; iexact Hs
    iexact Hr

/-- Before a point that is not the first, at the two running sums after the point before. -/
theorem Phi3_pos (c : Dev nD) (n : ℕ) (h : n ≤ cfg3.N) (hz : n ≠ 0) :
    Phi3 V c n h = iprop(owns (c : Thread nD τ) scr3m fullShare (acc3m V c (n - 1) (by omega)) ∗ owns (c : Thread nD τ) scr3s fullShare (acc3s V c (n - 1) (by omega)) ∗ rest3 (F := F) c) := by
  cases n with
  | zero => exact absurd rfl hz
  | succ n => rfl

theorem Phi3_castSucc (c : Dev nD) (t : Fin cfg3.N) :
    (dat3 V c).Φ t.castSucc = Phi3 V c t.val (Nat.le_of_lt t.isLt) := by
  dsimp only [dat3]; simp only [Fin.coe_castSucc]

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t
    ∗ (dat3 V c).leavesExact 5 t
    ∗ (dat3 V c).leavesExact 6 t)

set_option maxHeartbeats 4000000 in
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).owesAt () t.succ = (dat3 V c).owesAt () t.castSucc from rfl,
    show (dat3 V c).Φ t.succ = iprop(owns (c : Thread nD τ) scr3m fullShare (acc3m V c t.val t.isLt) ∗ owns (c : Thread nD τ) scr3s fullShare (acc3s V c t.val t.isLt) ∗ rest3 (F := F) c) from rfl,
    Phi3_castSucc,
    show (dat3 V c).leavesExact 0 t = owns (c : Thread nD τ) (st3_0 t) fullShare ((dat3 V c).after 0 t) from by
      unfold Dat.leavesExact; rw [live3_0 t],
    show (dat3 V c).leavesExact 1 t = owns (c : Thread nD τ) (st3_1 t) fullShare ((dat3 V c).after 1 t) from by
      unfold Dat.leavesExact; rw [live3_1 t],
    show (dat3 V c).leavesExact 2 t = owns (c : Thread nD τ) (st3_2 t) fullShare ((dat3 V c).after 2 t) from by
      unfold Dat.leavesExact; rw [live3_2 t],
    show (dat3 V c).leavesExact 3 t = owns (c : Thread nD τ) (st3_3 t) fullShare ((dat3 V c).after 3 t) from by
      unfold Dat.leavesExact; rw [live3_3 t],
    after3_0, after3_1, after3_2, after3_3]
  have hN : t.val < 128 := lt_of_lt_of_eq t.isLt N_3
  by_cases h0 : t.val % 8 = 0
  · -- a first column tile: the output buffers idle, the scratch tiles reset
    have hf : first3 (grid3.coords t) := (first3_iff t).mpr h0
    have hl : ¬last3 (grid3.coords t) := fun h => by have := (last3_iff t).mp h; omega
    rw [Dat.leavesExact_idle (dat3 V c) 4 t (idle3_4 t hl) (noflush3_4 t hl),
      Dat.leavesExact_idle (dat3 V c) 5 t (idle3_5 t hl) (noflush3_5 t hl),
      Dat.leavesExact_idle (dat3 V c) 6 t (idle3_6 t hl) (noflush3_6 t hl),
      acc3m_first V c t h0, acc3s_first V c t h0]
    iintro ⟨HΦ, Ho, ⟨%d0, H0⟩, ⟨%d1, H1⟩, ⟨%d2, H2⟩, ⟨%d3, H3⟩, ⟨%d4, H4⟩, ⟨%d5, H5⟩, ⟨%d6, H6⟩⟩
    ihave HΦ' := (Phi3_any V c t.val _) $$ HΦ
    icases HΦ' with ⟨Hm, Hs, Hr⟩
    iapply (run3_first c Set.univ (grid3.coords t) _ _ _ _ _ _ _ _ _ _ _ _ _ _ _ _ _ _ hf hl (iblk3 V c 0 t) (iblk3 V c 1 t) (iblk3 V c 2 t) (iblk3 V c 3 t) _ _ _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [Hm]; · iexact Hm
    isplitl [Hs]; · iexact Hs
    iintro ⟨H0, H1, H2, H3, H4, H5, H6, Hm, Hs⟩
    isplitl [Hm Hs Hr]
    · isplitl [Hm]; · iexact Hm
      isplitl [Hs]; · iexact Hs
      iexact Hr
    isplitl [Ho]; · iexact Ho
    isplitl [H0]; · iexact H0
    isplitl [H1]; · iexact H1
    isplitl [H2]; · iexact H2
    isplitl [H3]; · iexact H3
    isplitl [H4]; · iexists _; iexact H4
    isplitl [H5]; · iexists _; iexact H5
    iexists _; iexact H6
  · have hf : ¬first3 (grid3.coords t) := fun h => h0 ((first3_iff t).mp h)
    have hz : t.val ≠ 0 := fun e => h0 (by rw [e])
    rw [Phi3_pos V c _ _ hz]
    by_cases h7 : t.val % 8 = 7
    · -- a last column tile: the three output buffers stored
      have hl : last3 (grid3.coords t) := (last3_iff t).mpr h7
      rw [show (dat3 V c).leavesExact 4 t = owns (c : Thread nD τ) (st3_4 t) fullShare ((dat3 V c).after 4 t) from by
          unfold Dat.leavesExact; rw [live3_4 t hl],
        show (dat3 V c).leavesExact 5 t = owns (c : Thread nD τ) (st3_5 t) fullShare ((dat3 V c).after 5 t) from by
          unfold Dat.leavesExact; rw [live3_5 t hl],
        show (dat3 V c).leavesExact 6 t = owns (c : Thread nD τ) (st3_6 t) fullShare ((dat3 V c).after 6 t) from by
          unfold Dat.leavesExact; rw [live3_6 t hl],
        after3_4, after3_5, after3_6, acc3m_next V c t h0, acc3s_next V c t h0]
      iintro ⟨⟨Hm, Hs, Hr⟩, Ho, ⟨%d0, H0⟩, ⟨%d1, H1⟩, ⟨%d2, H2⟩, ⟨%d3, H3⟩, ⟨%d4, H4⟩, ⟨%d5, H5⟩, ⟨%d6, H6⟩⟩
      iapply (run3_last c Set.univ (grid3.coords t) _ _ _ _ _ _ _ _ _ _ _ _ _ _ _ _ _ _ hf hl (iblk3 V c 0 t) (iblk3 V c 1 t) (iblk3 V c 2 t) (iblk3 V c 3 t) _ _ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [Hm]; · iexact Hm
      isplitl [Hs]; · iexact Hs
      iintro ⟨H0, H1, H2, H3, H4, H5, H6, Hm, Hs⟩
      isplitl [Hm Hs Hr]
      · isplitl [Hm]; · iexact Hm
        isplitl [Hs]; · iexact Hs
        iexact Hr
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · -- a middle column tile: the output buffers idle
      have hl : ¬last3 (grid3.coords t) := fun h => h7 ((last3_iff t).mp h)
      rw [Dat.leavesExact_idle (dat3 V c) 4 t (idle3_4 t hl) (noflush3_4 t hl),
        Dat.leavesExact_idle (dat3 V c) 5 t (idle3_5 t hl) (noflush3_5 t hl),
        Dat.leavesExact_idle (dat3 V c) 6 t (idle3_6 t hl) (noflush3_6 t hl),
        acc3m_next V c t h0, acc3s_next V c t h0]
      iintro ⟨⟨Hm, Hs, Hr⟩, Ho, ⟨%d0, H0⟩, ⟨%d1, H1⟩, ⟨%d2, H2⟩, ⟨%d3, H3⟩, ⟨%d4, H4⟩, ⟨%d5, H5⟩, ⟨%d6, H6⟩⟩
      iapply (run3_mid c Set.univ (grid3.coords t) _ _ _ _ _ _ _ _ _ _ _ _ _ _ _ _ _ _ hf hl (iblk3 V c 0 t) (iblk3 V c 1 t) (iblk3 V c 2 t) (iblk3 V c 3 t) _ _ _ _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [Hm]; · iexact Hm
      isplitl [Hs]; · iexact Hs
      iintro ⟨H0, H1, H2, H3, H4, H5, H6, Hm, Hs⟩
      isplitl [Hm Hs Hr]
      · isplitl [Hm]; · iexact Hm
        isplitl [Hs]; · iexact Hs
        iexact Hr
      isplitl [Ho]; · iexact Ho
      isplitl [H0]; · iexact H0
      isplitl [H1]; · iexact H1
      isplitl [H2]; · iexact H2
      isplitl [H3]; · iexact H3
      isplitl [H4]; · iexists _; iexact H4
      isplitl [H5]; · iexists _; iexact H5
      iexists _; iexact H6

/-- The pipeline rule's obligation at every point. -/
theorem body_obligation3 (c : Dev nD) : BodyObligation (dat3 (F := F) V c) (defs₀ (F := F)) Variants.none () Set.univ := fun t => by
  rw [bigSep_W3, bigSep_W3]
  exact sound_body3 V c t

/-- What the launch hands over is the invariant before the first point. -/
theorem hin3 (c : Dev nD) : Pipeline.ΦA spec3 c ⊢ (dat3 V c).Φ 0 := by
  rw [show (dat3 V c).Φ 0 = Pipeline.ΦA spec3 c from rfl]

/-- The invariant after the last point gives it back, the contents of the two scratch tiles forgotten. -/
theorem hout3 (c : Dev nD) : (dat3 V c).Φ (Fin.last cfg3.N) ⊢ Pipeline.ΦA spec3 c := by
  rw [show (dat3 V c).Φ (Fin.last cfg3.N) = Phi3 V c (Fin.last cfg3.N).val (Nat.le_of_lt_succ (Fin.last cfg3.N).isLt) from rfl]
  exact (Phi3_any V c _ _).trans (PhiA3_close c)

end

end Cert.Kernel.Hand

end
-- ==== Proof.Word.LaunchBase.lean ====
/-
  What the four launches share when they are put in a row: each launch's proof data at the contents it is entered
  with (the fold of the arrays' contents), the choice that no core owes another anything, and what rides beside the
  arrays from one launch to the next (the generator register at some state, nothing owed).
-/
import proofs.«137944_j3831110828045_1_alg».proof.Proof.Word.Fold
import proofs.«137944_j3831110828045_1_alg».proof.Proof.Word.Obl1
import proofs.«137944_j3831110828045_1_alg».proof.Proof.Word.Obl3

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))
/-- The first and third launches carry nothing between their points: their invariant is what the launch hands over. -/
theorem hout0 (c : Dev nD) : (dat0 V c).Φ (Fin.last cfg0.N) ⊢ Pipeline.ΦA spec0 c := .rfl
theorem hout2 (c : Dev nD) : (dat2 V c).Φ (Fin.last cfg2.N) ⊢ Pipeline.ΦA spec2 c := .rfl
end

variable (m : (ℓ : Loc nD τ sig) → Buf (Elt F) ℓ)

/-- No launch has a prefetched table. -/
abbrev tabs : (p : Fin 4) → (pcfgs (F := F) p).Adm := fun p => (cfgs p).toPCfg_adm

/-- Every launch's proof data, each at the contents it is entered with. -/
def pdats : (p : Fin 4) → (c : Dev nD) → Dat τ (Elt F) Unit ℕ (UR sig nD τ) ℕ (Pipeline.pin (pcfgs (F := F)) tabs p) c
  | ⟨0, _⟩ => fun c => dat0 (E0 m) c
  | ⟨1, _⟩ => fun c => dat1 (E1 m) c
  | ⟨2, _⟩ => fun c => dat2 (E2 m) c
  | ⟨3, _⟩ => fun c => dat3 (E3 m) c

abbrev novar : Variants := Variants.none
/-- No core owes another anything: no pair is recorded and no level assigned. -/
abbrev noPairs : GSem nD τ sig → Finset Unit := fun _ => ∅
abbrev noLevel : GSem nD τ sig → Unit → ℕ := fun _ _ => 0
/-- What rides beside the arrays between launches: the generator register at some state, and nothing owed. -/
abbrev riding (c : Dev nD) : sProp 𝕄 := iprop((∃ r, prngReg c r) ∗ ∃ W, owes (c : Thread nD τ) (0 : CellTallies nD τ sig Unit) W)
/-- An unscoped TensorCore reference is among the arrays held between launches. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The program's end, but for what is owed: every array at `W4`, the generator register at some state. -/
abbrev atEnd (c : Dev nD) : sProp 𝕄 := iprop(StableHlo.held (c : Thread nD τ) (Pipeline.ucRefs τ sig) (W4 m c) ∗ ∃ r, prngReg c r)

/-- At the end what rides along splits into the generator register and what is owed. -/
theorem riding_end (c : Dev nD) : iprop(StableHlo.held (c : Thread nD τ) (Pipeline.ucRefs τ sig) (W4 m c) ∗ riding (F := F) c)
    ⊢ iprop(atEnd m c ∗ ∃ W, owes (c : Thread nD τ) (0 : CellTallies nD τ sig Unit) W) := by
  iintro ⟨Hh, Hp, Ho⟩
  isplitl [Hh Hp]
  · isplitl [Hh]; · iexact Hh
    iexact Hp
  iexact Ho

end Cert.Kernel.Hand

end
-- ==== Proof.Word.Seg0.lean ====
/-
  Launch 0 as a segment of the program: entered with every array at the contents `W0`, left with every array at
  `W1`. Its windows' arrays are split out of the arrays at entry and put back at exit; the generator register goes
  into the launch's invariant and comes back; nothing is owed to another core; the kernel has no semaphore of its own.
-/
import proofs.«137944_j3831110828045_1_alg».proof.Proof.Word.LaunchBase

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

-- unification with the pinned configuration unfolds plain definitions in a metavariable's type
set_option backward.isDefEq.respectTransparency.types false in
def seg0 : Pipeline.RegionSeg (pcfgs (F := F)) tabs (pdats m) () defs₀ novar noPairs noLevel (0 : Fin 4) where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ noPairs noLevel (0 : Fin 4) fun _ _ => rfl
  pre c := iprop(StableHlo.held (c : Thread nD τ) (Pipeline.ucRefs τ sig) (W0 m c) ∗ riding c)
  post c := iprop(StableHlo.held (c : Thread nD τ) (Pipeline.ucRefs τ sig) (W1 m c) ∗ riding c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := (0 : Fin 4)) (pcfgs (F := F)) tabs (pdats m) launch0.win launch0.arr_whole c
      ((pdats m (0 : Fin 4) c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m (0 : Fin 4) c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m (0 : Fin 4) c).Φ (Fin.last _) ⊢ Pipeline.ΦA spec0 c from hout0 (E0 m) c).trans ?_
    unfold Pipeline.ΦA
    iintro ⟨Hr, Hp⟩
    isplitl [Hp]; · iexact Hp
    isplitr; · iempintro
    iexact Hr
  hexit c := by
    have hjoin := Pipeline.unscopedBufs_of_arrays (p := (0 : Fin 4)) (pcfgs (F := F)) tabs (Ix := Unit) (Name := ℕ) (U := UR sig nD τ) (Lvl := ℕ)
      launch0.win launch0.arr_whole c (pdats m) ((pdats m (0 : Fin 4) c).share_full fun _ => rfl)
      (E0 m c) (E1 m c) ((pdats m (0 : Fin 4) c).arrAt · cfg0.N) (exitArr0 m c) (exitRest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.Word.Seg1.lean ====
/-
  Launch 1 as a segment of the program: entered with every array at the contents `W1`, left with every array at
  `W2`. Its windows' arrays are split out of the arrays at entry and put back at exit; the generator register goes
  into the launch's invariant and comes back; nothing is owed to another core; the kernel has no semaphore of its own.
-/
import proofs.«137944_j3831110828045_1_alg».proof.Proof.Word.LaunchBase

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

-- unification with the pinned configuration unfolds plain definitions in a metavariable's type
set_option backward.isDefEq.respectTransparency.types false in
def seg1 : Pipeline.RegionSeg (pcfgs (F := F)) tabs (pdats m) () defs₀ novar noPairs noLevel (1 : Fin 4) where
  win := launch1.win.to₀
  block_pos := launch1.block_pos
  stage_whole := launch1.stage_whole
  K := PEmpty
  osem k := k.elim
  ho := Pipeline.OwnSemFacts.none _
  hbody c := (body_obligation1 (E1 m) c).loose
  hwaits := Pipeline.hwaits_of_owed_zero _ _ _ _ noPairs noLevel (1 : Fin 4) fun _ _ => rfl
  pre c := iprop(StableHlo.held (c : Thread nD τ) (Pipeline.ucRefs τ sig) (W1 m c) ∗ riding c)
  post c := iprop(StableHlo.held (c : Thread nD τ) (Pipeline.ucRefs τ sig) (W2 m c) ∗ riding c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := Pipeline.arrays_of_unscopedBufs (p := (1 : Fin 4)) (pcfgs (F := F)) tabs (pdats m) launch1.win launch1.arr_whole c
      ((pdats m (1 : Fin 4) c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m (1 : Fin 4) c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m (1 : Fin 4) c).Φ (Fin.last _) ⊢ Pipeline.ΦA spec1 c from hout1 (E1 m) c).trans ?_
    unfold Pipeline.ΦA
    iintro ⟨Hr, Hp⟩
    isplitl [Hp]; · iexact Hp
    isplitr; · iempintro
    iexact Hr
  hexit c := by
    have hjoin := Pipeline.unscopedBufs_of_arrays (p := (1 : Fin 4)) (pcfgs (F := F)) tabs (Ix := Unit) (Name := ℕ) (U := UR sig nD τ) (Lvl := ℕ)
      launch1.win launch1.arr_whole c (pdats m) ((pdats m (1 : Fin 4) c).share_full fun _ => rfl)
      (E1 m c) (E2 m c) ((pdats m (1 : Fin 4) c).arrAt · cfg1.N) (exitArr1 m c) (exitRest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.Word.Seg2.lean ====
/-
  Launch 2 as a segment of the program: entered with every array at the contents `W2`, left with every array at
  `W3`. Its windows' arrays are split out of the arrays at entry and put back at exit; the generator register goes
  into the launch's invariant and comes back; nothing is owed to another core; the kernel has no semaphore of its own.
-/
import proofs.«137944_j3831110828045_1_alg».proof.Proof.Word.LaunchBase

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

-- unification with the pinned configuration unfolds plain definitions in a metavariable's type
set_option backward.isDefEq.respectTransparency.types false in
def seg2 : Pipeline.RegionSeg (pcfgs (F := F)) tabs (pdats m) () defs₀ novar noPairs noLevel (2 : Fin 4) where
  win := launch2.win.to₀
  block_pos := launch2.block_pos
  stage_whole := launch2.stage_whole
  K := PEmpty
  osem k := k.elim
  ho := Pipeline.OwnSemFacts.none _
  hbody c := (body_obligation2 (E2 m) c).loose
  hwaits := Pipeline.hwaits_of_owed_zero _ _ _ _ noPairs noLevel (2 : Fin 4) fun _ _ => rfl
  pre c := iprop(StableHlo.held (c : Thread nD τ) (Pipeline.ucRefs τ sig) (W2 m c) ∗ riding c)
  post c := iprop(StableHlo.held (c : Thread nD τ) (Pipeline.ucRefs τ sig) (W3 m c) ∗ riding c)
  X c := iprop(∃ r, prngReg c r)
  Y c := iprop(∃ r, prngReg c r)
  Z c := Pipeline.unscopedRest (Ix := Unit) (Name := ℕ) (U := UR sig nD τ) (Lvl := ℕ) spec2 c (E2 m c)
  hentry c := by
    rw [Pipeline.ownSems0_none]
    have hsplit := Pipeline.arrays_of_unscopedBufs (p := (2 : Fin 4)) (pcfgs (F := F)) tabs (pdats m) launch2.win launch2.arr_whole c
      ((pdats m (2 : Fin 4) c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m (2 : Fin 4) c).Φ 0 = Pipeline.ΦA spec2 c from rfl]; unfold Pipeline.ΦA
    iintro ⟨Hp, -, Hr⟩
    isplitl [Hr]; · iexact Hr
    iexact Hp
  hout c := by
    rw [Pipeline.ownSems0_none]
    refine (show (pdats m (2 : Fin 4) c).Φ (Fin.last _) ⊢ Pipeline.ΦA spec2 c from hout2 (E2 m) c).trans ?_
    unfold Pipeline.ΦA
    iintro ⟨Hr, Hp⟩
    isplitl [Hp]; · iexact Hp
    isplitr; · iempintro
    iexact Hr
  hexit c := by
    have hjoin := Pipeline.unscopedBufs_of_arrays (p := (2 : Fin 4)) (pcfgs (F := F)) tabs (Ix := Unit) (Name := ℕ) (U := UR sig nD τ) (Lvl := ℕ)
      launch2.win launch2.arr_whole c (pdats m) ((pdats m (2 : Fin 4) c).share_full fun _ => rfl)
      (E2 m c) (E3 m c) ((pdats m (2 : Fin 4) c).arrAt · cfg2.N) (exitArr2 m c) (exitRest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.Word.Seg3.lean ====
/-
  Launch 3 as a segment of the program: entered with every array at the contents `W3`, left with every array at
  `W4`. Its windows' arrays are split out of the arrays at entry and put back at exit; the generator register goes
  into the launch's invariant and comes back; nothing is owed to another core; the kernel has no semaphore of its own.
-/
import proofs.«137944_j3831110828045_1_alg».proof.Proof.Word.LaunchBase

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

-- unification with the pinned configuration unfolds plain definitions in a metavariable's type
set_option backward.isDefEq.respectTransparency.types false in
def seg3 : Pipeline.RegionSeg (pcfgs (F := F)) tabs (pdats m) () defs₀ novar noPairs noLevel (3 : Fin 4) where
  win := launch3.win.to₀
  block_pos := launch3.block_pos
  stage_whole := launch3.stage_whole
  K := PEmpty
  osem k := k.elim
  ho := Pipeline.OwnSemFacts.none _
  hbody c := (body_obligation3 (E3 m) c).loose
  hwaits := Pipeline.hwaits_of_owed_zero _ _ _ _ noPairs noLevel (3 : Fin 4) fun _ _ => rfl
  pre c := iprop(StableHlo.held (c : Thread nD τ) (Pipeline.ucRefs τ sig) (W3 m c) ∗ riding c)
  post c := iprop(StableHlo.held (c : Thread nD τ) (Pipeline.ucRefs τ sig) (W4 m c) ∗ riding c)
  X c := iprop(∃ r, prngReg c r)
  Y c := iprop(∃ r, prngReg c r)
  Z c := Pipeline.unscopedRest (Ix := Unit) (Name := ℕ) (U := UR sig nD τ) (Lvl := ℕ) spec3 c (E3 m c)
  hentry c := by
    rw [Pipeline.ownSems0_none]
    have hsplit := Pipeline.arrays_of_unscopedBufs (p := (3 : Fin 4)) (pcfgs (F := F)) tabs (pdats m) launch3.win launch3.arr_whole c
      ((pdats m (3 : Fin 4) c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m (3 : Fin 4) c).Φ 0 = Pipeline.ΦA spec3 c from rfl]; unfold Pipeline.ΦA
    iintro ⟨Hp, -, Hr⟩
    isplitl [Hr]; · iexact Hr
    iexact Hp
  hout c := by
    rw [Pipeline.ownSems0_none]
    refine (show (pdats m (3 : Fin 4) c).Φ (Fin.last _) ⊢ Pipeline.ΦA spec3 c from hout3 (E3 m) c).trans ?_
    unfold Pipeline.ΦA
    iintro ⟨Hr, Hp⟩
    isplitl [Hp]; · iexact Hp
    isplitr; · iempintro
    iexact Hr
  hexit c := by
    have hjoin := Pipeline.unscopedBufs_of_arrays (p := (3 : Fin 4)) (pcfgs (F := F)) tabs (Ix := Unit) (Name := ℕ) (U := UR sig nD τ) (Lvl := ℕ)
      launch3.win launch3.arr_whole c (pdats m) ((pdats m (3 : Fin 4) c).share_full fun _ => rfl)
      (E3 m c) (E4 m c) ((pdats m (3 : Fin 4) c).arrAt · cfg3.N) (exitArr3 m c) (exitRest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.Word.Args.lean ====
/-
  No launch writes an argument array: each of the six is either an input window of a launch (left as found) or
  no window of it at all, so the fold of the arrays' contents through the four launches returns it as launched.
  Likewise each intermediate array, between the launch that writes it and the launch that reads it.
-/
import proofs.«137944_j3831110828045_1_alg».proof.Proof.Word.Fold

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The arguments as each launch finds them -/

theorem E1_arg0 (c : Dev nD) : E1 m c main_arg0 = m ((c : Thread nD τ).loc main_arg0) := W1_of_ne m c main_arg0 (by decide)
theorem E1_arg3 (c : Dev nD) : E1 m c main_arg3 = m ((c : Thread nD τ).loc main_arg3) := W1_of_ne m c main_arg3 (by decide)
theorem E1_arg4 (c : Dev nD) : E1 m c main_arg4 = m ((c : Thread nD τ).loc main_arg4) := W1_of_ne m c main_arg4 (by decide)
theorem E1_arg5 (c : Dev nD) : E1 m c main_arg5 = m ((c : Thread nD τ).loc main_arg5) := W1_of_ne m c main_arg5 (by decide)
theorem E1_arg1 (c : Dev nD) : E1 m c main_arg1 = m ((c : Thread nD τ).loc main_arg1) := W1_in m c 0 rfl
theorem E1_arg2 (c : Dev nD) : E1 m c main_arg2 = m ((c : Thread nD τ).loc main_arg2) := W1_in m c 1 rfl

theorem E2_arg0 (c : Dev nD) : E2 m c main_arg0 = m ((c : Thread nD τ).loc main_arg0) := (W2_in m c 0 rfl).trans (E1_arg0 m c)
theorem E2_arg1 (c : Dev nD) : E2 m c main_arg1 = m ((c : Thread nD τ).loc main_arg1) := (W2_of_ne m c main_arg1 (by decide)).trans (E1_arg1 m c)
theorem E2_arg2 (c : Dev nD) : E2 m c main_arg2 = m ((c : Thread nD τ).loc main_arg2) := (W2_of_ne m c main_arg2 (by decide)).trans (E1_arg2 m c)
theorem E2_arg3 (c : Dev nD) : E2 m c main_arg3 = m ((c : Thread nD τ).loc main_arg3) := (W2_of_ne m c main_arg3 (by decide)).trans (E1_arg3 m c)
theorem E2_arg4 (c : Dev nD) : E2 m c main_arg4 = m ((c : Thread nD τ).loc main_arg4) := (W2_of_ne m c main_arg4 (by decide)).trans (E1_arg4 m c)
theorem E2_arg5 (c : Dev nD) : E2 m c main_arg5 = m ((c : Thread nD τ).loc main_arg5) := (W2_of_ne m c main_arg5 (by decide)).trans (E1_arg5 m c)

theorem E3_arg0 (c : Dev nD) : E3 m c main_arg0 = m ((c : Thread nD τ).loc main_arg0) := (W3_of_ne m c main_arg0 (by decide)).trans (E2_arg0 m c)
theorem E3_arg1 (c : Dev nD) : E3 m c main_arg1 = m ((c : Thread nD τ).loc main_arg1) := (W3_of_ne m c main_arg1 (by decide)).trans (E2_arg1 m c)
theorem E3_arg2 (c : Dev nD) : E3 m c main_arg2 = m ((c : Thread nD τ).loc main_arg2) := (W3_of_ne m c main_arg2 (by decide)).trans (E2_arg2 m c)
theorem E3_arg3 (c : Dev nD) : E3 m c main_arg3 = m ((c : Thread nD τ).loc main_arg3) := (W3_in m c 1 rfl).trans (E2_arg3 m c)
theorem E3_arg4 (c : Dev nD) : E3 m c main_arg4 = m ((c : Thread nD τ).loc main_arg4) := (W3_in m c 2 rfl).trans (E2_arg4 m c)
theorem E3_arg5 (c : Dev nD) : E3 m c main_arg5 = m ((c : Thread nD τ).loc main_arg5) := (W3_of_ne m c main_arg5 (by decide)).trans (E2_arg5 m c)

/-- Every argument ends as launched. -/
theorem E4_arg0 (c : Dev nD) : E4 m c main_arg0 = m ((c : Thread nD τ).loc main_arg0) := (W4_in m c 0 rfl).trans (E3_arg0 m c)
theorem E4_arg1 (c : Dev nD) : E4 m c main_arg1 = m ((c : Thread nD τ).loc main_arg1) := (W4_of_ne m c main_arg1 (by decide)).trans (E3_arg1 m c)
theorem E4_arg2 (c : Dev nD) : E4 m c main_arg2 = m ((c : Thread nD τ).loc main_arg2) := (W4_of_ne m c main_arg2 (by decide)).trans (E3_arg2 m c)
theorem E4_arg3 (c : Dev nD) : E4 m c main_arg3 = m ((c : Thread nD τ).loc main_arg3) := (W4_of_ne m c main_arg3 (by decide)).trans (E3_arg3 m c)
theorem E4_arg4 (c : Dev nD) : E4 m c main_arg4 = m ((c : Thread nD τ).loc main_arg4) := (W4_of_ne m c main_arg4 (by decide)).trans (E3_arg4 m c)
theorem E4_arg5 (c : Dev nD) : E4 m c main_arg5 = m ((c : Thread nD τ).loc main_arg5) := (W4_in m c 3 rfl).trans (E3_arg5 m c)

/-! ## The intermediates as the launch that reads them finds them -/

/-- The first product, as the second launch finds it. -/
theorem E1_v0 (c : Dev nD) : E1 m c main_v0 = (dat0 (E0 m) c).arrAt 2 cfg0.N := W1_arr m c 2
/-- The hidden layer, as the third launch finds it. -/
theorem E2_v1 (c : Dev nD) : E2 m c main_v1 = (dat1 (E1 m) c).arrAt 2 cfg1.N := W2_arr m c 2
/-- The two heads' products, as the fourth launch finds them. -/
theorem E3_v2_0 (c : Dev nD) : E3 m c main_v2_0 = (dat2 (E2 m) c).arrAt 3 cfg2.N := W3_arr m c 3
theorem E3_v2_1 (c : Dev nD) : E3 m c main_v2_1 = (dat2 (E2 m) c).arrAt 4 cfg2.N := W3_arr m c 4
/-- The three results at the program's end. -/
theorem E4_v3_0 (c : Dev nD) : E4 m c main_v3_0 = (dat3 (E3 m) c).arrAt 4 cfg3.N := W4_arr m c 4
theorem E4_v3_1 (c : Dev nD) : E4 m c main_v3_1 = (dat3 (E3 m) c).arrAt 5 cfg3.N := W4_arr m c 5
theorem E4_v3_2 (c : Dev nD) : E4 m c main_v3_2 = (dat3 (E3 m) c).arrAt 6 cfg3.N := W4_arr m c 6

end Cert.Kernel.Hand

end
-- ==== Proof.Word.Launch.lean ====
/-
  The whole program run: the four launches in order, each entered with the arrays at what the launches before it
  left (the fold `W0 … W4`), under the library's rule for a program of several launches. Its conclusion: every weakly
  fair execution terminates, nothing faults, and at the end every array of the program holds what the fold says —
  from which both the unchanged arguments and the results' values are read.
-/
import proofs.«137944_j3831110828045_1_alg».proof.Proof.Word.Seg0
import proofs.«137944_j3831110828045_1_alg».proof.Proof.Word.Seg1
import proofs.«137944_j3831110828045_1_alg».proof.Proof.Word.Seg2
import proofs.«137944_j3831110828045_1_alg».proof.Proof.Word.Seg3
import proofs.«137944_j3831110828045_1_alg».proof.Proof.Word.Args

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The program's four segments in order. -/
abbrev segs : List (Pipeline.Seg (pcfgs (F := F)) tabs (pdats m) () defs₀ novar noPairs noLevel) :=
  [.region (seg0 m), .region (seg1 m), .region (seg2 m), .region (seg3 m)]

/-- The program is the run of its segments. -/
theorem main_is_segs (c : Dev nD) : main (F := F) c = Pipeline.Seg.run (segs m) := (main_chain c).trans (by chain_rfl)

-- the rule's implicit arguments are found by unifying its conclusion with this one, which takes unfolding plain
-- definitions in a metavariable's type
set_option backward.isDefEq.respectTransparency.types false in
/-- THE RUN. From any memory with zero counters every weakly fair execution of the program terminates, nothing
    faulting, and at the end every array holds what the fold `W4` says. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) tabs (pdats m) () cellOf_inj emb₁ defs₀ novar noPairs noLevel m ρ main (segs m)
    (fun c Q => by rw [main_is_segs m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ riding c)) (Tₙ := atEnd m)
    (hch := ⟨fun _ => .rfl, fun _ => .rfl, fun _ => .rfl, fun _ => .rfl, fun c => riding_end m c⟩)
    (hinit := by
      refine Pipeline.initEach noPairs noLevel fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h => h)

/-- THE FRAME: every argument array ends as launched. -/
theorem frame_run : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_arg0 (by decide))).trans (E4_arg0 m c),
     (h c _ (mem_uc main_arg1 (by decide))).trans (E4_arg1 m c),
     (h c _ (mem_uc main_arg2 (by decide))).trans (E4_arg2 m c),
     (h c _ (mem_uc main_arg3 (by decide))).trans (E4_arg3 m c),
     (h c _ (mem_uc main_arg4 (by decide))).trans (E4_arg4 m c),
     (h c _ (mem_uc main_arg5 (by decide))).trans (E4_arg5 m c)⟩) (run_all m ρ)

end Cert.Kernel.Hand

end
-- ==== Proof.Basics.lean ====
/-
  A fact every launch's whole-tile accesses share.
-/
import proofs.«137944_j3831110828045_1_alg».proof.Proof.Gen.KernelIdeal.Launch
import proofs.«137944_j3831110828045_1_alg».proof.Proof.Gen.KernelIdeal.Skeleton
import proofs.«137944_j3831110828045_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The offsets of a whole-tile access are all zero. -/
theorem zero_off : (![0, 0] : Fin 2 → Nat) = fun _ => 0 := funext fun a => by fin_cases a <;> rfl

end Cert.KernelIdeal.Hand

end
-- ==== Proof.Reg0.lean ====
/-
  The first launch: a row tile of the feature matrix times the whole first weight matrix.
  At every one of its 8 grid points the body reads the point's 2048-row tile of the features and the weight
  matrix, and overwrites the point's 2048-row tile of the product with their matrix product. Stated for any
  contents `V` the launch finds in the arrays: what each window's buffer holds before and after the body, the
  body's run, and the per-point obligation of the pipeline rule.
-/
import proofs.«137944_j3831110828045_1_alg».proof.Proof.Basics

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The feature tile's buffer holds the point's tile whether or not it was fetched at the point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight matrix's buffer holds the whole matrix at every point (its block index never moves). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

set_option maxHeartbeats 1000000 in
/-- The body on whole buffers: the two inputs are left as found, the product tile's buffer ends at the matrix product of the two loads. -/
theorem sound_kernel0 (c : Dev nD) (E : Set ℕ) (i : grid0.Coords) (arg1 : Memref sig .tc .vmem S2048x512 .f32) (harg1 : arg1.IsWhole) (arg2 : Memref sig .tc .vmem S512x256 .f32) (harg2 : arg2.IsWhole) (arg3 : Memref sig .tc .vmem S2048x256 .bf16) (harg3 : arg3.IsWhole)
    (x0 : Vec F S2048x512 .f32) (x1 : Vec F S512x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (k0_pay1 x0 x1)) -∗ K ⟨⟩))
      ⊢ wp frame (wpE (defs₀ (F := F)) Variants.none c none) E (cc0__dense_kernel i arg1 harg1 arg2 harg2 arg3 harg3) K := by
  simp only [cc0__dense_kernel_eq_skeleton]; unfold cc0__dense_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  refine (View.read_writes_eq_canon _ _ _ (fun y => ⟨_, List.mem_cons_self .., View.mem_set_unit_zero zero_off inb_S2048x256_S2048x256_0_0 y⟩)).trans ?_
  rw [View.canon_cons_unit_zero zero_off]
  try sl_unfold_words
  simp only [View.readAt_eq_ld, View.ld_unit_zero (S := S2048x512) zero_off, View.ld_unit_zero (S := S512x256) zero_off]

/-- The launch's proof data: the arrays as found; after the body each input's buffer at its block and the
    product tile's at the matrix product of the two blocks; the scratch side untouched; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay1 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = k0_pay1 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline rule's obligation at every point. -/
theorem body_obligation0 (c : Dev nD) : BodyObligation (dat0 (F := F) V c) (defs₀ (F := F)) Variants.none () Set.univ := fun t => by
  rw [bigSep_W0, bigSep_W0]
  exact sound_body0 V c t

end

end Cert.KernelIdeal.Hand

end
-- ==== Proof.Dat1.lean ====
/-
  The second launch's data: the adjacency matrix times the first product, accumulated over column tiles,
  then tanh. The grid is 16 row tiles by 8 column tiles, the column tile moving fastest. A scratch buffer of one
  1024 x 256 tile carries the running sum across the 8 column tiles of a row tile: at the first column tile
  it is reset to zero, at every column tile the product of the adjacency tile and the matching 2048 rows of
  the first product is added to it, and at the last column tile its tanh is written to the output tile.
  Here, for any contents `V` the launch finds in the arrays: which points are first and last column tiles,
  the running sum after every grid point (`acc1`), the invariant that holds the scratch at it, and the
  pipeline rule's proof data.
-/
import proofs.«137944_j3831110828045_1_alg».proof.Proof.Basics

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## Which kind of point: first column tile, last column tile -/

/-- The body's first test: the column-tile coordinate is 0. -/
abbrev first1 (i : grid1.Coords) : Prop := (Scalar.cmpi .ne (Scalar.extui (Scalar.cmpi .eq (BitVec.ofNat 32 (i 1).val) 0#32)) 0#32) = 1#1
/-- The body's second test: the column-tile coordinate is 7. -/
abbrev last1 (i : grid1.Coords) : Prop := k1_cond2 i = 1#1

theorem first1_iff : ∀ t : Fin cfg1.N, first1 (grid1.coords t) ↔ t.val % 8 = 0 :=
  (by decide +kernel : ∀ t : Fin grid1.N, first1 (grid1.coords t) ↔ t.val % 8 = 0)
theorem last1_iff : ∀ t : Fin cfg1.N, last1 (grid1.coords t) ↔ t.val % 8 = 7 :=
  (by decide +kernel : ∀ t : Fin grid1.N, last1 (grid1.coords t) ↔ t.val % 8 = 7)

/-- The two input windows are never idle; the output window is idle, and not written back, away from the last
    column tile, and live at it. -/
theorem live1_0 : ∀ t : Fin cfg1.N, cfg1.idle 0 (grid1.coords t) = false := by decide +kernel
theorem live1_1 : ∀ t : Fin cfg1.N, cfg1.idle 1 (grid1.coords t) = false := by decide +kernel
theorem idle1_2 : ∀ t : Fin cfg1.N, ¬last1 (grid1.coords t) → cfg1.idle 2 (grid1.coords t) = true := by decide +kernel
theorem noflush1_2 : ∀ t : Fin cfg1.N, ¬last1 (grid1.coords t) → (cfg1.win 2).flush t = false := by decide +kernel
theorem live1_2 : ∀ t : Fin cfg1.N, last1 (grid1.coords t) → cfg1.idle 2 (grid1.coords t) = false := by decide +kernel

/-- The scratch tile, as a whole buffer. -/
abbrev scr1 : Memref sig .tc .vmem S1024x256 .f32 := Memref.whole cc1_scratch0

section
variable (V : (c : Dev nD) → (b : Ref sig .tc) → Buf (Elt F) ((c : Thread nD τ).loc b))

/-- Window `w`'s block at point `t`, read off its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input's buffer holds the point's block whether or not it was fetched at the point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- THE RUNNING SUM after point `n`: the point's tile product added to zero at a first column tile, to the
    running sum after the point before otherwise. -/
def acc1 (c : Dev nD) : (n : ℕ) → n < cfg1.N → Vec F S1024x256 .f32
  | 0, hn => k1_pay2 (iblk1 V c 0 ⟨0, hn⟩) (k1_pay1 (F := F)) (iblk1 V c 1 ⟨0, hn⟩)
  | n + 1, hn => k1_pay2 (iblk1 V c 0 ⟨n + 1, hn⟩)
      (if (n + 1) % 8 = 0 then (k1_pay1 (F := F)) else acc1 c n (Nat.lt_of_succ_lt hn)) (iblk1 V c 1 ⟨n + 1, hn⟩)

theorem acc1_first (c : Dev nD) (t : Fin cfg1.N) (h : t.val % 8 = 0) :
    acc1 V c t.val t.isLt = k1_pay2 (iblk1 V c 0 t) (k1_pay1 (F := F)) (iblk1 V c 1 t) := by
  obtain ⟨n, hn⟩ := t
  cases n with
  | zero => rfl
  | succ n => exact congrArg (fun z => k1_pay2 (iblk1 V c 0 ⟨n + 1, hn⟩) z (iblk1 V c 1 ⟨n + 1, hn⟩)) (if_pos h)

theorem acc1_next (c : Dev nD) (t : Fin cfg1.N) (h : ¬t.val % 8 = 0) :
    acc1 V c t.val t.isLt = k1_pay2 (iblk1 V c 0 t) (acc1 V c (t.val - 1) (Nat.lt_of_le_of_lt (Nat.sub_le _ _) t.isLt)) (iblk1 V c 1 t) := by
  obtain ⟨n, hn⟩ := t
  cases n with
  | zero => exact absurd (Nat.zero_mod _) h
  | succ n => exact congrArg (fun z => k1_pay2 (iblk1 V c 0 ⟨n + 1, hn⟩) z (iblk1 V c 1 ⟨n + 1, hn⟩)) (if_neg h)

/-- What rides beside the scratch in the invariant: every other scoped buffer that is no staging buffer of this
    launch, at some contents, and the generator register at some state. -/
def rest1 (c : Dev nD) : sProp 𝕄 :=
  iprop(Pipeline.scopedRestBut (Ix := Unit) (Name := ℕ) (U := UR sig nD τ) (Lvl := ℕ) (Val := Elt F) spec1 c [cc1_scratch0] ∗ ∃ r, prngReg c r)

/-- The invariant before point `n`: before the first point whatever the launch hands over; afterwards the scratch
    at the running sum after the point before. -/
def Phi1 (c : Dev nD) : (n : ℕ) → n ≤ cfg1.N → sProp 𝕄
  | 0, _ => Pipeline.ΦA spec1 c
  | n + 1, hn => iprop(owns (c : Thread nD τ) scr1 fullShare (acc1 V c n hn) ∗ rest1 (F := F) c)

/-- The launch's proof data: the arrays as found; after the body each input's buffer at its block and the output
    tile's at the tanh of the running sum (read only at last column tiles); the invariant `Phi1`; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => k1_pay3 (acc1 V c t.val t.isLt)
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = k1_pay3 (acc1 V c t.val t.isLt) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

end

end Cert.KernelIdeal.Hand

end
-- ==== Proof.Reg2.lean ====
/-
  The third launch: a row tile of the hidden layer times each head's whole weight matrix.
  At every one of its 8 grid points the body reads the point's 2048-row tile of the hidden layer and the two
  weight matrices, and overwrites the point's 2048-row tile of each of the two products. Stated for any
  contents `V` the launch finds in the arrays: what each window's buffer holds before and after the body, the
  body's run, and the per-point obligation of the pipeline rule.
-/
import proofs.«137944_j3831110828045_1_alg».proof.Proof.Basics

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the launch finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Each input's buffer holds the point's block whether or not it was fetched at the point (a weight matrix's
    block index never moves). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

set_option maxHeartbeats 1000000 in
/-- The body on whole buffers: the three inputs are left as found, each product tile's buffer ends at the
    product of the hidden tile and that head's weights. -/
theorem run2 (c : Dev nD) (E : Set ℕ) (i : grid2.Coords) (arg1 : Memref sig .tc .vmem S2048x256 .bf16) (harg1 : arg1.IsWhole) (arg2 : Memref sig .tc .vmem S256x64 .f32) (harg2 : arg2.IsWhole) (arg3 : Memref sig .tc .vmem S256x64 .f32) (harg3 : arg3.IsWhole) (arg4 : Memref sig .tc .vmem S2048x64 .bf16) (harg4 : arg4.IsWhole) (arg5 : Memref sig .tc .vmem S2048x64 .bf16) (harg5 : arg5.IsWhole)
    (x0 : Vec F S2048x256 .bf16) (x1 : Vec F S256x64 .f32) (x2 : Vec F S256x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (k2_pay2 x0 x1) ∗ owns (c : Thread nD τ) arg5 fullShare (k2_pay3 x0 x2)) -∗ K ⟨⟩))
      ⊢ wp frame (wpE (defs₀ (F := F)) Variants.none c none) E (cc2__dual_kernel i arg1 harg1 arg2 harg2 arg3 harg3 arg4 harg4 arg5 harg5) K := by
  simp only [cc2__dual_kernel_eq_skeleton]; unfold cc2__dual_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    refine (View.read_writes_eq_canon _ _ _ (fun y => ⟨_, List.mem_cons_self .., View.mem_set_unit_zero zero_off inb_S2048x64_S2048x64_0_0 y⟩)).trans ?_
    rw [View.canon_cons_unit_zero zero_off]
    try sl_unfold_words
    simp only [View.readAt_eq_ld, View.ld_unit_zero (S := S2048x256) zero_off, View.ld_unit_zero (S := S256x64) zero_off]
  iexists _; isplitr
  swap; · iexact H4
  ipureintro
  refine (View.read_writes_eq_canon _ _ _ (fun y => ⟨_, List.mem_cons_self .., View.mem_set_unit_zero zero_off inb_S2048x64_S2048x64_0_0 y⟩)).trans ?_
  rw [View.canon_cons_unit_zero zero_off]
  try sl_unfold_words
  simp only [View.readAt_eq_ld, View.ld_unit_zero (S := S2048x256) zero_off, View.ld_unit_zero (S := S256x64) zero_off]

/-- The launch's proof data: the arrays as found; after the body each input's buffer at its block and each
    product tile's at the product of the hidden tile and the head's weights; the scratch side untouched. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => k2_pay2 (iblk2 V c 0 t) (iblk2 V c 1 t)
    | ⟨4, _⟩ => k2_pay3 (iblk2 V c 0 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = k2_pay2 (iblk2 V c 0 t) (iblk2 V c 1 t) := by dsimp only [dat2]
theorem after2_4 (c : Dev nD) (t : Fin cfg2.N) : (dat2 V c).after 4 t = k2_pay3 (iblk2 V c 0 t) (iblk2 V c 2 t) := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (run2 c Set.univ _ _ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline rule's obligation at every point. -/
theorem body_obligation2 (c : Dev nD) : BodyObligation (dat2 (F := F) V c) (defs₀ (F := F)) Variants.none () Set.univ := fun t => by
  rw [bigSep_W2, bigSep_W2]
  exact sound_body2 V c t

end

end Cert.KernelIdeal.Hand

end
-- ==== Proof.Dat3.lean ====
/-
  The fourth launch's data: the adjacency matrix times each head's product, accumulated over column tiles,
  then the heads' epilogue. The grid is 16 row tiles by 8 column tiles, the column tile moving fastest. Two scratch
  buffers of one 1024 x 64 tile each carry the two running sums (mean head, deviation head) across the 8 column
  tiles of a row tile: at the first column tile both are reset to zero, at every column tile the product of the
  adjacency tile and the matching 2048 rows of each head's product is added, and at the last column tile the
  three output tiles are written: the mean (the first sum), the deviation (the second sum clamped below at zero,
  plus a small constant) and the sample (noise times deviation plus mean).
  Here, for any contents `V` the launch finds in the arrays: which points are first and last column tiles, the
  two running sums after every grid point, the invariant that holds the scratch buffers at them, and the pipeline
  rule's proof data.
-/
import proofs.«137944_j3831110828045_1_alg».proof.Proof.Basics

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## Which kind of point: first column tile, last column tile -/

/-- The body's first test: the column-tile coordinate is 0. -/
abbrev first3 (i : grid3.Coords) : Prop := (Scalar.cmpi .ne (Scalar.extui (Scalar.cmpi .eq (BitVec.ofNat 32 (i 1).val) 0#32)) 0#32) = 1#1
/-- The body's second test: the column-tile coordinate is 7. -/
abbrev last3 (i : grid3.Coords) : Prop := k3_cond2 i = 1#1

theorem first3_iff : ∀ t : Fin cfg3.N, first3 (grid3.coords t) ↔ t.val % 8 = 0 :=
  (by decide +kernel : ∀ t : Fin grid3.N, first3 (grid3.coords t) ↔ t.val % 8 = 0)
theorem last3_iff : ∀ t : Fin cfg3.N, last3 (grid3.coords t) ↔ t.val % 8 = 7 :=
  (by decide +kernel : ∀ t : Fin grid3.N, last3 (grid3.coords t) ↔ t.val % 8 = 7)

/-- The four input windows are never idle; each output window is idle, and not written back, away from the last
    column tile, and live at it. -/
theorem live3_0 : ∀ t : Fin cfg3.N, cfg3.idle 0 (grid3.coords t) = false := by decide +kernel
theorem live3_1 : ∀ t : Fin cfg3.N, cfg3.idle 1 (grid3.coords t) = false := by decide +kernel
theorem live3_2 : ∀ t : Fin cfg3.N, cfg3.idle 2 (grid3.coords t) = false := by decide +kernel
theorem live3_3 : ∀ t : Fin cfg3.N, cfg3.idle 3 (grid3.coords t) = false := by decide +kernel
theorem idle3_4 : ∀ t : Fin cfg3.N, ¬last3 (grid3.coords t) → cfg3.idle 4 (grid3.coords t) = true := by decide +kernel
theorem idle3_5 : ∀ t : Fin cfg3.N, ¬last3 (grid3.coords t) → cfg3.idle 5 (grid3.coords t) = true := by decide +kernel
theorem idle3_6 : ∀ t : Fin cfg3.N, ¬last3 (grid3.coords t) → cfg3.idle 6 (grid3.coords t) = true := by decide +kernel
theorem noflush3_4 : ∀ t : Fin cfg3.N, ¬last3 (grid3.coords t) → (cfg3.win 4).flush t = false := by decide +kernel
theorem noflush3_5 : ∀ t : Fin cfg3.N, ¬last3 (grid3.coords t) → (cfg3.win 5).flush t = false := by decide +kernel
theorem noflush3_6 : ∀ t : Fin cfg3.N, ¬last3 (grid3.coords t) → (cfg3.win 6).flush t = false := by decide +kernel
theorem live3_4 : ∀ t : Fin cfg3.N, last3 (grid3.coords t) → cfg3.idle 4 (grid3.coords t) = false := by decide +kernel
theorem live3_5 : ∀ t : Fin cfg3.N, last3 (grid3.coords t) → cfg3.idle 5 (grid3.coords t) = false := by decide +kernel
theorem live3_6 : ∀ t : Fin cfg3.N, last3 (grid3.coords t) → cfg3.idle 6 (grid3.coords t) = false := by decide +kernel

/-- The two scratch tiles, as whole buffers: the mean head's, the deviation head's. -/
abbrev scr3m : Memref sig .tc .vmem S1024x64 .f32 := Memref.whole cc3_scratch0
abbrev scr3s : Memref sig .tc .vmem S1024x64 .f32 := Memref.whole cc3_scratch1

section
variable (V : (c : Dev nD) → (b : Ref sig .tc) → Buf (Elt F) ((c : Thread nD τ).loc b))

/-- Window `w`'s block at point `t`, read off its array as the launch finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input's buffer holds the point's block whether or not it was fetched at the point (the noise tile is
    fetched at first column tiles only: its block index does not move in between). -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- THE MEAN HEAD'S RUNNING SUM after point `n`: the point's tile product added to zero at a first column tile,
    to the running sum after the point before otherwise. -/
def acc3m (c : Dev nD) : (n : ℕ) → n < cfg3.N → Vec F S1024x64 .f32
  | 0, hn => k3_pay4 (iblk3 V c 0 ⟨0, hn⟩) (k3_pay1 (F := F)) (iblk3 V c 1 ⟨0, hn⟩)
  | n + 1, hn => k3_pay4 (iblk3 V c 0 ⟨n + 1, hn⟩)
      (if (n + 1) % 8 = 0 then (k3_pay1 (F := F)) else acc3m c n (Nat.lt_of_succ_lt hn)) (iblk3 V c 1 ⟨n + 1, hn⟩)

/-- THE DEVIATION HEAD'S RUNNING SUM after point `n`, likewise. -/
def acc3s (c : Dev nD) : (n : ℕ) → n < cfg3.N → Vec F S1024x64 .f32
  | 0, hn => k3_pay5 (iblk3 V c 0 ⟨0, hn⟩) (k3_pay2 (F := F)) (iblk3 V c 2 ⟨0, hn⟩)
  | n + 1, hn => k3_pay5 (iblk3 V c 0 ⟨n + 1, hn⟩)
      (if (n + 1) % 8 = 0 then (k3_pay2 (F := F)) else acc3s c n (Nat.lt_of_succ_lt hn)) (iblk3 V c 2 ⟨n + 1, hn⟩)

theorem acc3m_first (c : Dev nD) (t : Fin cfg3.N) (h : t.val % 8 = 0) :
    acc3m V c t.val t.isLt = k3_pay4 (iblk3 V c 0 t) (k3_pay1 (F := F)) (iblk3 V c 1 t) := by
  obtain ⟨n, hn⟩ := t
  cases n with
  | zero => rfl
  | succ n => exact congrArg (fun z => k3_pay4 (iblk3 V c 0 ⟨n + 1, hn⟩) z (iblk3 V c 1 ⟨n + 1, hn⟩)) (if_pos h)
theorem acc3m_next (c : Dev nD) (t : Fin cfg3.N) (h : ¬t.val % 8 = 0) :
    acc3m V c t.val t.isLt = k3_pay4 (iblk3 V c 0 t) (acc3m V c (t.val - 1) (Nat.lt_of_le_of_lt (Nat.sub_le _ _) t.isLt)) (iblk3 V c 1 t) := by
  obtain ⟨n, hn⟩ := t
  cases n with
  | zero => exact absurd (Nat.zero_mod _) h
  | succ n => exact congrArg (fun z => k3_pay4 (iblk3 V c 0 ⟨n + 1, hn⟩) z (iblk3 V c 1 ⟨n + 1, hn⟩)) (if_neg h)
theorem acc3s_first (c : Dev nD) (t : Fin cfg3.N) (h : t.val % 8 = 0) :
    acc3s V c t.val t.isLt = k3_pay5 (iblk3 V c 0 t) (k3_pay2 (F := F)) (iblk3 V c 2 t) := by
  obtain ⟨n, hn⟩ := t
  cases n with
  | zero => rfl
  | succ n => exact congrArg (fun z => k3_pay5 (iblk3 V c 0 ⟨n + 1, hn⟩) z (iblk3 V c 2 ⟨n + 1, hn⟩)) (if_pos h)
theorem acc3s_next (c : Dev nD) (t : Fin cfg3.N) (h : ¬t.val % 8 = 0) :
    acc3s V c t.val t.isLt = k3_pay5 (iblk3 V c 0 t) (acc3s V c (t.val - 1) (Nat.lt_of_le_of_lt (Nat.sub_le _ _) t.isLt)) (iblk3 V c 2 t) := by
  obtain ⟨n, hn⟩ := t
  cases n with
  | zero => exact absurd (Nat.zero_mod _) h
  | succ n => exact congrArg (fun z => k3_pay5 (iblk3 V c 0 ⟨n + 1, hn⟩) z (iblk3 V c 2 ⟨n + 1, hn⟩)) (if_neg h)

/-- What rides beside the two scratch tiles in the invariant: every other scoped buffer that is no staging buffer
    of this launch, at some contents, and the generator register at some state. -/
def rest3 (c : Dev nD) : sProp 𝕄 :=
  iprop(Pipeline.scopedRestBut (Ix := Unit) (Name := ℕ) (U := UR sig nD τ) (Lvl := ℕ) (Val := Elt F) spec3 c [cc3_scratch0, cc3_scratch1] ∗ ∃ r, prngReg c r)

/-- The invariant before point `n`: before the first point whatever the launch hands over; afterwards the two
    scratch tiles at the running sums after the point before. -/
def Phi3 (c : Dev nD) : (n : ℕ) → n ≤ cfg3.N → sProp 𝕄
  | 0, _ => Pipeline.ΦA spec3 c
  | n + 1, hn => iprop(owns (c : Thread nD τ) scr3m fullShare (acc3m V c n hn) ∗ owns (c : Thread nD τ) scr3s fullShare (acc3s V c n hn) ∗ rest3 (F := F) c)

/-- The launch's proof data: the arrays as found; after the body each input's buffer at its block; the three
    output tiles (read only at last column tiles) at the sample, the mean and the deviation of the running sums;
    the invariant `Phi3`; nothing owed. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => k3_pay7 (acc3m V c t.val t.isLt) (acc3s V c t.val t.isLt) (iblk3 V c 3 t)
    | ⟨5, _⟩ => acc3m V c t.val t.isLt
    | ⟨6, _⟩ => k3_pay6 (acc3s V c t.val t.isLt)
  Φ t := Phi3 V c t.val (Nat.le_of_lt_succ t.isLt)
  q _ := fullShare
  owed _ := 0

theorem A_eq3 (c : Dev nD) (w : Fin cfg3.W) : (dat3 V c).A w = V c (Pipeline.arrRef spec3 w) := by
  dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = k3_pay7 (acc3m V c t.val t.isLt) (acc3s V c t.val t.isLt) (iblk3 V c 3 t) := by dsimp only [dat3]
theorem after3_5 (c : Dev nD) (t : Fin cfg3.N) : (dat3 V c).after 5 t = acc3m V c t.val t.isLt := by dsimp only [dat3]
theorem after3_6 (c : Dev nD) (t : Fin cfg3.N) : (dat3 V c).after 6 t = k3_pay6 (acc3s V c t.val t.isLt) := by dsimp only [dat3]
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

end

end Cert.KernelIdeal.Hand

end
-- ==== Proof.Fold.lean ====
/-
  The arrays' contents between the four launches, folded from the launch memory: each launch leaves its windows'
  arrays at what its write-backs computed from the contents it found, and every other array as it found it. From
  this fold: each launch's proof data at the contents it is entered with, every argument array read back to the
  launch memory (no launch writes one), and each intermediate and result array named as the launch that wrote it
  leaves it.
-/
import proofs.«137944_j3831110828045_1_alg».proof.Proof.Reg0
import proofs.«137944_j3831110828045_1_alg».proof.Proof.Dat1
import proofs.«137944_j3831110828045_1_alg».proof.Proof.Reg2
import proofs.«137944_j3831110828045_1_alg».proof.Proof.Dat3

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- Core `c`'s arrays at launch. -/
abbrev W0 : Dev nD → Valuation τ sig (Elt F) := fun c b => m (c, b)
/-- The same read at the TensorCore's references: what the first launch finds. -/
abbrev E0 : (c : Dev nD) → (b : Ref sig .tc) → Buf (Elt F) ((c : Thread nD τ).loc b) := fun c b => W0 m c b

/-- After the first launch: its arrays at what its write-backs leave, the others as found. -/
def W1 (c : Dev nD) : Valuation τ sig (Elt F) :=
  Pipeline.withArrays spec0 c (W0 m c) fun w => (dat0 (E0 m) c).arrAt w cfg0.N
theorem W1_arr (c : Dev nD) (w : Fin cfg0.W) :
    W1 m c (Proc.devRef .tc (Pipeline.arrRef spec0 w)) = (dat0 (E0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
/-- What the second launch finds. -/
abbrev E1 : (c : Dev nD) → (b : Ref sig .tc) → Buf (Elt F) ((c : Thread nD τ).loc b) := fun c b => W1 m c b

/-- After the second launch. -/
def W2 (c : Dev nD) : Valuation τ sig (Elt F) :=
  Pipeline.withArrays spec1 c (W1 m c) fun w => (dat1 (E1 m) c).arrAt w cfg1.N
theorem W2_arr (c : Dev nD) (w : Fin cfg1.W) :
    W2 m c (Proc.devRef .tc (Pipeline.arrRef spec1 w)) = (dat1 (E1 m) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb
/-- What the third launch finds. -/
abbrev E2 : (c : Dev nD) → (b : Ref sig .tc) → Buf (Elt F) ((c : Thread nD τ).loc b) := fun c b => W2 m c b

/-- After the third launch. -/
def W3 (c : Dev nD) : Valuation τ sig (Elt F) :=
  Pipeline.withArrays spec2 c (W2 m c) fun w => (dat2 (E2 m) c).arrAt w cfg2.N
theorem W3_arr (c : Dev nD) (w : Fin cfg2.W) :
    W3 m c (Proc.devRef .tc (Pipeline.arrRef spec2 w)) = (dat2 (E2 m) c).arrAt w cfg2.N := by
  unfold W3; exact Pipeline.withArrays_arr spec2 launch2.win.arr_inj c _ _ w
theorem W3_of_ne (c : Dev nD) (b : Ref sig .tc) (hb : ∀ w, Pipeline.arrRef spec2 w ≠ b) :
    W3 m c (Proc.devRef .tc b) = W2 m c (Proc.devRef .tc b) := by
  unfold W3; exact Pipeline.withArrays_of_ne spec2 c _ _ b hb
/-- What the fourth launch finds. -/
abbrev E3 : (c : Dev nD) → (b : Ref sig .tc) → Buf (Elt F) ((c : Thread nD τ).loc b) := fun c b => W3 m c b

/-- After the fourth launch: the program's end. -/
def W4 (c : Dev nD) : Valuation τ sig (Elt F) :=
  Pipeline.withArrays spec3 c (W3 m c) fun w => (dat3 (E3 m) c).arrAt w cfg3.N
theorem W4_arr (c : Dev nD) (w : Fin cfg3.W) :
    W4 m c (Proc.devRef .tc (Pipeline.arrRef spec3 w)) = (dat3 (E3 m) c).arrAt w cfg3.N := by
  unfold W4; exact Pipeline.withArrays_arr spec3 launch3.win.arr_inj c _ _ w
theorem W4_of_ne (c : Dev nD) (b : Ref sig .tc) (hb : ∀ w, Pipeline.arrRef spec3 w ≠ b) :
    W4 m c (Proc.devRef .tc b) = W3 m c (Proc.devRef .tc b) := by
  unfold W4; exact Pipeline.withArrays_of_ne spec3 c _ _ b hb
/-- The contents at the program's end, read at the TensorCore's references. -/
abbrev E4 : (c : Dev nD) → (b : Ref sig .tc) → Buf (Elt F) ((c : Thread nD τ).loc b) := fun c b => W4 m c b

/-! ## What each launch's exit needs: its arrays at the next contents, the others unchanged -/

theorem exitArr0 (c : Dev nD) (w : Fin cfg0.W) : (dat0 (E0 m) c).arrAt w cfg0.N = E1 m c (Pipeline.arrRef spec0 w) := (W1_arr m c w).symm
theorem exitRest0 (c : Dev nD) : ∀ b, b ∉ Finset.univ.image (Pipeline.arrRef spec0) → E1 m c b = E0 m c b :=
  fun b hb => W1_of_ne m c b fun w e => hb (Finset.mem_image.mpr ⟨w, Finset.mem_univ _, e⟩)
theorem exitArr1 (c : Dev nD) (w : Fin cfg1.W) : (dat1 (E1 m) c).arrAt w cfg1.N = E2 m c (Pipeline.arrRef spec1 w) := (W2_arr m c w).symm
theorem exitRest1 (c : Dev nD) : ∀ b, b ∉ Finset.univ.image (Pipeline.arrRef spec1) → E2 m c b = E1 m c b :=
  fun b hb => W2_of_ne m c b fun w e => hb (Finset.mem_image.mpr ⟨w, Finset.mem_univ _, e⟩)
theorem exitArr2 (c : Dev nD) (w : Fin cfg2.W) : (dat2 (E2 m) c).arrAt w cfg2.N = E3 m c (Pipeline.arrRef spec2 w) := (W3_arr m c w).symm
theorem exitRest2 (c : Dev nD) : ∀ b, b ∉ Finset.univ.image (Pipeline.arrRef spec2) → E3 m c b = E2 m c b :=
  fun b hb => W3_of_ne m c b fun w e => hb (Finset.mem_image.mpr ⟨w, Finset.mem_univ _, e⟩)
theorem exitArr3 (c : Dev nD) (w : Fin cfg3.W) : (dat3 (E3 m) c).arrAt w cfg3.N = E4 m c (Pipeline.arrRef spec3 w) := (W4_arr m c w).symm
theorem exitRest3 (c : Dev nD) : ∀ b, b ∉ Finset.univ.image (Pipeline.arrRef spec3) → E4 m c b = E3 m c b :=
  fun b hb => W4_of_ne m c b fun w e => hb (Finset.mem_image.mpr ⟨w, Finset.mem_univ _, e⟩)

/-! ## An input window's array is left as found -/

theorem W1_in (c : Dev nD) (w : Fin cfg0.W) (hw : (cfg0.win w).isOut = false) :
    W1 m c (Proc.devRef .tc (Pipeline.arrRef spec0 w)) = W0 m c (Proc.devRef .tc (Pipeline.arrRef spec0 w)) :=
  (W1_arr m c w).trans (((dat0 (E0 m) c).arrAt_in w hw _).trans (A_eq0 (E0 m) c w))
theorem W2_in (c : Dev nD) (w : Fin cfg1.W) (hw : (cfg1.win w).isOut = false) :
    W2 m c (Proc.devRef .tc (Pipeline.arrRef spec1 w)) = W1 m c (Proc.devRef .tc (Pipeline.arrRef spec1 w)) :=
  (W2_arr m c w).trans (((dat1 (E1 m) c).arrAt_in w hw _).trans (A_eq1 (E1 m) c w))
theorem W3_in (c : Dev nD) (w : Fin cfg2.W) (hw : (cfg2.win w).isOut = false) :
    W3 m c (Proc.devRef .tc (Pipeline.arrRef spec2 w)) = W2 m c (Proc.devRef .tc (Pipeline.arrRef spec2 w)) :=
  (W3_arr m c w).trans (((dat2 (E2 m) c).arrAt_in w hw _).trans (A_eq2 (E2 m) c w))
theorem W4_in (c : Dev nD) (w : Fin cfg3.W) (hw : (cfg3.win w).isOut = false) :
    W4 m c (Proc.devRef .tc (Pipeline.arrRef spec3 w)) = W3 m c (Proc.devRef .tc (Pipeline.arrRef spec3 w)) :=
  (W4_arr m c w).trans (((dat3 (E3 m) c).arrAt_in w hw _).trans (A_eq3 (E3 m) c w))

end Cert.KernelIdeal.Hand

end
-- ==== Proof.Run1.lean ====
/-
  The second launch's body, run in each of its three kinds of grid point: a first column tile (the scratch is
  reset, then the tile product added), a middle one (the tile product added to what the scratch holds) and a last
  one (the same, then the tanh of the sum stored to the output tile). Each run names what the scratch and the
  output buffer end holding, as the printed body's own arithmetic of what it loaded.
-/
import proofs.«137944_j3831110828045_1_alg».proof.Proof.Dat1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The body's run in each kind of point -/

section Runs

set_option maxHeartbeats 1000000 in
/-- First column tile: the scratch, whatever it held, ends at the tile product added to zero; the output
    buffer is not touched. -/
theorem run1_first (c : Dev nD) (E : Set ℕ) (i : grid1.Coords) (arg2 : Memref sig .tc .vmem S1024x2048 .f32) (harg2 : arg2.IsWhole) (arg3 : Memref sig .tc .vmem S2048x256 .bf16) (harg3 : arg3.IsWhole) (arg4 : Memref sig .tc .vmem S1024x256 .bf16) (harg4 : arg4.IsWhole) (arg5 : Memref sig .tc .vmem S1024x256 .f32) (harg5 : arg5.IsWhole)
    (h0 : first1 i) (h7 : ¬last1 i)
    (x0 : Vec F S1024x2048 .f32) (x1 : Vec F S2048x256 .bf16) (d4 : Vec F S1024x256 .bf16) (K : PUnit → sProp 𝕄) :
    iprop(owns (c : Thread nD τ) arg2 fullShare x0 ∗ owns (c : Thread nD τ) arg3 fullShare x1 ∗ owns (c : Thread nD τ) arg4 fullShare d4 ∗ (∃ d, owns (c : Thread nD τ) arg5 fullShare d)
        ∗ (iprop(owns (c : Thread nD τ) arg2 fullShare x0 ∗ owns (c : Thread nD τ) arg3 fullShare x1 ∗ owns (c : Thread nD τ) arg4 fullShare d4 ∗ owns (c : Thread nD τ) arg5 fullShare (k1_pay2 x0 (k1_pay1 (F := F)) x1)) -∗ K ⟨⟩))
      ⊢ wp frame (wpE (defs₀ (F := F)) Variants.none c none) E (cc1__adjmm_tanh_kernel i arg2 harg2 arg3 harg3 arg4 harg4 arg5 harg5) K := by
  simp only [cc1__adjmm_tanh_kernel_eq_skeleton]; unfold cc1__adjmm_tanh_kernel_skel
  unfold owns
  iintro ⟨⟨%f0, %hf0, H0⟩, ⟨%f1, %hf1, H1⟩, ⟨%f4, %hf4, H4⟩, ⟨%d5, %f5, -, H5⟩, Hk⟩
  subst hf0; subst hf1; subst hf4
  sl_exec (disch := first | exact h0 | exact h7)
  sl_step
  iapply Hk
  isplitl [H0]
  · iexists f0; isplitr; · ipureintro; rfl
    iexact H0
  isplitl [H1]
  · iexists f1; isplitr; · ipureintro; rfl
    iexact H1
  isplitl [H4]
  · iexists f4; isplitr; · ipureintro; rfl
    iexact H4
  iexists _; isplitr
  swap; · iexact H5
  ipureintro
  refine (View.read_writes_eq_canon _ _ _ (fun y => ⟨_, List.mem_cons_self .., View.mem_set_unit_zero zero_off inb_S1024x256_S1024x256_0_0 y⟩)).trans ?_
  rw [View.canon_cons_unit_zero zero_off]
  sl_unfold_words
  simp only [View.readAt_eq_ld, View.ld_unit_zero (S := S1024x2048) zero_off, View.ld_unit_zero (S := S2048x256) zero_off, View.readCov_unit_zero (S := S1024x256) _ zero_off]

set_option maxHeartbeats 1000000 in
/-- A middle column tile: the scratch at `xs` ends at `xs` plus the tile product; the output buffer is not touched. -/
theorem run1_mid (c : Dev nD) (E : Set ℕ) (i : grid1.Coords) (arg2 : Memref sig .tc .vmem S1024x2048 .f32) (harg2 : arg2.IsWhole) (arg3 : Memref sig .tc .vmem S2048x256 .bf16) (harg3 : arg3.IsWhole) (arg4 : Memref sig .tc .vmem S1024x256 .bf16) (harg4 : arg4.IsWhole) (arg5 : Memref sig .tc .vmem S1024x256 .f32) (harg5 : arg5.IsWhole)
    (h0 : ¬first1 i) (h7 : ¬last1 i)
    (x0 : Vec F S1024x2048 .f32) (x1 : Vec F S2048x256 .bf16) (d4 : Vec F S1024x256 .bf16) (xs : Vec F S1024x256 .f32) (K : PUnit → sProp 𝕄) :
    iprop(owns (c : Thread nD τ) arg2 fullShare x0 ∗ owns (c : Thread nD τ) arg3 fullShare x1 ∗ owns (c : Thread nD τ) arg4 fullShare d4 ∗ owns (c : Thread nD τ) arg5 fullShare xs
        ∗ (iprop(owns (c : Thread nD τ) arg2 fullShare x0 ∗ owns (c : Thread nD τ) arg3 fullShare x1 ∗ owns (c : Thread nD τ) arg4 fullShare d4 ∗ owns (c : Thread nD τ) arg5 fullShare (k1_pay2 x0 xs x1)) -∗ K ⟨⟩))
      ⊢ wp frame (wpE (defs₀ (F := F)) Variants.none c none) E (cc1__adjmm_tanh_kernel i arg2 harg2 arg3 harg3 arg4 harg4 arg5 harg5) K := by
  simp only [cc1__adjmm_tanh_kernel_eq_skeleton]; unfold cc1__adjmm_tanh_kernel_skel
  unfold owns
  iintro ⟨⟨%f0, %hf0, H0⟩, ⟨%f1, %hf1, H1⟩, ⟨%f4, %hf4, H4⟩, ⟨%f5, %hf5, H5⟩, Hk⟩
  subst hf0; subst hf1; subst hf4; subst hf5
  sl_exec (disch := first | exact h0 | exact h7)
  sl_step
  iapply Hk
  isplitl [H0]
  · iexists f0; isplitr; · ipureintro; rfl
    iexact H0
  isplitl [H1]
  · iexists f1; isplitr; · ipureintro; rfl
    iexact H1
  isplitl [H4]
  · iexists f4; isplitr; · ipureintro; rfl
    iexact H4
  iexists _; isplitr
  swap; · iexact H5
  ipureintro
  refine (View.read_writes_eq_canon _ _ _ (fun y => ⟨_, List.mem_cons_self .., View.mem_set_unit_zero zero_off inb_S1024x256_S1024x256_0_0 y⟩)).trans ?_
  rw [View.canon_cons_unit_zero zero_off]
  try sl_unfold_words
  simp only [View.readAt_eq_ld, View.ld_unit_zero (S := S1024x2048) zero_off, View.ld_unit_zero (S := S2048x256) zero_off, View.ld_unit_zero (S := S1024x256) zero_off]

set_option maxHeartbeats 1000000 in
/-- Last column tile: the scratch at `xs` ends at `xs` plus the tile product, and the output buffer, whatever
    it held, at the tanh of that sum. -/
theorem run1_last (c : Dev nD) (E : Set ℕ) (i : grid1.Coords) (arg2 : Memref sig .tc .vmem S1024x2048 .f32) (harg2 : arg2.IsWhole) (arg3 : Memref sig .tc .vmem S2048x256 .bf16) (harg3 : arg3.IsWhole) (arg4 : Memref sig .tc .vmem S1024x256 .bf16) (harg4 : arg4.IsWhole) (arg5 : Memref sig .tc .vmem S1024x256 .f32) (harg5 : arg5.IsWhole)
    (h0 : ¬first1 i) (h7 : last1 i)
    (x0 : Vec F S1024x2048 .f32) (x1 : Vec F S2048x256 .bf16) (xs : Vec F S1024x256 .f32) (K : PUnit → sProp 𝕄) :
    iprop(owns (c : Thread nD τ) arg2 fullShare x0 ∗ owns (c : Thread nD τ) arg3 fullShare x1 ∗ (∃ d, owns (c : Thread nD τ) arg4 fullShare d) ∗ owns (c : Thread nD τ) arg5 fullShare xs
        ∗ (iprop(owns (c : Thread nD τ) arg2 fullShare x0 ∗ owns (c : Thread nD τ) arg3 fullShare x1 ∗ owns (c : Thread nD τ) arg4 fullShare (k1_pay3 (k1_pay2 x0 xs x1)) ∗ owns (c : Thread nD τ) arg5 fullShare (k1_pay2 x0 xs x1)) -∗ K ⟨⟩))
      ⊢ wp frame (wpE (defs₀ (F := F)) Variants.none c none) E (cc1__adjmm_tanh_kernel i arg2 harg2 arg3 harg3 arg4 harg4 arg5 harg5) K := by
  simp only [cc1__adjmm_tanh_kernel_eq_skeleton]; unfold cc1__adjmm_tanh_kernel_skel
  unfold owns
  iintro ⟨⟨%f0, %hf0, H0⟩, ⟨%f1, %hf1, H1⟩, ⟨%d4, %f4, -, H4⟩, ⟨%f5, %hf5, H5⟩, Hk⟩
  subst hf0; subst hf1; subst hf5
  sl_exec (disch := first | exact h0 | exact h7)
  sl_step
  iapply Hk
  isplitl [H0]
  · iexists f0; isplitr; · ipureintro; rfl
    iexact H0
  isplitl [H1]
  · iexists f1; isplitr; · ipureintro; rfl
    iexact H1
  isplitl [H4]
  · iexists _; isplitr
    swap; · iexact H4
    ipureintro
    refine (View.read_writes_eq_canon _ _ _ (fun y => ⟨_, List.mem_cons_self .., View.mem_set_unit_zero zero_off inb_S1024x256_S1024x256_0_0 y⟩)).trans ?_
    rw [View.canon_cons_unit_zero zero_off]
    try sl_unfold_words
    simp only [View.readAt_eq_ld, View.ld_unit_zero (S := S1024x2048) zero_off, View.ld_unit_zero (S := S2048x256) zero_off, View.ld_unit_zero (S := S1024x256) zero_off, View.readCov_unit_zero (S := S1024x256) _ zero_off]
  iexists _; isplitr
  swap; · iexact H5
  ipureintro
  refine (View.read_writes_eq_canon _ _ _ (fun y => ⟨_, List.mem_cons_self .., View.mem_set_unit_zero zero_off inb_S1024x256_S1024x256_0_0 y⟩)).trans ?_
  rw [View.canon_cons_unit_zero zero_off]
  try sl_unfold_words
  simp only [View.readAt_eq_ld, View.ld_unit_zero (S := S1024x2048) zero_off, View.ld_unit_zero (S := S2048x256) zero_off, View.ld_unit_zero (S := S1024x256) zero_off]

end Runs

end Cert.KernelIdeal.Hand

end
-- ==== Proof.Obl1.lean ====
/-
  The second launch's per-point obligation: at every grid point the invariant hands the body the scratch — at
  anything at a first column tile, at the running sum after the point before otherwise — and takes it back at the
  running sum after this point; the output buffer is stored only at a last column tile. Also: what the launch hands
  over is the invariant before the first point, and the invariant after the last point gives it back.
-/
import proofs.«137944_j3831110828045_1_alg».proof.Proof.Run1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- What the launch hands the body beside the windows, opened at the scratch. -/
theorem PhiA1_open (c : Dev nD) :
    (Pipeline.ΦA spec1 c : sProp 𝕄) ⊢ iprop((∃ d, owns (c : Thread nD τ) scr1 fullShare d) ∗ rest1 (F := F) c) := by
  unfold Pipeline.ΦA rest1; rw [scopedRest1_split]; simp only [scr1, owns_whole]
  iintro ⟨⟨Hs, Hb⟩, Hg⟩
  isplitl [Hs]; · iexact Hs
  isplitl [Hb]; · iexact Hb
  iexact Hg

/-- and closed again, the scratch's contents forgotten. -/
theorem PhiA1_close (c : Dev nD) :
    iprop((∃ d, owns (c : Thread nD τ) scr1 fullShare d) ∗ rest1 (F := F) c) ⊢ (Pipeline.ΦA spec1 c : sProp 𝕄) := by
  unfold Pipeline.ΦA rest1; rw [scopedRest1_split]; simp only [scr1, owns_whole]
  iintro ⟨Hs, Hb, Hg⟩
  isplitl [Hs Hb]
  · isplitl [Hs]; · iexact Hs
    iexact Hb
  iexact Hg

/-- Before any point the invariant holds the scratch at SOME contents beside the rest. -/
theorem Phi1_any (c : Dev nD) (n : ℕ) (h : n ≤ cfg1.N) :
    Phi1 V c n h ⊢ iprop((∃ d, owns (c : Thread nD τ) scr1 fullShare d) ∗ rest1 (F := F) c) := by
  cases n with
  | zero => exact PhiA1_open c
  | succ n =>
    show iprop(owns (c : Thread nD τ) scr1 fullShare (acc1 V c n h) ∗ rest1 (F := F) c) ⊢ _
    iintro ⟨Hs, Hr⟩
    isplitl [Hs]; · iexists _; iexact Hs
    iexact Hr

/-- Before a point that is not the first, at the running sum after the point before. -/
theorem Phi1_pos (c : Dev nD) (n : ℕ) (h : n ≤ cfg1.N) (hz : n ≠ 0) :
    Phi1 V c n h = iprop(owns (c : Thread nD τ) scr1 fullShare (acc1 V c (n - 1) (by omega)) ∗ rest1 (F := F) c) := by
  cases n with
  | zero => exact absurd rfl hz
  | succ n => rfl

theorem Phi1_castSucc (c : Dev nD) (t : Fin cfg1.N) :
    (dat1 V c).Φ t.castSucc = Phi1 V c t.val (Nat.le_of_lt t.isLt) := by
  dsimp only [dat1]; simp only [Fin.coe_castSucc]

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl,
    show (dat1 V c).Φ t.succ = iprop(owns (c : Thread nD τ) scr1 fullShare (acc1 V c t.val t.isLt) ∗ rest1 (F := F) c) from rfl,
    Phi1_castSucc,
    show (dat1 V c).leavesExact 0 t = owns (c : Thread nD τ) (st1_0 t) fullShare ((dat1 V c).after 0 t) from by
      unfold Dat.leavesExact; rw [live1_0 t],
    show (dat1 V c).leavesExact 1 t = owns (c : Thread nD τ) (st1_1 t) fullShare ((dat1 V c).after 1 t) from by
      unfold Dat.leavesExact; rw [live1_1 t],
    after1_0, after1_1]
  have hN : t.val < 128 := lt_of_lt_of_eq t.isLt N_1
  by_cases h0 : t.val % 8 = 0
  · -- a first column tile
    have hf : first1 (grid1.coords t) := (first1_iff t).mpr h0
    have hl : ¬last1 (grid1.coords t) := fun h => by have := (last1_iff t).mp h; omega
    rw [Dat.leavesExact_idle (dat1 V c) 2 t (idle1_2 t hl) (noflush1_2 t hl), acc1_first V c t h0]
    iintro ⟨HΦ, Ho, ⟨%d0, H0⟩, ⟨%d1, H1⟩, ⟨%d2, H2⟩⟩
    ihave HΦ' := (Phi1_any V c t.val _) $$ HΦ
    icases HΦ' with ⟨Hs, Hr⟩
    iapply (run1_first c Set.univ (grid1.coords t) _ _ _ _ _ _ _ _ hf hl (iblk1 V c 0 t) (iblk1 V c 1 t) _ _)
    isplitl [H0]; · iexact H0
    isplitl [H1]; · iexact H1
    isplitl [H2]; · iexact H2
    isplitl [Hs]; · iexact Hs
    iintro ⟨H0, H1, H2, Hs⟩
    isplitl [Hs Hr]
    · isplitl [Hs]; · iexact Hs
      iexact Hr
    isplitl [Ho]; · iexact Ho
    isplitl [H0]; · iexact H0
    isplitl [H1]; · iexact H1
    iexists _; iexact H2
  · have hf : ¬first1 (grid1.coords t) := fun h => h0 ((first1_iff t).mp h)
    have hz : t.val ≠ 0 := fun e => h0 (by rw [e])
    rw [Phi1_pos V c _ _ hz, acc1_next V c t h0]
    by_cases h7 : t.val % 8 = 7
    · -- a last column tile
      have hl : last1 (grid1.coords t) := (last1_iff t).mpr h7
      rw [show (dat1 V c).leavesExact 2 t = owns (c : Thread nD τ) (st1_2 t) fullShare ((dat1 V c).after 2 t) from by
        unfold Dat.leavesExact; rw [live1_2 t hl], after1_2, acc1_next V c t h0]
      iintro ⟨⟨Hs, Hr⟩, Ho, ⟨%d0, H0⟩, ⟨%d1, H1⟩, ⟨%d2, H2⟩⟩
      iapply (run1_last c Set.univ (grid1.coords t) _ _ _ _ _ _ _ _ hf hl (iblk1 V c 0 t) (iblk1 V c 1 t) _ _)
      isplitl [H0]; · iexact H0
      isplitl [H1]; · iexact H1
      isplitl [H2]; · iexists _; iexact H2
      isplitl [Hs]; · iexact Hs
      iintro ⟨H0, H1, H2, Hs⟩
      isplitl [Hs Hr]
      · isplitl [Hs]; · iexact Hs
        iexact Hr
      isplitl [Ho]; · iexact Ho
      isplitl [H0]; · iexact H0
      isplitl [H1]; · iexact H1
      iexact H2
    · -- a middle column tile
      have hl : ¬last1 (grid1.coords t) := fun h => h7 ((last1_iff t).mp h)
      rw [Dat.leavesExact_idle (dat1 V c) 2 t (idle1_2 t hl) (noflush1_2 t hl)]
      iintro ⟨⟨Hs, Hr⟩, Ho, ⟨%d0, H0⟩, ⟨%d1, H1⟩, ⟨%d2, H2⟩⟩
      iapply (run1_mid c Set.univ (grid1.coords t) _ _ _ _ _ _ _ _ hf hl (iblk1 V c 0 t) (iblk1 V c 1 t) _ _ _)
      isplitl [H0]; · iexact H0
      isplitl [H1]; · iexact H1
      isplitl [H2]; · iexact H2
      isplitl [Hs]; · iexact Hs
      iintro ⟨H0, H1, H2, Hs⟩
      isplitl [Hs Hr]
      · isplitl [Hs]; · iexact Hs
        iexact Hr
      isplitl [Ho]; · iexact Ho
      isplitl [H0]; · iexact H0
      isplitl [H1]; · iexact H1
      iexists _; iexact H2

/-- The pipeline rule's obligation at every point. -/
theorem body_obligation1 (c : Dev nD) : BodyObligation (dat1 (F := F) V c) (defs₀ (F := F)) Variants.none () Set.univ := fun t => by
  rw [bigSep_W1, bigSep_W1]
  exact sound_body1 V c t

/-- What the launch hands over is the invariant before the first point. -/
theorem hin1 (c : Dev nD) : Pipeline.ΦA spec1 c ⊢ (dat1 V c).Φ 0 := by
  rw [show (dat1 V c).Φ 0 = Pipeline.ΦA spec1 c from rfl]

/-- The invariant after the last point gives it back, the scratch's contents forgotten. -/
theorem hout1 (c : Dev nD) : (dat1 V c).Φ (Fin.last cfg1.N) ⊢ Pipeline.ΦA spec1 c := by
  rw [show (dat1 V c).Φ (Fin.last cfg1.N) = Phi1 V c (Fin.last cfg1.N).val (Nat.le_of_lt_succ (Fin.last cfg1.N).isLt) from rfl]
  exact (Phi1_any V c _ _).trans (PhiA1_close c)

end

end Cert.KernelIdeal.Hand

end
-- ==== Proof.Run3.lean ====
/-
  The fourth launch's body, run in each of its three kinds of grid point: a first column tile (both scratch tiles
  are reset, then each head's tile product is added), a middle one (each tile product is added to what its scratch
  holds) and a last one (the same, then the three output tiles are stored: the sample, the mean, the deviation).
  Each run names what the two scratch tiles and the three output buffers end holding, as the printed body's own
  arithmetic of what it loaded.
-/
import proofs.«137944_j3831110828045_1_alg».proof.Proof.Dat3

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The body's run in each kind of point -/

section Runs

set_option maxHeartbeats 1000000 in
/-- First column tile: each scratch tile, whatever it held, ends at its head's tile product added to zero; the
    three output buffers are not touched. -/
theorem run3_first (c : Dev nD) (E : Set ℕ) (i : grid3.Coords) (arg2 : Memref sig .tc .vmem S1024x2048 .f32) (harg2 : arg2.IsWhole) (arg3 : Memref sig .tc .vmem S2048x64 .bf16) (harg3 : arg3.IsWhole) (arg4 : Memref sig .tc .vmem S2048x64 .bf16) (harg4 : arg4.IsWhole) (arg5 : Memref sig .tc .vmem S1024x64 .f32) (harg5 : arg5.IsWhole) (arg6 : Memref sig .tc .vmem S1024x64 .f32) (harg6 : arg6.IsWhole) (arg7 : Memref sig .tc .vmem S1024x64 .f32) (harg7 : arg7.IsWhole) (arg8 : Memref sig .tc .vmem S1024x64 .f32) (harg8 : arg8.IsWhole) (arg9 : Memref sig .tc .vmem S1024x64 .f32) (harg9 : arg9.IsWhole) (arg10 : Memref sig .tc .vmem S1024x64 .f32) (harg10 : arg10.IsWhole)
    (h0 : first3 i) (h7 : ¬last3 i)
    (x0 : Vec F S1024x2048 .f32) (x1 : Vec F S2048x64 .bf16) (x2 : Vec F S2048x64 .bf16) (x3 : Vec F S1024x64 .f32)
    (d6 d7 d8 : Vec F S1024x64 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare d6 ∗ owns (c : Thread nD τ) arg7 fullShare d7 ∗ owns (c : Thread nD τ) arg8 fullShare d8 ∗ (∃ d, owns (c : Thread nD τ) arg9 fullShare d) ∗ (∃ d, owns (c : Thread nD τ) arg10 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare d6 ∗ owns (c : Thread nD τ) arg7 fullShare d7 ∗ owns (c : Thread nD τ) arg8 fullShare d8
            ∗ owns (c : Thread nD τ) arg9 fullShare (k3_pay4 x0 (k3_pay1 (F := F)) x1) ∗ owns (c : Thread nD τ) arg10 fullShare (k3_pay5 x0 (k3_pay2 (F := F)) x2)) -∗ K ⟨⟩))
      ⊢ wp frame (wpE (defs₀ (F := F)) Variants.none c none) E (cc3__adjmm_heads_kernel i arg2 harg2 arg3 harg3 arg4 harg4 arg5 harg5 arg6 harg6 arg7 harg7 arg8 harg8 arg9 harg9 arg10 harg10) K := by
  simp only [cc3__adjmm_heads_kernel_eq_skeleton]; unfold cc3__adjmm_heads_kernel_skel
  unfold owns
  iintro ⟨⟨%f0, %hf0, H0⟩, ⟨%f1, %hf1, H1⟩, ⟨%f2, %hf2, H2⟩, ⟨%f3, %hf3, H3⟩, ⟨%f6, %hf6, H6⟩, ⟨%f7, %hf7, H7⟩, ⟨%f8, %hf8, H8⟩, ⟨%d9, %f9, -, H9⟩, ⟨%d10, %f10, -, H10⟩, Hk⟩
  subst hf0; subst hf1; subst hf2; subst hf3; subst hf6; subst hf7; subst hf8
  sl_exec (disch := first | exact h0 | exact h7)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    refine (View.read_writes_eq_canon _ _ _ (fun y => ⟨_, List.mem_cons_self .., View.mem_set_unit_zero zero_off inb_S1024x64_S1024x64_0_0 y⟩)).trans ?_
    rw [View.canon_cons_unit_zero zero_off]
    try sl_unfold_words
    simp only [View.readAt_eq_ld, View.ld_unit_zero (S := S1024x2048) zero_off, View.ld_unit_zero (S := S2048x64) zero_off, View.ld_unit_zero (S := S1024x64) zero_off, View.readCov_unit_zero (S := S1024x64) _ zero_off]
  iexists _; isplitr
  swap; · iexact H10
  ipureintro
  refine (View.read_writes_eq_canon _ _ _ (fun y => ⟨_, List.mem_cons_self .., View.mem_set_unit_zero zero_off inb_S1024x64_S1024x64_0_0 y⟩)).trans ?_
  rw [View.canon_cons_unit_zero zero_off]
  try sl_unfold_words
  simp only [View.readAt_eq_ld, View.ld_unit_zero (S := S1024x2048) zero_off, View.ld_unit_zero (S := S2048x64) zero_off, View.ld_unit_zero (S := S1024x64) zero_off, View.readCov_unit_zero (S := S1024x64) _ zero_off]

set_option maxHeartbeats 1000000 in
/-- A middle column tile: the scratch tiles at `xm`, `xs` end at these plus their heads' tile products; the three
    output buffers are not touched. -/
theorem run3_mid (c : Dev nD) (E : Set ℕ) (i : grid3.Coords) (arg2 : Memref sig .tc .vmem S1024x2048 .f32) (harg2 : arg2.IsWhole) (arg3 : Memref sig .tc .vmem S2048x64 .bf16) (harg3 : arg3.IsWhole) (arg4 : Memref sig .tc .vmem S2048x64 .bf16) (harg4 : arg4.IsWhole) (arg5 : Memref sig .tc .vmem S1024x64 .f32) (harg5 : arg5.IsWhole) (arg6 : Memref sig .tc .vmem S1024x64 .f32) (harg6 : arg6.IsWhole) (arg7 : Memref sig .tc .vmem S1024x64 .f32) (harg7 : arg7.IsWhole) (arg8 : Memref sig .tc .vmem S1024x64 .f32) (harg8 : arg8.IsWhole) (arg9 : Memref sig .tc .vmem S1024x64 .f32) (harg9 : arg9.IsWhole) (arg10 : Memref sig .tc .vmem S1024x64 .f32) (harg10 : arg10.IsWhole)
    (h0 : ¬first3 i) (h7 : ¬last3 i)
    (x0 : Vec F S1024x2048 .f32) (x1 : Vec F S2048x64 .bf16) (x2 : Vec F S2048x64 .bf16) (x3 : Vec F S1024x64 .f32)
    (d6 d7 d8 : Vec F S1024x64 .f32) (xm xs : Vec F S1024x64 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare d6 ∗ owns (c : Thread nD τ) arg7 fullShare d7 ∗ owns (c : Thread nD τ) arg8 fullShare d8 ∗ owns (c : Thread nD τ) arg9 fullShare xm ∗ owns (c : Thread nD τ) arg10 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare d6 ∗ owns (c : Thread nD τ) arg7 fullShare d7 ∗ owns (c : Thread nD τ) arg8 fullShare d8
            ∗ owns (c : Thread nD τ) arg9 fullShare (k3_pay4 x0 xm x1) ∗ owns (c : Thread nD τ) arg10 fullShare (k3_pay5 x0 xs x2)) -∗ K ⟨⟩))
      ⊢ wp frame (wpE (defs₀ (F := F)) Variants.none c none) E (cc3__adjmm_heads_kernel i arg2 harg2 arg3 harg3 arg4 harg4 arg5 harg5 arg6 harg6 arg7 harg7 arg8 harg8 arg9 harg9 arg10 harg10) K := by
  simp only [cc3__adjmm_heads_kernel_eq_skeleton]; unfold cc3__adjmm_heads_kernel_skel
  unfold owns
  iintro ⟨⟨%f0, %hf0, H0⟩, ⟨%f1, %hf1, H1⟩, ⟨%f2, %hf2, H2⟩, ⟨%f3, %hf3, H3⟩, ⟨%f6, %hf6, H6⟩, ⟨%f7, %hf7, H7⟩, ⟨%f8, %hf8, H8⟩, ⟨%f9, %hf9, H9⟩, ⟨%f10, %hf10, H10⟩, Hk⟩
  subst hf0; subst hf1; subst hf2; subst hf3; subst hf6; subst hf7; subst hf8; subst hf9; subst hf10
  sl_exec (disch := first | exact h0 | exact h7)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    refine (View.read_writes_eq_canon _ _ _ (fun y => ⟨_, List.mem_cons_self .., View.mem_set_unit_zero zero_off inb_S1024x64_S1024x64_0_0 y⟩)).trans ?_
    rw [View.canon_cons_unit_zero zero_off]
    try sl_unfold_words
    simp only [View.readAt_eq_ld, View.ld_unit_zero (S := S1024x2048) zero_off, View.ld_unit_zero (S := S2048x64) zero_off, View.ld_unit_zero (S := S1024x64) zero_off, View.readCov_unit_zero (S := S1024x64) _ zero_off]
  iexists _; isplitr
  swap; · iexact H10
  ipureintro
  refine (View.read_writes_eq_canon _ _ _ (fun y => ⟨_, List.mem_cons_self .., View.mem_set_unit_zero zero_off inb_S1024x64_S1024x64_0_0 y⟩)).trans ?_
  rw [View.canon_cons_unit_zero zero_off]
  try sl_unfold_words
  simp only [View.readAt_eq_ld, View.ld_unit_zero (S := S1024x2048) zero_off, View.ld_unit_zero (S := S2048x64) zero_off, View.ld_unit_zero (S := S1024x64) zero_off, View.readCov_unit_zero (S := S1024x64) _ zero_off]

set_option maxHeartbeats 1000000 in
/-- Last column tile: the scratch tiles at `xm`, `xs` end at the sums `xm`, `xs` plus their heads' tile
    products, and the three output buffers, whatever they held, at the sample, the mean and the deviation of
    these two sums. -/
theorem run3_last (c : Dev nD) (E : Set ℕ) (i : grid3.Coords) (arg2 : Memref sig .tc .vmem S1024x2048 .f32) (harg2 : arg2.IsWhole) (arg3 : Memref sig .tc .vmem S2048x64 .bf16) (harg3 : arg3.IsWhole) (arg4 : Memref sig .tc .vmem S2048x64 .bf16) (harg4 : arg4.IsWhole) (arg5 : Memref sig .tc .vmem S1024x64 .f32) (harg5 : arg5.IsWhole) (arg6 : Memref sig .tc .vmem S1024x64 .f32) (harg6 : arg6.IsWhole) (arg7 : Memref sig .tc .vmem S1024x64 .f32) (harg7 : arg7.IsWhole) (arg8 : Memref sig .tc .vmem S1024x64 .f32) (harg8 : arg8.IsWhole) (arg9 : Memref sig .tc .vmem S1024x64 .f32) (harg9 : arg9.IsWhole) (arg10 : Memref sig .tc .vmem S1024x64 .f32) (harg10 : arg10.IsWhole)
    (h0 : ¬first3 i) (h7 : last3 i)
    (x0 : Vec F S1024x2048 .f32) (x1 : Vec F S2048x64 .bf16) (x2 : Vec F S2048x64 .bf16) (x3 : Vec F S1024x64 .f32)
    (xm xs : Vec F S1024x64 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ owns (c : Thread nD τ) arg9 fullShare xm ∗ owns (c : Thread nD τ) arg10 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k3_pay7 (k3_pay4 x0 xm x1) (k3_pay5 x0 xs x2) x3) ∗ owns (c : Thread nD τ) arg7 fullShare (k3_pay4 x0 xm x1) ∗ owns (c : Thread nD τ) arg8 fullShare (k3_pay6 (k3_pay5 x0 xs x2))
            ∗ owns (c : Thread nD τ) arg9 fullShare (k3_pay4 x0 xm x1) ∗ owns (c : Thread nD τ) arg10 fullShare (k3_pay5 x0 xs x2)) -∗ K ⟨⟩))
      ⊢ wp frame (wpE (defs₀ (F := F)) Variants.none c none) E (cc3__adjmm_heads_kernel i arg2 harg2 arg3 harg3 arg4 harg4 arg5 harg5 arg6 harg6 arg7 harg7 arg8 harg8 arg9 harg9 arg10 harg10) K := by
  simp only [cc3__adjmm_heads_kernel_eq_skeleton]; unfold cc3__adjmm_heads_kernel_skel
  unfold owns
  iintro ⟨⟨%f0, %hf0, H0⟩, ⟨%f1, %hf1, H1⟩, ⟨%f2, %hf2, H2⟩, ⟨%f3, %hf3, H3⟩, ⟨%d6, %f6, -, H6⟩, ⟨%d7, %f7, -, H7⟩, ⟨%d8, %f8, -, H8⟩, ⟨%f9, %hf9, H9⟩, ⟨%f10, %hf10, H10⟩, Hk⟩
  subst hf0; subst hf1; subst hf2; subst hf3; subst hf9; subst hf10
  sl_exec (disch := first | exact h0 | exact h7)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H6]
  · iexists _; isplitr
    swap; · iexact H6
    ipureintro
    refine (View.read_writes_eq_canon _ _ _ (fun y => ⟨_, List.mem_cons_self .., View.mem_set_unit_zero zero_off inb_S1024x64_S1024x64_0_0 y⟩)).trans ?_
    rw [View.canon_cons_unit_zero zero_off]
    try sl_unfold_words
    simp only [View.readAt_eq_ld, View.ld_unit_zero (S := S1024x2048) zero_off, View.ld_unit_zero (S := S2048x64) zero_off, View.ld_unit_zero (S := S1024x64) zero_off, View.readCov_unit_zero (S := S1024x64) _ zero_off]
  isplitl [H7]
  · iexists _; isplitr
    swap; · iexact H7
    ipureintro
    refine (View.read_writes_eq_canon _ _ _ (fun y => ⟨_, List.mem_cons_self .., View.mem_set_unit_zero zero_off inb_S1024x64_S1024x64_0_0 y⟩)).trans ?_
    rw [View.canon_cons_unit_zero zero_off]
    try sl_unfold_words
    simp only [View.readAt_eq_ld, View.ld_unit_zero (S := S1024x2048) zero_off, View.ld_unit_zero (S := S2048x64) zero_off, View.ld_unit_zero (S := S1024x64) zero_off, View.readCov_unit_zero (S := S1024x64) _ zero_off]
  isplitl [H8]
  · iexists _; isplitr
    swap; · iexact H8
    ipureintro
    refine (View.read_writes_eq_canon _ _ _ (fun y => ⟨_, List.mem_cons_self .., View.mem_set_unit_zero zero_off inb_S1024x64_S1024x64_0_0 y⟩)).trans ?_
    rw [View.canon_cons_unit_zero zero_off]
    try sl_unfold_words
    simp only [View.readAt_eq_ld, View.ld_unit_zero (S := S1024x2048) zero_off, View.ld_unit_zero (S := S2048x64) zero_off, View.ld_unit_zero (S := S1024x64) zero_off, View.readCov_unit_zero (S := S1024x64) _ zero_off]
  isplitl [H9]
  · iexists _; isplitr
    swap; · iexact H9
    ipureintro
    refine (View.read_writes_eq_canon _ _ _ (fun y => ⟨_, List.mem_cons_self .., View.mem_set_unit_zero zero_off inb_S1024x64_S1024x64_0_0 y⟩)).trans ?_
    rw [View.canon_cons_unit_zero zero_off]
    try sl_unfold_words
    simp only [View.readAt_eq_ld, View.ld_unit_zero (S := S1024x2048) zero_off, View.ld_unit_zero (S := S2048x64) zero_off, View.ld_unit_zero (S := S1024x64) zero_off, View.readCov_unit_zero (S := S1024x64) _ zero_off]
  iexists _; isplitr
  swap; · iexact H10
  ipureintro
  refine (View.read_writes_eq_canon _ _ _ (fun y => ⟨_, List.mem_cons_self .., View.mem_set_unit_zero zero_off inb_S1024x64_S1024x64_0_0 y⟩)).trans ?_
  rw [View.canon_cons_unit_zero zero_off]
  try sl_unfold_words
  simp only [View.readAt_eq_ld, View.ld_unit_zero (S := S1024x2048) zero_off, View.ld_unit_zero (S := S2048x64) zero_off, View.ld_unit_zero (S := S1024x64) zero_off, View.readCov_unit_zero (S := S1024x64) _ zero_off]

end Runs

end Cert.KernelIdeal.Hand

end
-- ==== Proof.Obl3.lean ====
/-
  The fourth launch's per-point obligation: at every grid point the invariant hands the body the two scratch tiles
  — at anything at a first column tile, at the two running sums after the point before otherwise — and takes them
  back at the running sums after this point; the three output buffers are stored only at a last column tile, where
  they end at the sample, the mean and the deviation of the two running sums, and are handed back as found elsewhere.
  Also: what the launch hands over is the invariant before the first point, and the invariant after the last point
  gives it back.
-/
import proofs.«137944_j3831110828045_1_alg».proof.Proof.Run3

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- The scoped buffers that are no staging buffer of this launch, split at its two scratch tiles: each of the two
    whole at some contents, then every other one unopened. -/
theorem scopedRest3_split (c : Dev nD) :
    (Pipeline.scopedRest (Ix := Unit) (Name := ℕ) (U := UR sig nD τ) (Lvl := ℕ) (Val := Elt F) spec3 c : sProp 𝕄)
      = iprop(iprop((∃ f : Buf (Elt F) ((c : Thread nD τ).loc cc3_scratch0), ((c : Thread nD τ).loc cc3_scratch0) ↦{fullShare} f)
            ∗ (∃ f : Buf (Elt F) ((c : Thread nD τ).loc cc3_scratch1), ((c : Thread nD τ).loc cc3_scratch1) ↦{fullShare} f))
          ∗ Pipeline.scopedRestBut (Ix := Unit) (Name := ℕ) (U := UR sig nD τ) (Lvl := ℕ) (Val := Elt F) spec3 c [cc3_scratch0, cc3_scratch1]) :=
  Pipeline.scopedRest_split_of_list spec3 c [cc3_scratch0, cc3_scratch1] (by decide) (by decide)

/-- What the launch hands the body beside the windows, opened at the two scratch tiles. -/
theorem PhiA3_open (c : Dev nD) :
    (Pipeline.ΦA spec3 c : sProp 𝕄) ⊢ iprop((∃ d, owns (c : Thread nD τ) scr3m fullShare d) ∗ (∃ d, owns (c : Thread nD τ) scr3s fullShare d) ∗ rest3 (F := F) c) := by
  unfold Pipeline.ΦA rest3; rw [scopedRest3_split]; simp only [scr3m, scr3s, owns_whole]
  iintro ⟨⟨⟨Hm, Hs⟩, Hb⟩, Hg⟩
  isplitl [Hm]; · iexact Hm
  isplitl [Hs]; · iexact Hs
  isplitl [Hb]; · iexact Hb
  iexact Hg

/-- and closed again, the contents of the two scratch tiles forgotten. -/
theorem PhiA3_close (c : Dev nD) :
    iprop((∃ d, owns (c : Thread nD τ) scr3m fullShare d) ∗ (∃ d, owns (c : Thread nD τ) scr3s fullShare d) ∗ rest3 (F := F) c) ⊢ (Pipeline.ΦA spec3 c : sProp 𝕄) := by
  unfold Pipeline.ΦA rest3; rw [scopedRest3_split]; simp only [scr3m, scr3s, owns_whole]
  iintro ⟨Hm, Hs, Hb, Hg⟩
  isplitl [Hm Hs Hb]
  · isplitl [Hm Hs]
    · isplitl [Hm]; · iexact Hm
      iexact Hs
    iexact Hb
  iexact Hg

/-- Before any point the invariant holds each scratch tile at SOME contents beside the rest. -/
theorem Phi3_any (c : Dev nD) (n : ℕ) (h : n ≤ cfg3.N) :
    Phi3 V c n h ⊢ iprop((∃ d, owns (c : Thread nD τ) scr3m fullShare d) ∗ (∃ d, owns (c : Thread nD τ) scr3s fullShare d) ∗ rest3 (F := F) c) := by
  cases n with
  | zero => exact PhiA3_open c
  | succ n =>
    show iprop(owns (c : Thread nD τ) scr3m fullShare (acc3m V c n h) ∗ owns (c : Thread nD τ) scr3s fullShare (acc3s V c n h) ∗ rest3 (F := F) c) ⊢ _
    iintro ⟨Hm, Hs, Hr⟩
    isplitl [Hm]; · iexists _; iexact Hm
    isplitl [Hs]; · iexists _; iexact Hs
    iexact Hr

/-- Before a point that is not the first, at the two running sums after the point before. -/
theorem Phi3_pos (c : Dev nD) (n : ℕ) (h : n ≤ cfg3.N) (hz : n ≠ 0) :
    Phi3 V c n h = iprop(owns (c : Thread nD τ) scr3m fullShare (acc3m V c (n - 1) (by omega)) ∗ owns (c : Thread nD τ) scr3s fullShare (acc3s V c (n - 1) (by omega)) ∗ rest3 (F := F) c) := by
  cases n with
  | zero => exact absurd rfl hz
  | succ n => rfl

theorem Phi3_castSucc (c : Dev nD) (t : Fin cfg3.N) :
    (dat3 V c).Φ t.castSucc = Phi3 V c t.val (Nat.le_of_lt t.isLt) := by
  dsimp only [dat3]; simp only [Fin.coe_castSucc]

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t
    ∗ (dat3 V c).leavesExact 5 t
    ∗ (dat3 V c).leavesExact 6 t)

set_option maxHeartbeats 4000000 in
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).owesAt () t.succ = (dat3 V c).owesAt () t.castSucc from rfl,
    show (dat3 V c).Φ t.succ = iprop(owns (c : Thread nD τ) scr3m fullShare (acc3m V c t.val t.isLt) ∗ owns (c : Thread nD τ) scr3s fullShare (acc3s V c t.val t.isLt) ∗ rest3 (F := F) c) from rfl,
    Phi3_castSucc,
    show (dat3 V c).leavesExact 0 t = owns (c : Thread nD τ) (st3_0 t) fullShare ((dat3 V c).after 0 t) from by
      unfold Dat.leavesExact; rw [live3_0 t],
    show (dat3 V c).leavesExact 1 t = owns (c : Thread nD τ) (st3_1 t) fullShare ((dat3 V c).after 1 t) from by
      unfold Dat.leavesExact; rw [live3_1 t],
    show (dat3 V c).leavesExact 2 t = owns (c : Thread nD τ) (st3_2 t) fullShare ((dat3 V c).after 2 t) from by
      unfold Dat.leavesExact; rw [live3_2 t],
    show (dat3 V c).leavesExact 3 t = owns (c : Thread nD τ) (st3_3 t) fullShare ((dat3 V c).after 3 t) from by
      unfold Dat.leavesExact; rw [live3_3 t],
    after3_0, after3_1, after3_2, after3_3]
  have hN : t.val < 128 := lt_of_lt_of_eq t.isLt N_3
  by_cases h0 : t.val % 8 = 0
  · -- a first column tile: the output buffers idle, the scratch tiles reset
    have hf : first3 (grid3.coords t) := (first3_iff t).mpr h0
    have hl : ¬last3 (grid3.coords t) := fun h => by have := (last3_iff t).mp h; omega
    rw [Dat.leavesExact_idle (dat3 V c) 4 t (idle3_4 t hl) (noflush3_4 t hl),
      Dat.leavesExact_idle (dat3 V c) 5 t (idle3_5 t hl) (noflush3_5 t hl),
      Dat.leavesExact_idle (dat3 V c) 6 t (idle3_6 t hl) (noflush3_6 t hl),
      acc3m_first V c t h0, acc3s_first V c t h0]
    iintro ⟨HΦ, Ho, ⟨%d0, H0⟩, ⟨%d1, H1⟩, ⟨%d2, H2⟩, ⟨%d3, H3⟩, ⟨%d4, H4⟩, ⟨%d5, H5⟩, ⟨%d6, H6⟩⟩
    ihave HΦ' := (Phi3_any V c t.val _) $$ HΦ
    icases HΦ' with ⟨Hm, Hs, Hr⟩
    iapply (run3_first c Set.univ (grid3.coords t) _ _ _ _ _ _ _ _ _ _ _ _ _ _ _ _ _ _ hf hl (iblk3 V c 0 t) (iblk3 V c 1 t) (iblk3 V c 2 t) (iblk3 V c 3 t) _ _ _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [Hm]; · iexact Hm
    isplitl [Hs]; · iexact Hs
    iintro ⟨H0, H1, H2, H3, H4, H5, H6, Hm, Hs⟩
    isplitl [Hm Hs Hr]
    · isplitl [Hm]; · iexact Hm
      isplitl [Hs]; · iexact Hs
      iexact Hr
    isplitl [Ho]; · iexact Ho
    isplitl [H0]; · iexact H0
    isplitl [H1]; · iexact H1
    isplitl [H2]; · iexact H2
    isplitl [H3]; · iexact H3
    isplitl [H4]; · iexists _; iexact H4
    isplitl [H5]; · iexists _; iexact H5
    iexists _; iexact H6
  · have hf : ¬first3 (grid3.coords t) := fun h => h0 ((first3_iff t).mp h)
    have hz : t.val ≠ 0 := fun e => h0 (by rw [e])
    rw [Phi3_pos V c _ _ hz]
    by_cases h7 : t.val % 8 = 7
    · -- a last column tile: the three output buffers stored
      have hl : last3 (grid3.coords t) := (last3_iff t).mpr h7
      rw [show (dat3 V c).leavesExact 4 t = owns (c : Thread nD τ) (st3_4 t) fullShare ((dat3 V c).after 4 t) from by
          unfold Dat.leavesExact; rw [live3_4 t hl],
        show (dat3 V c).leavesExact 5 t = owns (c : Thread nD τ) (st3_5 t) fullShare ((dat3 V c).after 5 t) from by
          unfold Dat.leavesExact; rw [live3_5 t hl],
        show (dat3 V c).leavesExact 6 t = owns (c : Thread nD τ) (st3_6 t) fullShare ((dat3 V c).after 6 t) from by
          unfold Dat.leavesExact; rw [live3_6 t hl],
        after3_4, after3_5, after3_6, acc3m_next V c t h0, acc3s_next V c t h0]
      iintro ⟨⟨Hm, Hs, Hr⟩, Ho, ⟨%d0, H0⟩, ⟨%d1, H1⟩, ⟨%d2, H2⟩, ⟨%d3, H3⟩, ⟨%d4, H4⟩, ⟨%d5, H5⟩, ⟨%d6, H6⟩⟩
      iapply (run3_last c Set.univ (grid3.coords t) _ _ _ _ _ _ _ _ _ _ _ _ _ _ _ _ _ _ hf hl (iblk3 V c 0 t) (iblk3 V c 1 t) (iblk3 V c 2 t) (iblk3 V c 3 t) _ _ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [Hm]; · iexact Hm
      isplitl [Hs]; · iexact Hs
      iintro ⟨H0, H1, H2, H3, H4, H5, H6, Hm, Hs⟩
      isplitl [Hm Hs Hr]
      · isplitl [Hm]; · iexact Hm
        isplitl [Hs]; · iexact Hs
        iexact Hr
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · -- a middle column tile: the output buffers idle
      have hl : ¬last3 (grid3.coords t) := fun h => h7 ((last3_iff t).mp h)
      rw [Dat.leavesExact_idle (dat3 V c) 4 t (idle3_4 t hl) (noflush3_4 t hl),
        Dat.leavesExact_idle (dat3 V c) 5 t (idle3_5 t hl) (noflush3_5 t hl),
        Dat.leavesExact_idle (dat3 V c) 6 t (idle3_6 t hl) (noflush3_6 t hl),
        acc3m_next V c t h0, acc3s_next V c t h0]
      iintro ⟨⟨Hm, Hs, Hr⟩, Ho, ⟨%d0, H0⟩, ⟨%d1, H1⟩, ⟨%d2, H2⟩, ⟨%d3, H3⟩, ⟨%d4, H4⟩, ⟨%d5, H5⟩, ⟨%d6, H6⟩⟩
      iapply (run3_mid c Set.univ (grid3.coords t) _ _ _ _ _ _ _ _ _ _ _ _ _ _ _ _ _ _ hf hl (iblk3 V c 0 t) (iblk3 V c 1 t) (iblk3 V c 2 t) (iblk3 V c 3 t) _ _ _ _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [Hm]; · iexact Hm
      isplitl [Hs]; · iexact Hs
      iintro ⟨H0, H1, H2, H3, H4, H5, H6, Hm, Hs⟩
      isplitl [Hm Hs Hr]
      · isplitl [Hm]; · iexact Hm
        isplitl [Hs]; · iexact Hs
        iexact Hr
      isplitl [Ho]; · iexact Ho
      isplitl [H0]; · iexact H0
      isplitl [H1]; · iexact H1
      isplitl [H2]; · iexact H2
      isplitl [H3]; · iexact H3
      isplitl [H4]; · iexists _; iexact H4
      isplitl [H5]; · iexists _; iexact H5
      iexists _; iexact H6

/-- The pipeline rule's obligation at every point. -/
theorem body_obligation3 (c : Dev nD) : BodyObligation (dat3 (F := F) V c) (defs₀ (F := F)) Variants.none () Set.univ := fun t => by
  rw [bigSep_W3, bigSep_W3]
  exact sound_body3 V c t

/-- What the launch hands over is the invariant before the first point. -/
theorem hin3 (c : Dev nD) : Pipeline.ΦA spec3 c ⊢ (dat3 V c).Φ 0 := by
  rw [show (dat3 V c).Φ 0 = Pipeline.ΦA spec3 c from rfl]

/-- The invariant after the last point gives it back, the contents of the two scratch tiles forgotten. -/
theorem hout3 (c : Dev nD) : (dat3 V c).Φ (Fin.last cfg3.N) ⊢ Pipeline.ΦA spec3 c := by
  rw [show (dat3 V c).Φ (Fin.last cfg3.N) = Phi3 V c (Fin.last cfg3.N).val (Nat.le_of_lt_succ (Fin.last cfg3.N).isLt) from rfl]
  exact (Phi3_any V c _ _).trans (PhiA3_close c)

end

end Cert.KernelIdeal.Hand

end
-- ==== Proof.LaunchBase.lean ====
/-
  What the four launches share when they are put in a row: each launch's proof data at the contents it is entered
  with (the fold of the arrays' contents), the choice that no core owes another anything, and what rides beside the
  arrays from one launch to the next (the generator register at some state, nothing owed).
-/
import proofs.«137944_j3831110828045_1_alg».proof.Proof.Fold
import proofs.«137944_j3831110828045_1_alg».proof.Proof.Obl1
import proofs.«137944_j3831110828045_1_alg».proof.Proof.Obl3

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))
/-- The first and third launches carry nothing between their points: their invariant is what the launch hands over. -/
theorem hout0 (c : Dev nD) : (dat0 V c).Φ (Fin.last cfg0.N) ⊢ Pipeline.ΦA spec0 c := .rfl
theorem hout2 (c : Dev nD) : (dat2 V c).Φ (Fin.last cfg2.N) ⊢ Pipeline.ΦA spec2 c := .rfl
end

variable (m : (ℓ : Loc nD τ sig) → Buf (Elt F) ℓ)

/-- No launch has a prefetched table. -/
abbrev tabs : (p : Fin 4) → (pcfgs (F := F) p).Adm := fun p => (cfgs p).toPCfg_adm

/-- Every launch's proof data, each at the contents it is entered with. -/
def pdats : (p : Fin 4) → (c : Dev nD) → Dat τ (Elt F) Unit ℕ (UR sig nD τ) ℕ (Pipeline.pin (pcfgs (F := F)) tabs p) c
  | ⟨0, _⟩ => fun c => dat0 (E0 m) c
  | ⟨1, _⟩ => fun c => dat1 (E1 m) c
  | ⟨2, _⟩ => fun c => dat2 (E2 m) c
  | ⟨3, _⟩ => fun c => dat3 (E3 m) c

abbrev novar : Variants := Variants.none
/-- No core owes another anything: no pair is recorded and no level assigned. -/
abbrev noPairs : GSem nD τ sig → Finset Unit := fun _ => ∅
abbrev noLevel : GSem nD τ sig → Unit → ℕ := fun _ _ => 0
/-- What rides beside the arrays between launches: the generator register at some state, and nothing owed. -/
abbrev riding (c : Dev nD) : sProp 𝕄 := iprop((∃ r, prngReg c r) ∗ ∃ W, owes (c : Thread nD τ) (0 : CellTallies nD τ sig Unit) W)
/-- An unscoped TensorCore reference is among the arrays held between launches. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The program's end, but for what is owed: every array at `W4`, the generator register at some state. -/
abbrev atEnd (c : Dev nD) : sProp 𝕄 := iprop(StableHlo.held (c : Thread nD τ) (Pipeline.ucRefs τ sig) (W4 m c) ∗ ∃ r, prngReg c r)

/-- At the end what rides along splits into the generator register and what is owed. -/
theorem riding_end (c : Dev nD) : iprop(StableHlo.held (c : Thread nD τ) (Pipeline.ucRefs τ sig) (W4 m c) ∗ riding (F := F) c)
    ⊢ iprop(atEnd m c ∗ ∃ W, owes (c : Thread nD τ) (0 : CellTallies nD τ sig Unit) W) := by
  iintro ⟨Hh, Hp, Ho⟩
  isplitl [Hh Hp]
  · isplitl [Hh]; · iexact Hh
    iexact Hp
  iexact Ho

end Cert.KernelIdeal.Hand

end
-- ==== Proof.Seg0.lean ====
/-
  Launch 0 as a segment of the program: entered with every array at the contents `W0`, left with every array at
  `W1`. Its windows' arrays are split out of the arrays at entry and put back at exit; the generator register goes
  into the launch's invariant and comes back; nothing is owed to another core; the kernel has no semaphore of its own.
-/
import proofs.«137944_j3831110828045_1_alg».proof.Proof.LaunchBase

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

-- unification with the pinned configuration unfolds plain definitions in a metavariable's type
set_option backward.isDefEq.respectTransparency.types false in
def seg0 : Pipeline.RegionSeg (pcfgs (F := F)) tabs (pdats m) () defs₀ novar noPairs noLevel (0 : Fin 4) where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ noPairs noLevel (0 : Fin 4) fun _ _ => rfl
  pre c := iprop(StableHlo.held (c : Thread nD τ) (Pipeline.ucRefs τ sig) (W0 m c) ∗ riding c)
  post c := iprop(StableHlo.held (c : Thread nD τ) (Pipeline.ucRefs τ sig) (W1 m c) ∗ riding c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := (0 : Fin 4)) (pcfgs (F := F)) tabs (pdats m) launch0.win launch0.arr_whole c
      ((pdats m (0 : Fin 4) c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m (0 : Fin 4) c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m (0 : Fin 4) c).Φ (Fin.last _) ⊢ Pipeline.ΦA spec0 c from hout0 (E0 m) c).trans ?_
    unfold Pipeline.ΦA
    iintro ⟨Hr, Hp⟩
    isplitl [Hp]; · iexact Hp
    isplitr; · iempintro
    iexact Hr
  hexit c := by
    have hjoin := Pipeline.unscopedBufs_of_arrays (p := (0 : Fin 4)) (pcfgs (F := F)) tabs (Ix := Unit) (Name := ℕ) (U := UR sig nD τ) (Lvl := ℕ)
      launch0.win launch0.arr_whole c (pdats m) ((pdats m (0 : Fin 4) c).share_full fun _ => rfl)
      (E0 m c) (E1 m c) ((pdats m (0 : Fin 4) c).arrAt · cfg0.N) (exitArr0 m c) (exitRest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.Seg1.lean ====
/-
  Launch 1 as a segment of the program: entered with every array at the contents `W1`, left with every array at
  `W2`. Its windows' arrays are split out of the arrays at entry and put back at exit; the generator register goes
  into the launch's invariant and comes back; nothing is owed to another core; the kernel has no semaphore of its own.
-/
import proofs.«137944_j3831110828045_1_alg».proof.Proof.LaunchBase

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

-- unification with the pinned configuration unfolds plain definitions in a metavariable's type
set_option backward.isDefEq.respectTransparency.types false in
def seg1 : Pipeline.RegionSeg (pcfgs (F := F)) tabs (pdats m) () defs₀ novar noPairs noLevel (1 : Fin 4) where
  win := launch1.win.to₀
  block_pos := launch1.block_pos
  stage_whole := launch1.stage_whole
  K := PEmpty
  osem k := k.elim
  ho := Pipeline.OwnSemFacts.none _
  hbody c := (body_obligation1 (E1 m) c).loose
  hwaits := Pipeline.hwaits_of_owed_zero _ _ _ _ noPairs noLevel (1 : Fin 4) fun _ _ => rfl
  pre c := iprop(StableHlo.held (c : Thread nD τ) (Pipeline.ucRefs τ sig) (W1 m c) ∗ riding c)
  post c := iprop(StableHlo.held (c : Thread nD τ) (Pipeline.ucRefs τ sig) (W2 m c) ∗ riding c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := Pipeline.arrays_of_unscopedBufs (p := (1 : Fin 4)) (pcfgs (F := F)) tabs (pdats m) launch1.win launch1.arr_whole c
      ((pdats m (1 : Fin 4) c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m (1 : Fin 4) c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m (1 : Fin 4) c).Φ (Fin.last _) ⊢ Pipeline.ΦA spec1 c from hout1 (E1 m) c).trans ?_
    unfold Pipeline.ΦA
    iintro ⟨Hr, Hp⟩
    isplitl [Hp]; · iexact Hp
    isplitr; · iempintro
    iexact Hr
  hexit c := by
    have hjoin := Pipeline.unscopedBufs_of_arrays (p := (1 : Fin 4)) (pcfgs (F := F)) tabs (Ix := Unit) (Name := ℕ) (U := UR sig nD τ) (Lvl := ℕ)
      launch1.win launch1.arr_whole c (pdats m) ((pdats m (1 : Fin 4) c).share_full fun _ => rfl)
      (E1 m c) (E2 m c) ((pdats m (1 : Fin 4) c).arrAt · cfg1.N) (exitArr1 m c) (exitRest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.Seg2.lean ====
/-
  Launch 2 as a segment of the program: entered with every array at the contents `W2`, left with every array at
  `W3`. Its windows' arrays are split out of the arrays at entry and put back at exit; the generator register goes
  into the launch's invariant and comes back; nothing is owed to another core; the kernel has no semaphore of its own.
-/
import proofs.«137944_j3831110828045_1_alg».proof.Proof.LaunchBase

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

-- unification with the pinned configuration unfolds plain definitions in a metavariable's type
set_option backward.isDefEq.respectTransparency.types false in
def seg2 : Pipeline.RegionSeg (pcfgs (F := F)) tabs (pdats m) () defs₀ novar noPairs noLevel (2 : Fin 4) where
  win := launch2.win.to₀
  block_pos := launch2.block_pos
  stage_whole := launch2.stage_whole
  K := PEmpty
  osem k := k.elim
  ho := Pipeline.OwnSemFacts.none _
  hbody c := (body_obligation2 (E2 m) c).loose
  hwaits := Pipeline.hwaits_of_owed_zero _ _ _ _ noPairs noLevel (2 : Fin 4) fun _ _ => rfl
  pre c := iprop(StableHlo.held (c : Thread nD τ) (Pipeline.ucRefs τ sig) (W2 m c) ∗ riding c)
  post c := iprop(StableHlo.held (c : Thread nD τ) (Pipeline.ucRefs τ sig) (W3 m c) ∗ riding c)
  X c := iprop(∃ r, prngReg c r)
  Y c := iprop(∃ r, prngReg c r)
  Z c := Pipeline.unscopedRest (Ix := Unit) (Name := ℕ) (U := UR sig nD τ) (Lvl := ℕ) spec2 c (E2 m c)
  hentry c := by
    rw [Pipeline.ownSems0_none]
    have hsplit := Pipeline.arrays_of_unscopedBufs (p := (2 : Fin 4)) (pcfgs (F := F)) tabs (pdats m) launch2.win launch2.arr_whole c
      ((pdats m (2 : Fin 4) c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m (2 : Fin 4) c).Φ 0 = Pipeline.ΦA spec2 c from rfl]; unfold Pipeline.ΦA
    iintro ⟨Hp, -, Hr⟩
    isplitl [Hr]; · iexact Hr
    iexact Hp
  hout c := by
    rw [Pipeline.ownSems0_none]
    refine (show (pdats m (2 : Fin 4) c).Φ (Fin.last _) ⊢ Pipeline.ΦA spec2 c from hout2 (E2 m) c).trans ?_
    unfold Pipeline.ΦA
    iintro ⟨Hr, Hp⟩
    isplitl [Hp]; · iexact Hp
    isplitr; · iempintro
    iexact Hr
  hexit c := by
    have hjoin := Pipeline.unscopedBufs_of_arrays (p := (2 : Fin 4)) (pcfgs (F := F)) tabs (Ix := Unit) (Name := ℕ) (U := UR sig nD τ) (Lvl := ℕ)
      launch2.win launch2.arr_whole c (pdats m) ((pdats m (2 : Fin 4) c).share_full fun _ => rfl)
      (E2 m c) (E3 m c) ((pdats m (2 : Fin 4) c).arrAt · cfg2.N) (exitArr2 m c) (exitRest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.Seg3.lean ====
/-
  Launch 3 as a segment of the program: entered with every array at the contents `W3`, left with every array at
  `W4`. Its windows' arrays are split out of the arrays at entry and put back at exit; the generator register goes
  into the launch's invariant and comes back; nothing is owed to another core; the kernel has no semaphore of its own.
-/
import proofs.«137944_j3831110828045_1_alg».proof.Proof.LaunchBase

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

-- unification with the pinned configuration unfolds plain definitions in a metavariable's type
set_option backward.isDefEq.respectTransparency.types false in
def seg3 : Pipeline.RegionSeg (pcfgs (F := F)) tabs (pdats m) () defs₀ novar noPairs noLevel (3 : Fin 4) where
  win := launch3.win.to₀
  block_pos := launch3.block_pos
  stage_whole := launch3.stage_whole
  K := PEmpty
  osem k := k.elim
  ho := Pipeline.OwnSemFacts.none _
  hbody c := (body_obligation3 (E3 m) c).loose
  hwaits := Pipeline.hwaits_of_owed_zero _ _ _ _ noPairs noLevel (3 : Fin 4) fun _ _ => rfl
  pre c := iprop(StableHlo.held (c : Thread nD τ) (Pipeline.ucRefs τ sig) (W3 m c) ∗ riding c)
  post c := iprop(StableHlo.held (c : Thread nD τ) (Pipeline.ucRefs τ sig) (W4 m c) ∗ riding c)
  X c := iprop(∃ r, prngReg c r)
  Y c := iprop(∃ r, prngReg c r)
  Z c := Pipeline.unscopedRest (Ix := Unit) (Name := ℕ) (U := UR sig nD τ) (Lvl := ℕ) spec3 c (E3 m c)
  hentry c := by
    rw [Pipeline.ownSems0_none]
    have hsplit := Pipeline.arrays_of_unscopedBufs (p := (3 : Fin 4)) (pcfgs (F := F)) tabs (pdats m) launch3.win launch3.arr_whole c
      ((pdats m (3 : Fin 4) c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m (3 : Fin 4) c).Φ 0 = Pipeline.ΦA spec3 c from rfl]; unfold Pipeline.ΦA
    iintro ⟨Hp, -, Hr⟩
    isplitl [Hr]; · iexact Hr
    iexact Hp
  hout c := by
    rw [Pipeline.ownSems0_none]
    refine (show (pdats m (3 : Fin 4) c).Φ (Fin.last _) ⊢ Pipeline.ΦA spec3 c from hout3 (E3 m) c).trans ?_
    unfold Pipeline.ΦA
    iintro ⟨Hr, Hp⟩
    isplitl [Hp]; · iexact Hp
    isplitr; · iempintro
    iexact Hr
  hexit c := by
    have hjoin := Pipeline.unscopedBufs_of_arrays (p := (3 : Fin 4)) (pcfgs (F := F)) tabs (Ix := Unit) (Name := ℕ) (U := UR sig nD τ) (Lvl := ℕ)
      launch3.win launch3.arr_whole c (pdats m) ((pdats m (3 : Fin 4) c).share_full fun _ => rfl)
      (E3 m c) (E4 m c) ((pdats m (3 : Fin 4) c).arrAt · cfg3.N) (exitArr3 m c) (exitRest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.Args.lean ====
/-
  No launch writes an argument array: each of the six is either an input window of a launch (left as found) or
  no window of it at all, so the fold of the arrays' contents through the four launches returns it as launched.
  Likewise each intermediate array, between the launch that writes it and the launch that reads it.
-/
import proofs.«137944_j3831110828045_1_alg».proof.Proof.Fold

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The arguments as each launch finds them -/

theorem E1_arg0 (c : Dev nD) : E1 m c main_arg0 = m ((c : Thread nD τ).loc main_arg0) := W1_of_ne m c main_arg0 (by decide)
theorem E1_arg3 (c : Dev nD) : E1 m c main_arg3 = m ((c : Thread nD τ).loc main_arg3) := W1_of_ne m c main_arg3 (by decide)
theorem E1_arg4 (c : Dev nD) : E1 m c main_arg4 = m ((c : Thread nD τ).loc main_arg4) := W1_of_ne m c main_arg4 (by decide)
theorem E1_arg5 (c : Dev nD) : E1 m c main_arg5 = m ((c : Thread nD τ).loc main_arg5) := W1_of_ne m c main_arg5 (by decide)
theorem E1_arg1 (c : Dev nD) : E1 m c main_arg1 = m ((c : Thread nD τ).loc main_arg1) := W1_in m c 0 rfl
theorem E1_arg2 (c : Dev nD) : E1 m c main_arg2 = m ((c : Thread nD τ).loc main_arg2) := W1_in m c 1 rfl

theorem E2_arg0 (c : Dev nD) : E2 m c main_arg0 = m ((c : Thread nD τ).loc main_arg0) := (W2_in m c 0 rfl).trans (E1_arg0 m c)
theorem E2_arg1 (c : Dev nD) : E2 m c main_arg1 = m ((c : Thread nD τ).loc main_arg1) := (W2_of_ne m c main_arg1 (by decide)).trans (E1_arg1 m c)
theorem E2_arg2 (c : Dev nD) : E2 m c main_arg2 = m ((c : Thread nD τ).loc main_arg2) := (W2_of_ne m c main_arg2 (by decide)).trans (E1_arg2 m c)
theorem E2_arg3 (c : Dev nD) : E2 m c main_arg3 = m ((c : Thread nD τ).loc main_arg3) := (W2_of_ne m c main_arg3 (by decide)).trans (E1_arg3 m c)
theorem E2_arg4 (c : Dev nD) : E2 m c main_arg4 = m ((c : Thread nD τ).loc main_arg4) := (W2_of_ne m c main_arg4 (by decide)).trans (E1_arg4 m c)
theorem E2_arg5 (c : Dev nD) : E2 m c main_arg5 = m ((c : Thread nD τ).loc main_arg5) := (W2_of_ne m c main_arg5 (by decide)).trans (E1_arg5 m c)

theorem E3_arg0 (c : Dev nD) : E3 m c main_arg0 = m ((c : Thread nD τ).loc main_arg0) := (W3_of_ne m c main_arg0 (by decide)).trans (E2_arg0 m c)
theorem E3_arg1 (c : Dev nD) : E3 m c main_arg1 = m ((c : Thread nD τ).loc main_arg1) := (W3_of_ne m c main_arg1 (by decide)).trans (E2_arg1 m c)
theorem E3_arg2 (c : Dev nD) : E3 m c main_arg2 = m ((c : Thread nD τ).loc main_arg2) := (W3_of_ne m c main_arg2 (by decide)).trans (E2_arg2 m c)
theorem E3_arg3 (c : Dev nD) : E3 m c main_arg3 = m ((c : Thread nD τ).loc main_arg3) := (W3_in m c 1 rfl).trans (E2_arg3 m c)
theorem E3_arg4 (c : Dev nD) : E3 m c main_arg4 = m ((c : Thread nD τ).loc main_arg4) := (W3_in m c 2 rfl).trans (E2_arg4 m c)
theorem E3_arg5 (c : Dev nD) : E3 m c main_arg5 = m ((c : Thread nD τ).loc main_arg5) := (W3_of_ne m c main_arg5 (by decide)).trans (E2_arg5 m c)

/-- Every argument ends as launched. -/
theorem E4_arg0 (c : Dev nD) : E4 m c main_arg0 = m ((c : Thread nD τ).loc main_arg0) := (W4_in m c 0 rfl).trans (E3_arg0 m c)
theorem E4_arg1 (c : Dev nD) : E4 m c main_arg1 = m ((c : Thread nD τ).loc main_arg1) := (W4_of_ne m c main_arg1 (by decide)).trans (E3_arg1 m c)
theorem E4_arg2 (c : Dev nD) : E4 m c main_arg2 = m ((c : Thread nD τ).loc main_arg2) := (W4_of_ne m c main_arg2 (by decide)).trans (E3_arg2 m c)
theorem E4_arg3 (c : Dev nD) : E4 m c main_arg3 = m ((c : Thread nD τ).loc main_arg3) := (W4_of_ne m c main_arg3 (by decide)).trans (E3_arg3 m c)
theorem E4_arg4 (c : Dev nD) : E4 m c main_arg4 = m ((c : Thread nD τ).loc main_arg4) := (W4_of_ne m c main_arg4 (by decide)).trans (E3_arg4 m c)
theorem E4_arg5 (c : Dev nD) : E4 m c main_arg5 = m ((c : Thread nD τ).loc main_arg5) := (W4_in m c 3 rfl).trans (E3_arg5 m c)

/-! ## The intermediates as the launch that reads them finds them -/

/-- The first product, as the second launch finds it. -/
theorem E1_v0 (c : Dev nD) : E1 m c main_v0 = (dat0 (E0 m) c).arrAt 2 cfg0.N := W1_arr m c 2
/-- The hidden layer, as the third launch finds it. -/
theorem E2_v1 (c : Dev nD) : E2 m c main_v1 = (dat1 (E1 m) c).arrAt 2 cfg1.N := W2_arr m c 2
/-- The two heads' products, as the fourth launch finds them. -/
theorem E3_v2_0 (c : Dev nD) : E3 m c main_v2_0 = (dat2 (E2 m) c).arrAt 3 cfg2.N := W3_arr m c 3
theorem E3_v2_1 (c : Dev nD) : E3 m c main_v2_1 = (dat2 (E2 m) c).arrAt 4 cfg2.N := W3_arr m c 4
/-- The three results at the program's end. -/
theorem E4_v3_0 (c : Dev nD) : E4 m c main_v3_0 = (dat3 (E3 m) c).arrAt 4 cfg3.N := W4_arr m c 4
theorem E4_v3_1 (c : Dev nD) : E4 m c main_v3_1 = (dat3 (E3 m) c).arrAt 5 cfg3.N := W4_arr m c 5
theorem E4_v3_2 (c : Dev nD) : E4 m c main_v3_2 = (dat3 (E3 m) c).arrAt 6 cfg3.N := W4_arr m c 6

end Cert.KernelIdeal.Hand

end
-- ==== Proof.Launch.lean ====
/-
  The whole program run: the four launches in order, each entered with the arrays at what the launches before it
  left (the fold `W0 … W4`), under the library's rule for a program of several launches. Its conclusion: every weakly
  fair execution terminates, nothing faults, and at the end every array of the program holds what the fold says —
  from which both the unchanged arguments and the results' values are read.
-/
import proofs.«137944_j3831110828045_1_alg».proof.Proof.Seg0
import proofs.«137944_j3831110828045_1_alg».proof.Proof.Seg1
import proofs.«137944_j3831110828045_1_alg».proof.Proof.Seg2
import proofs.«137944_j3831110828045_1_alg».proof.Proof.Seg3
import proofs.«137944_j3831110828045_1_alg».proof.Proof.Args

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The program's four segments in order. -/
abbrev segs : List (Pipeline.Seg (pcfgs (F := F)) tabs (pdats m) () defs₀ novar noPairs noLevel) :=
  [.region (seg0 m), .region (seg1 m), .region (seg2 m), .region (seg3 m)]

/-- The program is the run of its segments. -/
theorem main_is_segs (c : Dev nD) : main (F := F) c = Pipeline.Seg.run (segs m) := (main_chain c).trans (by chain_rfl)

-- the rule's implicit arguments are found by unifying its conclusion with this one, which takes unfolding plain
-- definitions in a metavariable's type
set_option backward.isDefEq.respectTransparency.types false in
/-- THE RUN. From any memory with zero counters every weakly fair execution of the program terminates, nothing
    faulting, and at the end every array holds what the fold `W4` says. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) tabs (pdats m) () cellOf_inj emb₁ defs₀ novar noPairs noLevel m ρ main (segs m)
    (fun c Q => by rw [main_is_segs m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ riding c)) (Tₙ := atEnd m)
    (hch := ⟨fun _ => .rfl, fun _ => .rfl, fun _ => .rfl, fun _ => .rfl, fun c => riding_end m c⟩)
    (hinit := by
      refine Pipeline.initEach noPairs noLevel fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h => h)

/-- THE FRAME: every argument array ends as launched. -/
theorem frame_run : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_arg0 (by decide))).trans (E4_arg0 m c),
     (h c _ (mem_uc main_arg1 (by decide))).trans (E4_arg1 m c),
     (h c _ (mem_uc main_arg2 (by decide))).trans (E4_arg2 m c),
     (h c _ (mem_uc main_arg3 (by decide))).trans (E4_arg3 m c),
     (h c _ (mem_uc main_arg4 (by decide))).trans (E4_arg4 m c),
     (h c _ (mem_uc main_arg5 (by decide))).trans (E4_arg5 m c)⟩) (run_all m ρ)

end Cert.KernelIdeal.Hand

end
-- ==== Proof.Spec.lean ====
/-
  What the four launches compute, as functions of whole arrays of extended reals, entry by entry: three kinds of
  matrix product (an entry is the sum over the contracted index of the products), the hidden layer (tanh of a
  product), the standard deviation head (a product clamped below at zero, plus a small constant) and the sample
  (noise times deviation plus mean).
-/
import Idealize.ShloMosaic.PureOps.Ideal
import Idealize.ShloMosaic.PureOps.Ideal.Laws
import Idealize.ShloMosaic.Lib.ValueIdx

noncomputable section

open Idealize.ShloMosaic Idealize.ShloMosaic.ValueIdx
open scoped BigOperators

namespace Cert.Spec

/-- A matrix of extended reals with `r` rows and `c` columns. -/
abbrev Mat (r c : ℕ) : Type := (⟨2, ![r, c]⟩ : Shape).Idx → EReal

/-- features × first weights: [16384, 512] × [512, 256]. -/
def prod512 (x : Mat 16384 512) (w : Mat 512 256) : Mat 16384 256 :=
  fun j => ∑ k : Fin 512, x (ix2 (j 0) k) * w (ix2 k (j 1))

/-- adjacency × a 256-column matrix: [16384, 16384] × [16384, 256]. -/
def prodAdj256 (a : Mat 16384 16384) (v : Mat 16384 256) : Mat 16384 256 :=
  fun j => ∑ k : Fin 16384, a (ix2 (j 0) k) * v (ix2 k (j 1))

/-- the hidden layer: tanh of adjacency × (features × weights). -/
def hidden (a : Mat 16384 16384) (v : Mat 16384 256) : Mat 16384 256 :=
  fun j => Ideal.tanh (prodAdj256 a v j)

/-- hidden × a head's weights: [16384, 256] × [256, 64]. -/
def prod256 (h : Mat 16384 256) (w : Mat 256 64) : Mat 16384 64 :=
  fun j => ∑ k : Fin 256, h (ix2 (j 0) k) * w (ix2 k (j 1))

/-- adjacency × a 64-column matrix: [16384, 16384] × [16384, 64] — the mean head. -/
def prodAdj64 (a : Mat 16384 16384) (v : Mat 16384 64) : Mat 16384 64 :=
  fun j => ∑ k : Fin 16384, a (ix2 (j 0) k) * v (ix2 k (j 1))

/-- the deviation head: the product clamped below at zero, plus the small constant. -/
def devOf (a : Mat 16384 16384) (v : Mat 16384 64) : Mat 16384 64 :=
  fun j => max (prodAdj64 a v j) (Ideal.ofBits .f32 0x00000000#32) + Ideal.ofBits .f32 0x38D1B717#32

/-- the sample: noise × deviation + mean. -/
def sampleOf (e s m : Mat 16384 64) : Mat 16384 64 :=
  fun j => e j * s j + m j

end Cert.Spec

end
-- ==== Proof.Val0.lean ====
/-
  The value of the first launch at extended reals: the array it leaves is the features times the first weights.
  An entry of the tile a grid point computes is the sum over the 512 contracted positions of a row of the point's
  feature tile times a column of the weight matrix; the point's feature tile is rows 2048·t … 2048·t + 2047 of the
  features, the weight block is the whole matrix, and the point writes its tile back to the same rows of the
  product. The 8 tiles cover the 16384 rows, so the array ends at the whole product, entry by entry.
-/
import proofs.«137944_j3831110828045_1_alg».proof.Proof.Reg0
import proofs.«137944_j3831110828045_1_alg».proof.Proof.Spec
import Idealize.ShloMosaic.Lib.Pipeline.Value
import Idealize.ShloMosaic.Lib.ValueIdx
import Idealize.ShloMosaic.PureOps.Ideal
import Idealize.ShloMosaic.PureOps.Ideal.Laws

set_option maxRecDepth 16384

noncomputable section

namespace Cert.KernelIdeal.Hand.Val0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx
open Cert.Spec
open scoped BigOperators

/-! ## The first launch's product tile at an entry -/

theorem lhs_dense_0 (i : S2048x256.Idx) (q : dot_S2048x512_S512x256_S2048x256_1_0_0_1_n_n.contr.Idx) :
    (dot_S2048x512_S512x256_S2048x256_1_0_0_1_n_n.lhsIdx i q 0).val = (i 0).val := by
  unfold DotDims.lhsIdx
  rw [dif_neg (show ¬(0 : Fin S2048x512.rank) ∈ dot_S2048x512_S512x256_S2048x256_1_0_0_1_n_n.lhsBatch by decide), dif_pos (show (0 : Fin S2048x512.rank) ∈ dot_S2048x512_S512x256_S2048x256_1_0_0_1_n_n.lhsNonContracting by decide)]
  rfl
theorem lhs_dense_1 (i : S2048x256.Idx) (q : dot_S2048x512_S512x256_S2048x256_1_0_0_1_n_n.contr.Idx) :
    (dot_S2048x512_S512x256_S2048x256_1_0_0_1_n_n.lhsIdx i q 1).val = (q ⟨0, by decide⟩).val :=
  dot_S2048x512_S512x256_S2048x256_1_0_0_1_n_n.lhsIdx_val_of_single rfl i q
theorem rhs_dense_0 (i : S2048x256.Idx) (q : dot_S2048x512_S512x256_S2048x256_1_0_0_1_n_n.contr.Idx) :
    (dot_S2048x512_S512x256_S2048x256_1_0_0_1_n_n.rhsIdx i q 0).val = (q ⟨0, by decide⟩).val :=
  dot_S2048x512_S512x256_S2048x256_1_0_0_1_n_n.rhsIdx_val_of_single rfl i q
theorem rhs_dense_1 (i : S2048x256.Idx) (q : dot_S2048x512_S512x256_S2048x256_1_0_0_1_n_n.contr.Idx) :
    (dot_S2048x512_S512x256_S2048x256_1_0_0_1_n_n.rhsIdx i q 1).val = (i 1).val := by
  unfold DotDims.rhsIdx
  rw [dif_neg (show ¬(1 : Fin S512x256.rank) ∈ dot_S2048x512_S512x256_S2048x256_1_0_0_1_n_n.rhsBatch by decide), dif_pos (show (1 : Fin S512x256.rank) ∈ dot_S2048x512_S512x256_S2048x256_1_0_0_1_n_n.rhsNonContracting by decide)]
  rfl

/-- Entry (p, q) of the product tile: the sum over the 512 contracted positions of the feature tile's row p times
    the weight matrix's column q (the narrowings are the identity on extended reals, the accumulator starts at zero). -/
theorem pay0_apply (x : Vec Ideal S2048x512 .f32) (w : Vec Ideal S512x256 .f32) (p : Fin 2048) (q : Fin 256) :
    k0_pay1 (F := Ideal) x w (ix2 p q) = ∑ k : Fin 512, x (ix2 p k) * w (ix2 k q) := by
  unfold k0_pay1
  refine (Ideal.matmul_constant_zero_apply dot_S2048x512_S512x256_S2048x256_1_0_0_1_n_n none _ _ (ix2 p q)).trans ?_
  rw [← Equiv.sum_comp (contrEquiv1 dot_S2048x512_S512x256_S2048x256_1_0_0_1_n_n 512 rfl rfl).symm]
  refine Finset.sum_congr rfl fun k _ => ?_
  have hk := contrEquiv1_symm_val dot_S2048x512_S512x256_S2048x256_1_0_0_1_n_n 512 rfl rfl k
  have el : dot_S2048x512_S512x256_S2048x256_1_0_0_1_n_n.lhsIdx (ix2 p q) ((contrEquiv1 dot_S2048x512_S512x256_S2048x256_1_0_0_1_n_n 512 rfl rfl).symm k) = ix2 p k := funext fun a => Fin.ext (by
    match a with
    | ⟨0, _⟩ => exact lhs_dense_0 _ _
    | ⟨1, _⟩ => exact (lhs_dense_1 _ _).trans hk)
  have er : dot_S2048x512_S512x256_S2048x256_1_0_0_1_n_n.rhsIdx (ix2 p q) ((contrEquiv1 dot_S2048x512_S512x256_S2048x256_1_0_0_1_n_n 512 rfl rfl).symm k) = ix2 k q := funext fun a => Fin.ext (by
    match a with
    | ⟨0, _⟩ => exact (rhs_dense_0 _ _).trans hk
    | ⟨1, _⟩ => exact rhs_dense_1 _ _)
  rw [el, er]
  rfl

section
variable (V : (c : Dev nD) → (b : Ref sig .tc) → Buf (Elt Ideal) ((c : Thread nD τ).loc b))

/-- Which block each window of the first launch is on at point t: the feature tile and the product tile at row
    block t, the weight matrix at its one block. -/
theorem idx0 : ∀ t : Fin cfg0.N, win0_0.index t 0 = t.val ∧ win0_0.index t 1 = 0 ∧ win0_1.index t 0 = 0 ∧ win0_1.index t 1 = 0
    ∧ win0_2.index t 0 = t.val ∧ win0_2.index t 1 = 0 :=
  (by decide +kernel : ∀ t : Fin grid0.N, win0_0.index t 0 = t.val ∧ win0_0.index t 1 = 0 ∧ win0_1.index t 0 = 0 ∧ win0_1.index t 1 = 0
    ∧ win0_2.index t 0 = t.val ∧ win0_2.index t 1 = 0)

/-- The feature tile at point t is rows 2048·t … 2048·t + 2047 of the features. -/
theorem iblk0_0_apply (c : Dev nD) (t : Fin cfg0.N) (x : S2048x512.Idx) (k : S16384x512.Idx)
    (hk0 : (k 0).val = 2048 * t.val + (x 0).val) (hk1 : (k 1).val = (x 1).val) :
    (iblk0 (F := Ideal) V c 0 t : Vec Ideal S2048x512 .f32) x = (V c main_arg1 : S16384x512.Idx → EReal) k := by
  obtain ⟨e0, e1, -⟩ := idx0 t
  unfold iblk0
  rw [View.read_apply]
  show V c main_arg1 _ = V c main_arg1 _
  congr 1
  funext a
  apply Fin.ext
  match a with
  | ⟨0, _⟩ => show win0_0.index t 0 * 2048 + 1 * (x 0).val = (k 0).val; rw [e0, hk0]; omega
  | ⟨1, _⟩ => show win0_0.index t 1 * 512 + 1 * (x 1).val = (k 1).val; rw [e1, hk1]; omega

/-- The weight block at every point is the whole weight matrix. -/
theorem iblk0_1_apply (c : Dev nD) (t : Fin cfg0.N) (x : S512x256.Idx) :
    (iblk0 (F := Ideal) V c 1 t : Vec Ideal S512x256 .f32) x = (V c main_arg2 : S512x256.Idx → EReal) x := by
  obtain ⟨-, -, e0, e1, -⟩ := idx0 t
  unfold iblk0
  rw [View.read_apply]
  show V c main_arg2 _ = V c main_arg2 _
  congr 1
  funext a
  apply Fin.ext
  match a with
  | ⟨0, _⟩ => show win0_1.index t 0 * 512 + 1 * (x 0).val = (x 0).val; rw [e0]; omega
  | ⟨1, _⟩ => show win0_1.index t 1 * 256 + 1 * (x 1).val = (x 1).val; rw [e1]; omega

/-- Entry j of the tile point t computes is entry (2048·t + j₀, j₁) of the whole product. -/
theorem tile0_apply (c : Dev nD) (t : Fin cfg0.N) (j : S2048x256.Idx) (i : S16384x256.Idx)
    (hi0 : (i 0).val = 2048 * t.val + (j 0).val) (hi1 : (i 1).val = (j 1).val) :
    k0_pay1 (F := Ideal) (iblk0 (F := Ideal) V c 0 t) (iblk0 (F := Ideal) V c 1 t) j
      = prod512 (V c main_arg1) (V c main_arg2) i := by
  obtain ⟨p, q, rfl⟩ : ∃ (p : Fin 2048) (q : Fin 256), j = ix2 p q := ⟨j 0, j 1, eq_ix2 j⟩
  refine (pay0_apply (iblk0 (F := Ideal) V c 0 t) (iblk0 (F := Ideal) V c 1 t) p q).trans ?_
  unfold prod512
  refine Finset.sum_congr rfl fun k _ => ?_
  have hl := iblk0_0_apply V c t (ix2 p k) (ix2 (i 0) k) hi0 rfl
  have hr := iblk0_1_apply V c t (ix2 k q)
  have hq : (ix2 k q : S512x256.Idx) = ix2 k (i 1) := by
    funext a; apply Fin.ext
    match a with
    | ⟨0, _⟩ => rfl
    | ⟨1, _⟩ => exact hi1.symm
  exact congrArg₂ (· * ·) hl (hr.trans (congrArg (V c main_arg2 : S512x256.Idx → EReal) hq))

/-- What point t writes back is its block of the whole product. -/
theorem flushed0 (c : Dev nD) (t : Fin cfg0.N) :
    (dat0 (F := Ideal) V c).flushed 2 t
      = ((cfg0.win 2).blk t).view.read (Elt Ideal) (prod512 (V c main_arg1) (V c main_arg2)) := by
  obtain ⟨-, -, -, -, e0, e1⟩ := idx0 t
  show (cfg0.win 2).cut (grid0.coords t) ((dat0 (F := Ideal) V c).after 2 t) = _
  rw [after0_2]
  funext j
  rw [View.read_apply]
  refine tile0_apply V c t j _ ?_ ?_
  · show win0_2.index t 0 * 2048 + 1 * (j 0).val = 2048 * t.val + (j 0).val
    rw [e0]; omega
  · show win0_2.index t 1 * 256 + 1 * (j 1).val = (j 1).val
    rw [e1]; omega

/-- The product array after the launch: the 8 row blocks written back tile its 16384 rows. -/
theorem val0 (c : Dev nD) : ((dat0 (F := Ideal) V c).arrAt 2 cfg0.N : Mat 16384 256) = prod512 (V c main_arg1) (V c main_arg2) :=
  (dat0 (F := Ideal) V c).arrAt_eq_of_cover 2 (prod512 (V c main_arg1) (V c main_arg2)) (fun t _ => flushed0 V c t) fun i => by
    have h0 : (i 0 : Nat) < 16384 := (i 0).isLt
    have h1 : (i 1 : Nat) < 256 := (i 1).isLt
    obtain ⟨t, ht⟩ : ∃ t : Fin cfg0.N, t.val = (i 0 : Nat) / 2048 :=
      ⟨⟨(i 0 : Nat) / 2048, by rw [show cfg0.N = 8 from N_0]; omega⟩, rfl⟩
    obtain ⟨-, -, -, -, e0, e1⟩ := idx0 t
    refine ⟨t, flush0_2 t, ?_⟩
    show i ∈ ((View.whole main_v0).slice (win0_2.rect t)).set
    rw [View.set_slice_whole, Rect.mem_set_unit]
    intro a
    match a with
    | ⟨0, _⟩ => show win0_2.index t 0 * 2048 ≤ (i 0 : Nat) ∧ (i 0 : Nat) < win0_2.index t 0 * 2048 + 2048
                rw [e0, ht]; omega
    | ⟨1, _⟩ => show win0_2.index t 1 * 256 ≤ (i 1 : Nat) ∧ (i 1 : Nat) < win0_2.index t 1 * 256 + 256
                rw [e1]; omega

end

end Cert.KernelIdeal.Hand.Val0

end
-- ==== Proof.Val1.lean ====
/-
  The second launch's value: the output array after the launch is the hidden layer of the specification,
  tanh of the adjacency matrix times the first product. An entry of the 1024 x 256 running sum after the point with
  row tile R and column tile C is the sum, over the column tiles 0 .. C, of the 2048 products of that tile; at the
  last column tile this is the whole row's 16384 products, and the 16 write-backs tile the 16384 rows.
-/
import proofs.«137944_j3831110828045_1_alg».proof.Proof.Dat1
import proofs.«137944_j3831110828045_1_alg».proof.Proof.Spec
import Idealize.ShloMosaic.Lib.Pipeline.Value
import Idealize.ShloMosaic.Lib.ValueIdx
import Idealize.ShloMosaic.PureOps.Ideal
import Idealize.ShloMosaic.PureOps.Ideal.Laws
import Mathlib.Algebra.BigOperators.Fin
import Mathlib.Algebra.BigOperators.Intervals

set_option maxRecDepth 16384

noncomputable section

namespace Cert.KernelIdeal.Hand.Val1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen
open Cert.Spec
open scoped BigOperators

/-! ## The tile product read at an entry -/

theorem lhs1_0 (i : S1024x256.Idx) (q : dot_S1024x2048_S2048x256_S1024x256_1_0_0_1_n_n.contr.Idx) :
    (dot_S1024x2048_S2048x256_S1024x256_1_0_0_1_n_n.lhsIdx i q 0).val = (i 0).val := by
  unfold DotDims.lhsIdx
  rw [dif_neg (show ¬(0 : Fin S1024x2048.rank) ∈ dot_S1024x2048_S2048x256_S1024x256_1_0_0_1_n_n.lhsBatch by decide), dif_pos (show (0 : Fin S1024x2048.rank) ∈ dot_S1024x2048_S2048x256_S1024x256_1_0_0_1_n_n.lhsNonContracting by decide)]
  rfl
theorem lhs1_1 (i : S1024x256.Idx) (q : dot_S1024x2048_S2048x256_S1024x256_1_0_0_1_n_n.contr.Idx) :
    (dot_S1024x2048_S2048x256_S1024x256_1_0_0_1_n_n.lhsIdx i q 1).val = (q ⟨0, by decide⟩).val :=
  dot_S1024x2048_S2048x256_S1024x256_1_0_0_1_n_n.lhsIdx_val_of_single rfl i q
theorem rhs1_0 (i : S1024x256.Idx) (q : dot_S1024x2048_S2048x256_S1024x256_1_0_0_1_n_n.contr.Idx) :
    (dot_S1024x2048_S2048x256_S1024x256_1_0_0_1_n_n.rhsIdx i q 0).val = (q ⟨0, by decide⟩).val :=
  dot_S1024x2048_S2048x256_S1024x256_1_0_0_1_n_n.rhsIdx_val_of_single rfl i q
theorem rhs1_1 (i : S1024x256.Idx) (q : dot_S1024x2048_S2048x256_S1024x256_1_0_0_1_n_n.contr.Idx) :
    (dot_S1024x2048_S2048x256_S1024x256_1_0_0_1_n_n.rhsIdx i q 1).val = (i 1).val := by
  unfold DotDims.rhsIdx
  rw [dif_neg (show ¬(1 : Fin S2048x256.rank) ∈ dot_S1024x2048_S2048x256_S1024x256_1_0_0_1_n_n.rhsBatch by decide), dif_pos (show (1 : Fin S2048x256.rank) ∈ dot_S1024x2048_S2048x256_S1024x256_1_0_0_1_n_n.rhsNonContracting by decide)]
  rfl

/-- The zero tile reads zero everywhere. -/
theorem pay1_apply (j : S1024x256.Idx) : (k1_pay1 (F := Ideal) : Vec Ideal S1024x256 .f32) j = 0 := by
  unfold k1_pay1
  rw [shapeCast_self]
  exact Ideal.ofBits_zero_f32

/-- One point's step at an entry: what the running sum held there plus the 2048 products of the adjacency tile's
    row with the first product's column. -/
theorem pay2_apply (x : Vec Ideal S1024x2048 .f32) (a : Vec Ideal S1024x256 .f32) (v : Vec Ideal S2048x256 .bf16)
    (r : Fin 1024) (q : Fin 256) :
    (k1_pay2 (F := Ideal) x a v : Vec Ideal S1024x256 .f32) (ix2 r q)
      = a (ix2 r q) + ∑ k : Fin 2048, x (ix2 r k) * v (ix2 k q) := by
  unfold k1_pay2
  rw [shapeCast_self, shapeCast_self]
  refine (addf_apply _ _ _).trans ?_
  refine congrArg (a (ix2 r q) + ·) ?_
  refine (Ideal.matmul_constant_zero_apply (φ₁ := .bf16) (φ₂ := .bf16) dot_S1024x2048_S2048x256_S1024x256_1_0_0_1_n_n none _ _ (ix2 r q)).trans ?_
  rw [← Equiv.sum_comp (contrEquiv1 dot_S1024x2048_S2048x256_S1024x256_1_0_0_1_n_n 2048 rfl rfl).symm]
  refine Finset.sum_congr rfl fun k _ => ?_
  have hk := contrEquiv1_symm_val dot_S1024x2048_S2048x256_S1024x256_1_0_0_1_n_n 2048 rfl rfl k
  have el : dot_S1024x2048_S2048x256_S1024x256_1_0_0_1_n_n.lhsIdx (ix2 r q) ((contrEquiv1 dot_S1024x2048_S2048x256_S1024x256_1_0_0_1_n_n 2048 rfl rfl).symm k) = ix2 r k := funext fun b => Fin.ext (by
    match b with
    | ⟨0, _⟩ => exact lhs1_0 _ _
    | ⟨1, _⟩ => exact (lhs1_1 _ _).trans hk)
  have er : dot_S1024x2048_S2048x256_S1024x256_1_0_0_1_n_n.rhsIdx (ix2 r q) ((contrEquiv1 dot_S1024x2048_S2048x256_S1024x256_1_0_0_1_n_n 2048 rfl rfl).symm k) = ix2 k q := funext fun b => Fin.ext (by
    match b with
    | ⟨0, _⟩ => exact (rhs1_0 _ _).trans hk
    | ⟨1, _⟩ => exact rhs1_1 _ _)
  rw [el, er]
  rfl

/-- The write-back's tile at an entry: tanh of the running sum there. -/
theorem pay3_apply (a : Vec Ideal S1024x256 .f32) (j : S1024x256.Idx) :
    (k1_pay3 (F := Ideal) a : Vec Ideal S1024x256 .bf16) j = Ideal.tanh (a j) := rfl

/-! ## The blocks read off their arrays -/

/-- Which block each window has at a point: row tile the quotient, column tile the remainder, by 8. -/
theorem win1_facts : ∀ t : Fin cfg1.N,
    (win1_0.index t 0 = t.val / 8 ∧ win1_0.index t 1 = t.val % 8)
    ∧ (win1_1.index t 0 = t.val % 8 ∧ win1_1.index t 1 = 0)
    ∧ (win1_2.index t 0 = t.val / 8 ∧ win1_2.index t 1 = 0) :=
  (by decide +kernel : ∀ t : Fin grid1.N,
    (win1_0.index t 0 = t.val / 8 ∧ win1_0.index t 1 = t.val % 8)
    ∧ (win1_1.index t 0 = t.val % 8 ∧ win1_1.index t 1 = 0)
    ∧ (win1_2.index t 0 = t.val / 8 ∧ win1_2.index t 1 = 0))

theorem N1 : cfg1.N = 128 := by decide

section
variable (V : (c : Dev nD) → (b : Ref sig .tc) → Buf (Elt Ideal) ((c : Thread nD τ).loc b))

/-- The adjacency tile at a point: rows 1024·(row tile) …, columns 2048·(column tile) … of the adjacency matrix. -/
theorem iblk1_0_apply (c : Dev nD) (t : Fin cfg1.N) (x : S1024x2048.Idx) (j : S16384x16384.Idx)
    (hj0 : (j 0).val = 1024 * (t.val / 8) + (x 0).val) (hj1 : (j 1).val = 2048 * (t.val % 8) + (x 1).val) :
    (iblk1 (F := Ideal) V c 0 t : Vec Ideal S1024x2048 .f32) x = (V c main_arg0 : Mat 16384 16384) j := by
  have hi := (win1_facts t).1
  unfold iblk1
  rw [View.read_apply]
  show V c main_arg0 _ = V c main_arg0 _
  congr 1
  funext a
  apply Fin.ext
  match a with
  | ⟨0, _⟩ => show win1_0.index t 0 * 1024 + 1 * (x 0).val = (j 0).val; rw [hi.1, hj0]; omega
  | ⟨1, _⟩ => show win1_0.index t 1 * 2048 + 1 * (x 1).val = (j 1).val; rw [hi.2, hj1]; omega

/-- The first product's tile at a point: rows 2048·(column tile) … of the first product, all 256 columns. -/
theorem iblk1_1_apply (c : Dev nD) (t : Fin cfg1.N) (x : S2048x256.Idx) (j : S16384x256.Idx)
    (hj0 : (j 0).val = 2048 * (t.val % 8) + (x 0).val) (hj1 : (j 1).val = (x 1).val) :
    (iblk1 (F := Ideal) V c 1 t : Vec Ideal S2048x256 .bf16) x = (V c main_v0 : Mat 16384 256) j := by
  have hi := (win1_facts t).2.1
  unfold iblk1
  rw [View.read_apply]
  show V c main_v0 _ = V c main_v0 _
  congr 1
  funext a
  apply Fin.ext
  match a with
  | ⟨0, _⟩ => show win1_1.index t 0 * 2048 + 1 * (x 0).val = (j 0).val; rw [hi.1, hj0]; omega
  | ⟨1, _⟩ => show win1_1.index t 1 * 256 + 1 * (x 1).val = (j 1).val; rw [hi.2, hj1]; omega

end

/-! ## A sum over 16384 in blocks of 2048 -/

/-- A sum over `n·m` consecutive naturals is the sum over `m` blocks of the sums over each block's `n`. -/
theorem sum_range_blocks {M : Type*} [AddCommMonoid M] (f : ℕ → M) (n : ℕ) :
    ∀ m : ℕ, ∑ s ∈ Finset.range m, ∑ k ∈ Finset.range n, f (n * s + k) = ∑ i ∈ Finset.range (n * m), f i
  | 0 => by simp
  | m + 1 => by
    rw [Finset.sum_range_succ, sum_range_blocks f n m, Nat.mul_succ, Finset.sum_range_add]

/-- A natural number as a row or column number of the adjacency matrix (itself, when it is below 16384). -/
def at16384 (n : ℕ) : Fin 16384 := ⟨n % 16384, Nat.mod_lt _ (by decide)⟩
theorem at16384_val {n : ℕ} (h : n < 16384) : (at16384 n).val = n := Nat.mod_eq_of_lt h
theorem at16384_fin (k : Fin 16384) : at16384 k.val = k := Fin.ext (Nat.mod_eq_of_lt k.isLt)

/-- The product of the adjacency matrix's entry (R, i) and the first product's entry (i, q). -/
def term1 (A : Mat 16384 16384) (W : Mat 16384 256) (R : ℕ) (q : Fin 256) (i : ℕ) : EReal :=
  A (ix2 (at16384 R) (at16384 i)) * W (ix2 (at16384 i) q)

/-- The eight column tiles' sums of a row are the row's entry of the whole product. -/
theorem row_sum (A : Mat 16384 16384) (W : Mat 16384 256) (R : ℕ) (q : Fin 256) :
    ∑ s ∈ Finset.range 8, ∑ k : Fin 2048, term1 A W R q (2048 * s + k.val) = prodAdj256 A W (ix2 (at16384 R) q) := by
  have e : ∀ s : ℕ, ∑ k : Fin 2048, term1 A W R q (2048 * s + k.val) = ∑ k ∈ Finset.range 2048, term1 A W R q (2048 * s + k) :=
    fun s => Fin.sum_univ_eq_sum_range (fun i => term1 A W R q (2048 * s + i)) 2048
  rw [Finset.sum_congr rfl (fun s _ => e s), sum_range_blocks (term1 A W R q) 2048 8]
  show ∑ i ∈ Finset.range 16384, term1 A W R q i = _
  rw [← Fin.sum_univ_eq_sum_range]
  unfold prodAdj256
  refine Finset.sum_congr rfl fun k _ => ?_
  unfold term1
  rw [at16384_fin]

section
variable (V : (c : Dev nD) → (b : Ref sig .tc) → Buf (Elt Ideal) ((c : Thread nD τ).loc b))

/-! ## The running sum after every point -/

/-- One point's step at an entry, over the arrays: the 2048 products of the point's column tile are added. -/
theorem step1_apply (c : Dev nD) (t : Fin cfg1.N) (a : Vec Ideal S1024x256 .f32) (r : Fin 1024) (q : Fin 256) :
    (k1_pay2 (F := Ideal) (iblk1 V c 0 t) a (iblk1 V c 1 t) : Vec Ideal S1024x256 .f32) (ix2 r q)
      = a (ix2 r q) + ∑ k : Fin 2048, term1 (V c main_arg0) (V c main_v0) (1024 * (t.val / 8) + r.val) q (2048 * (t.val % 8) + k.val) := by
  refine (pay2_apply (iblk1 V c 0 t) a (iblk1 V c 1 t) r q).trans ?_
  refine congrArg (a (ix2 r q) + ·) ?_
  refine Finset.sum_congr rfl fun k _ => ?_
  have hN := N1
  have ht := t.isLt
  exact congrArg₂ (· * ·)
    (iblk1_0_apply V c t (ix2 r k) (ix2 (at16384 (1024 * (t.val / 8) + r.val)) (at16384 (2048 * (t.val % 8) + k.val)))
      (at16384_val (by omega)) (at16384_val (by omega)))
    (iblk1_1_apply V c t (ix2 k q) (ix2 (at16384 (2048 * (t.val % 8) + k.val)) q) (at16384_val (by omega)) rfl)

/-- At a first column tile the running sum is the tile's own sum. -/
theorem acc1_apply_first (c : Dev nD) (t : Fin cfg1.N) (h : t.val % 8 = 0) (r : Fin 1024) (q : Fin 256) :
    (acc1 (F := Ideal) V c t.val t.isLt : Vec Ideal S1024x256 .f32) (ix2 r q)
      = ∑ s ∈ Finset.range (t.val % 8 + 1), ∑ k : Fin 2048,
          term1 (V c main_arg0) (V c main_v0) (1024 * (t.val / 8) + r.val) q (2048 * s + k.val) := by
  refine (congrFun (acc1_first V c t h) (ix2 r q)).trans ?_
  refine (step1_apply V c t _ r q).trans ?_
  rw [pay1_apply, zero_add, h, Nat.zero_add, Finset.sum_range_one]

/-- At a later column tile the tile's sum joins the sums of the column tiles before it. -/
theorem acc1_apply_next (c : Dev nD) (t : Fin cfg1.N) (h : ¬t.val % 8 = 0) (r : Fin 1024) (q : Fin 256)
    (ih : (acc1 (F := Ideal) V c (t.val - 1) (Nat.lt_of_le_of_lt (Nat.sub_le _ _) t.isLt) : Vec Ideal S1024x256 .f32) (ix2 r q)
      = ∑ s ∈ Finset.range ((t.val - 1) % 8 + 1), ∑ k : Fin 2048,
          term1 (V c main_arg0) (V c main_v0) (1024 * ((t.val - 1) / 8) + r.val) q (2048 * s + k.val)) :
    (acc1 (F := Ideal) V c t.val t.isLt : Vec Ideal S1024x256 .f32) (ix2 r q)
      = ∑ s ∈ Finset.range (t.val % 8 + 1), ∑ k : Fin 2048,
          term1 (V c main_arg0) (V c main_v0) (1024 * (t.val / 8) + r.val) q (2048 * s + k.val) := by
  refine (congrFun (acc1_next V c t h) (ix2 r q)).trans ?_
  refine (step1_apply V c t _ r q).trans ?_
  have e1 : (t.val - 1) / 8 = t.val / 8 := by omega
  have e2 : (t.val - 1) % 8 + 1 = t.val % 8 := by omega
  rw [ih, e1, e2, Finset.sum_range_succ]

/-- THE RUNNING SUM AT AN ENTRY after point `n`, with row tile `n / 8` and column tile `n % 8`: the sums of the
    column tiles 0 … `n % 8` of the row. -/
theorem acc1_apply (c : Dev nD) : ∀ (n : ℕ) (hn : n < cfg1.N) (r : Fin 1024) (q : Fin 256),
    (acc1 (F := Ideal) V c n hn : Vec Ideal S1024x256 .f32) (ix2 r q)
      = ∑ s ∈ Finset.range (n % 8 + 1), ∑ k : Fin 2048,
          term1 (V c main_arg0) (V c main_v0) (1024 * (n / 8) + r.val) q (2048 * s + k.val)
  | 0, hn, r, q => acc1_apply_first V c ⟨0, hn⟩ rfl r q
  | n + 1, hn, r, q => by
    by_cases h : (n + 1) % 8 = 0
    · exact acc1_apply_first V c ⟨n + 1, hn⟩ h r q
    · exact acc1_apply_next V c ⟨n + 1, hn⟩ h r q (acc1_apply c n (Nat.lt_of_succ_lt hn) r q)

/-- What a last column tile writes back, at an entry: the hidden layer's entry of that row. -/
theorem last1_apply (c : Dev nD) (t : Fin cfg1.N) (h7 : t.val % 8 = 7) (r : Fin 1024) (q : Fin 256) :
    (k1_pay3 (F := Ideal) (acc1 (F := Ideal) V c t.val t.isLt) : Vec Ideal S1024x256 .bf16) (ix2 r q)
      = hidden (V c main_arg0) (V c main_v0) (ix2 (at16384 (1024 * (t.val / 8) + r.val)) q) := by
  refine (pay3_apply _ _).trans ?_
  unfold Cert.Spec.hidden
  refine congrArg Ideal.tanh ?_
  rw [acc1_apply V c t.val t.isLt r q, h7]
  exact row_sum (V c main_arg0) (V c main_v0) _ q

end

/-! ## From the write-backs to the array -/

section
variable (V : (c : Dev nD) → (b : Ref sig .tc) → Buf (Elt Ideal) ((c : Thread nD τ).loc b))

/-- The output's tile at a point, read off any contents of the output array: rows 1024·(row tile) …, all 256 columns. -/
theorem blk1_2_read (t : Fin cfg1.N) (G : Mat 16384 256) (y : S1024x256.Idx) (j : S16384x256.Idx)
    (hj0 : (j 0).val = 1024 * (t.val / 8) + (y 0).val) (hj1 : (j 1).val = (y 1).val) :
    (((cfg1.win 2).blk t).view.read (Elt Ideal) G : Vec Ideal S1024x256 .bf16) y = G j := by
  have hi := (win1_facts t).2.2
  rw [View.read_apply]
  show G _ = G _
  congr 1
  funext a
  apply Fin.ext
  match a with
  | ⟨0, _⟩ => show win1_2.index t 0 * 1024 + 1 * (y 0).val = (j 0).val; rw [hi.1, hj0]; omega
  | ⟨1, _⟩ => show win1_2.index t 1 * 256 + 1 * (y 1).val = (j 1).val; rw [hi.2, hj1]; omega

/-- Every write-back writes its tile of the hidden layer. -/
theorem flushed1_eq (c : Dev nD) (t : Fin cfg1.N) (hf : (cfg1.win 2).flush t = true) :
    (dat1 (F := Ideal) V c).flushed 2 t
      = ((cfg1.win 2).blk t).view.read (Elt Ideal) (hidden (V c main_arg0) (V c main_v0)) := by
  have h7 : t.val % 8 = 7 := (flush1_2 t).mp hf
  have hN := N1
  have ht := t.isLt
  show (cfg1.win 2).cut (grid1.coords t) ((dat1 (F := Ideal) V c).after 2 t) = _
  rw [after1_2]
  funext y
  have hy := eq_ix2 ((cfg1.win 2).xinj (grid1.coords t) y : S1024x256.Idx)
  have hr : (((cfg1.win 2).xinj (grid1.coords t) y : S1024x256.Idx) 0).val < 1024 := idx2_lt0 _
  refine (congrArg (k1_pay3 (F := Ideal) (acc1 (F := Ideal) V c t.val t.isLt) : Vec Ideal S1024x256 .bf16) hy).trans ?_
  refine (last1_apply V c t h7 _ _).trans ?_
  exact (blk1_2_read t (hidden (V c main_arg0) (V c main_v0)) y _ (at16384_val (by omega)) rfl).symm

/-- Every row of the output array lies in the tile some last column tile writes back. -/
theorem cover1 (i : S16384x256.Idx) :
    ∃ t : Fin cfg1.N, (cfg1.win 2).flush t = true ∧ i ∈ ((cfg1.win 2).blk t).view.set := by
  have h0 : (i 0 : ℕ) < 16384 := (i 0).isLt
  have h1 : (i 1 : ℕ) < 256 := (i 1).isLt
  obtain ⟨t, ht⟩ : ∃ t : Fin cfg1.N, t.val = 8 * ((i 0 : ℕ) / 1024) + 7 := ⟨⟨8 * ((i 0 : ℕ) / 1024) + 7, by rw [N1]; omega⟩, rfl⟩
  have hi := (win1_facts t).2.2
  refine ⟨t, (flush1_2 t).mpr (by omega), ?_⟩
  show i ∈ ((View.whole main_v1).slice (win1_2.rect t)).set
  rw [View.set_slice_whole, Rect.mem_set_unit]
  intro a
  match a with
  | ⟨0, _⟩ =>
    show win1_2.index t 0 * 1024 ≤ (i 0 : ℕ) ∧ (i 0 : ℕ) < win1_2.index t 0 * 1024 + 1024
    rw [hi.1]; omega
  | ⟨1, _⟩ =>
    show win1_2.index t 1 * 256 ≤ (i 1 : ℕ) ∧ (i 1 : ℕ) < win1_2.index t 1 * 256 + 256
    rw [hi.2]; omega

/-- THE SECOND LAUNCH'S VALUE: the output array ends holding the hidden layer. -/
theorem val1 (c : Dev nD) :
    ((dat1 (F := Ideal) V c).arrAt 2 cfg1.N : Mat 16384 256) = hidden (V c main_arg0) (V c main_v0) :=
  (dat1 (F := Ideal) V c).arrAt_eq_of_cover 2 (hidden (V c main_arg0) (V c main_v0)) (flushed1_eq V c) cover1

end

end Cert.KernelIdeal.Hand.Val1

end
-- ==== Proof.Val2.lean ====
/-
  The value of the third launch at extended reals: the two arrays it leaves are the hidden layer times each head's
  weights. An entry of a head's tile at a grid point is the sum over the 256 contracted positions of a row of the
  point's hidden tile times a column of the head's weight matrix — one statement for both heads, over any weight
  block that holds its whole matrix; the point's hidden tile is rows 2048·t … 2048·t + 2047 of the hidden layer,
  and the point writes each tile back to the same rows of that head's product. The 8 tiles cover the 16384 rows,
  so each array ends at the whole product, entry by entry.
-/
import proofs.«137944_j3831110828045_1_alg».proof.Proof.Reg2
import proofs.«137944_j3831110828045_1_alg».proof.Proof.Spec
import Idealize.ShloMosaic.Lib.Pipeline.Value
import Idealize.ShloMosaic.Lib.ValueIdx
import Idealize.ShloMosaic.PureOps.Ideal
import Idealize.ShloMosaic.PureOps.Ideal.Laws

set_option maxRecDepth 16384

noncomputable section

namespace Cert.KernelIdeal.Hand.Val2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx
open Cert.Spec
open scoped BigOperators

/-! ## The third launch's product tiles at an entry -/

theorem lhs_head_0 (i : S2048x64.Idx) (q : dot_S2048x256_S256x64_S2048x64_1_0_0_1_n_n.contr.Idx) :
    (dot_S2048x256_S256x64_S2048x64_1_0_0_1_n_n.lhsIdx i q 0).val = (i 0).val := by
  unfold DotDims.lhsIdx
  rw [dif_neg (show ¬(0 : Fin S2048x256.rank) ∈ dot_S2048x256_S256x64_S2048x64_1_0_0_1_n_n.lhsBatch by decide), dif_pos (show (0 : Fin S2048x256.rank) ∈ dot_S2048x256_S256x64_S2048x64_1_0_0_1_n_n.lhsNonContracting by decide)]
  rfl
theorem lhs_head_1 (i : S2048x64.Idx) (q : dot_S2048x256_S256x64_S2048x64_1_0_0_1_n_n.contr.Idx) :
    (dot_S2048x256_S256x64_S2048x64_1_0_0_1_n_n.lhsIdx i q 1).val = (q ⟨0, by decide⟩).val :=
  dot_S2048x256_S256x64_S2048x64_1_0_0_1_n_n.lhsIdx_val_of_single rfl i q
theorem rhs_head_0 (i : S2048x64.Idx) (q : dot_S2048x256_S256x64_S2048x64_1_0_0_1_n_n.contr.Idx) :
    (dot_S2048x256_S256x64_S2048x64_1_0_0_1_n_n.rhsIdx i q 0).val = (q ⟨0, by decide⟩).val :=
  dot_S2048x256_S256x64_S2048x64_1_0_0_1_n_n.rhsIdx_val_of_single rfl i q
theorem rhs_head_1 (i : S2048x64.Idx) (q : dot_S2048x256_S256x64_S2048x64_1_0_0_1_n_n.contr.Idx) :
    (dot_S2048x256_S256x64_S2048x64_1_0_0_1_n_n.rhsIdx i q 1).val = (i 1).val := by
  unfold DotDims.rhsIdx
  rw [dif_neg (show ¬(1 : Fin S256x64.rank) ∈ dot_S2048x256_S256x64_S2048x64_1_0_0_1_n_n.rhsBatch by decide), dif_pos (show (1 : Fin S256x64.rank) ∈ dot_S2048x256_S256x64_S2048x64_1_0_0_1_n_n.rhsNonContracting by decide)]
  rfl

/-- Entry (p, q) of a head's product tile: the sum over the 256 contracted positions of the hidden tile's row p times
    the head's weight column q (the reshape to the same shape and the narrowings change nothing, the accumulator
    starts at zero). -/
theorem pay2_apply (x : Vec Ideal S2048x256 .bf16) (w : Vec Ideal S256x64 .f32) (p : Fin 2048) (q : Fin 64) :
    k2_pay2 (F := Ideal) x w (ix2 p q) = ∑ k : Fin 256, x (ix2 p k) * w (ix2 k q) := by
  have e1 : k2_pay1 (F := Ideal) x = x := shapeCast_self x _
  unfold k2_pay2
  rw [e1]
  refine (Ideal.matmul_constant_zero_apply dot_S2048x256_S256x64_S2048x64_1_0_0_1_n_n none _ _ (ix2 p q)).trans ?_
  rw [← Equiv.sum_comp (contrEquiv1 dot_S2048x256_S256x64_S2048x64_1_0_0_1_n_n 256 rfl rfl).symm]
  refine Finset.sum_congr rfl fun k _ => ?_
  have hk := contrEquiv1_symm_val dot_S2048x256_S256x64_S2048x64_1_0_0_1_n_n 256 rfl rfl k
  have el : dot_S2048x256_S256x64_S2048x64_1_0_0_1_n_n.lhsIdx (ix2 p q) ((contrEquiv1 dot_S2048x256_S256x64_S2048x64_1_0_0_1_n_n 256 rfl rfl).symm k) = ix2 p k := funext fun a => Fin.ext (by
    match a with
    | ⟨0, _⟩ => exact lhs_head_0 _ _
    | ⟨1, _⟩ => exact (lhs_head_1 _ _).trans hk)
  have er : dot_S2048x256_S256x64_S2048x64_1_0_0_1_n_n.rhsIdx (ix2 p q) ((contrEquiv1 dot_S2048x256_S256x64_S2048x64_1_0_0_1_n_n 256 rfl rfl).symm k) = ix2 k q := funext fun a => Fin.ext (by
    match a with
    | ⟨0, _⟩ => exact (rhs_head_0 _ _).trans hk
    | ⟨1, _⟩ => exact rhs_head_1 _ _)
  rw [el, er]
  rfl

/-- The second head's tile is the same function of the hidden tile and its own weights. -/
theorem pay3_eq (x : Vec Ideal S2048x256 .bf16) (w : Vec Ideal S256x64 .f32) : k2_pay3 (F := Ideal) x w = k2_pay2 (F := Ideal) x w := rfl

section
variable (V : (c : Dev nD) → (b : Ref sig .tc) → Buf (Elt Ideal) ((c : Thread nD τ).loc b))

/-- Which block each window of the third launch is on at point t: the hidden tile and the two product tiles at row
    block t, each weight matrix at its one block. -/
theorem idx2 : ∀ t : Fin cfg2.N, win2_0.index t 0 = t.val ∧ win2_0.index t 1 = 0 ∧ win2_1.index t 0 = 0 ∧ win2_1.index t 1 = 0
    ∧ win2_2.index t 0 = 0 ∧ win2_2.index t 1 = 0 ∧ win2_3.index t 0 = t.val ∧ win2_3.index t 1 = 0
    ∧ win2_4.index t 0 = t.val ∧ win2_4.index t 1 = 0 :=
  (by decide +kernel : ∀ t : Fin grid2.N, win2_0.index t 0 = t.val ∧ win2_0.index t 1 = 0 ∧ win2_1.index t 0 = 0 ∧ win2_1.index t 1 = 0
    ∧ win2_2.index t 0 = 0 ∧ win2_2.index t 1 = 0 ∧ win2_3.index t 0 = t.val ∧ win2_3.index t 1 = 0
    ∧ win2_4.index t 0 = t.val ∧ win2_4.index t 1 = 0)

/-- The hidden tile at point t is rows 2048·t … 2048·t + 2047 of the hidden layer. -/
theorem iblk2_0_apply (c : Dev nD) (t : Fin cfg2.N) (x : S2048x256.Idx) (k : S16384x256.Idx)
    (hk0 : (k 0).val = 2048 * t.val + (x 0).val) (hk1 : (k 1).val = (x 1).val) :
    (iblk2 (F := Ideal) V c 0 t : Vec Ideal S2048x256 .bf16) x = (V c main_v1 : S16384x256.Idx → EReal) k := by
  obtain ⟨e0, e1, -⟩ := idx2 t
  unfold iblk2
  rw [View.read_apply]
  show V c main_v1 _ = V c main_v1 _
  congr 1
  funext a
  apply Fin.ext
  match a with
  | ⟨0, _⟩ => show win2_0.index t 0 * 2048 + 1 * (x 0).val = (k 0).val; rw [e0, hk0]; omega
  | ⟨1, _⟩ => show win2_0.index t 1 * 256 + 1 * (x 1).val = (k 1).val; rw [e1, hk1]; omega

/-- Each head's weight block at every point is that head's whole weight matrix. -/
theorem iblk2_1_apply (c : Dev nD) (t : Fin cfg2.N) (x : S256x64.Idx) :
    (iblk2 (F := Ideal) V c 1 t : Vec Ideal S256x64 .f32) x = (V c main_arg3 : S256x64.Idx → EReal) x := by
  obtain ⟨-, -, e0, e1, -⟩ := idx2 t
  unfold iblk2
  rw [View.read_apply]
  show V c main_arg3 _ = V c main_arg3 _
  congr 1
  funext a
  apply Fin.ext
  match a with
  | ⟨0, _⟩ => show win2_1.index t 0 * 256 + 1 * (x 0).val = (x 0).val; rw [e0]; omega
  | ⟨1, _⟩ => show win2_1.index t 1 * 64 + 1 * (x 1).val = (x 1).val; rw [e1]; omega
theorem iblk2_2_apply (c : Dev nD) (t : Fin cfg2.N) (x : S256x64.Idx) :
    (iblk2 (F := Ideal) V c 2 t : Vec Ideal S256x64 .f32) x = (V c main_arg4 : S256x64.Idx → EReal) x := by
  obtain ⟨-, -, -, -, e0, e1, -⟩ := idx2 t
  unfold iblk2
  rw [View.read_apply]
  show V c main_arg4 _ = V c main_arg4 _
  congr 1
  funext a
  apply Fin.ext
  match a with
  | ⟨0, _⟩ => show win2_2.index t 0 * 256 + 1 * (x 0).val = (x 0).val; rw [e0]; omega
  | ⟨1, _⟩ => show win2_2.index t 1 * 64 + 1 * (x 1).val = (x 1).val; rw [e1]; omega

/-- For either head: with the head's weight block wb holding its whole weight matrix W, entry j of the tile point t
    computes is entry (2048·t + j₀, j₁) of the whole product of the hidden layer and W. -/
theorem tile2_apply (c : Dev nD) (t : Fin cfg2.N) (wb : Vec Ideal S256x64 .f32) (W : Mat 256 64) (hW : ∀ x, wb x = W x)
    (j : S2048x64.Idx) (i : S16384x64.Idx) (hi0 : (i 0).val = 2048 * t.val + (j 0).val) (hi1 : (i 1).val = (j 1).val) :
    k2_pay2 (F := Ideal) (iblk2 (F := Ideal) V c 0 t) wb j = prod256 (V c main_v1) W i := by
  obtain ⟨p, q, rfl⟩ : ∃ (p : Fin 2048) (q : Fin 64), j = ix2 p q := ⟨j 0, j 1, eq_ix2 j⟩
  refine (pay2_apply (iblk2 (F := Ideal) V c 0 t) wb p q).trans ?_
  unfold prod256
  refine Finset.sum_congr rfl fun k _ => ?_
  have hl := iblk2_0_apply V c t (ix2 p k) (ix2 (i 0) k) hi0 rfl
  have hq : (ix2 k q : S256x64.Idx) = ix2 k (i 1) := by
    funext a; apply Fin.ext
    match a with
    | ⟨0, _⟩ => rfl
    | ⟨1, _⟩ => exact hi1.symm
  exact congrArg₂ (· * ·) hl ((hW (ix2 k q)).trans (congrArg W hq))

/-- What point t writes back to the first head's product is its block of hidden × first weights, -/
theorem flushed2m (c : Dev nD) (t : Fin cfg2.N) :
    (dat2 (F := Ideal) V c).flushed 3 t
      = ((cfg2.win 3).blk t).view.read (Elt Ideal) (prod256 (V c main_v1) (V c main_arg3)) := by
  obtain ⟨-, -, -, -, -, -, e0, e1, -⟩ := idx2 t
  show (cfg2.win 3).cut (grid2.coords t) ((dat2 (F := Ideal) V c).after 3 t) = _
  rw [after2_3]
  funext j
  rw [View.read_apply]
  refine tile2_apply V c t (iblk2 (F := Ideal) V c 1 t) (V c main_arg3) (iblk2_1_apply V c t) j _ ?_ ?_
  · show win2_3.index t 0 * 2048 + 1 * (j 0).val = 2048 * t.val + (j 0).val
    rw [e0]; omega
  · show win2_3.index t 1 * 64 + 1 * (j 1).val = (j 1).val
    rw [e1]; omega

/-- and to the second head's product its block of hidden × second weights. -/
theorem flushed2s (c : Dev nD) (t : Fin cfg2.N) :
    (dat2 (F := Ideal) V c).flushed 4 t
      = ((cfg2.win 4).blk t).view.read (Elt Ideal) (prod256 (V c main_v1) (V c main_arg4)) := by
  obtain ⟨-, -, -, -, -, -, -, -, e0, e1⟩ := idx2 t
  show (cfg2.win 4).cut (grid2.coords t) ((dat2 (F := Ideal) V c).after 4 t) = _
  rw [after2_4]
  funext j
  rw [View.read_apply]
  refine (congrFun (pay3_eq (iblk2 (F := Ideal) V c 0 t) (iblk2 (F := Ideal) V c 2 t)) j).trans ?_
  refine tile2_apply V c t (iblk2 (F := Ideal) V c 2 t) (V c main_arg4) (iblk2_2_apply V c t) j _ ?_ ?_
  · show win2_4.index t 0 * 2048 + 1 * (j 0).val = 2048 * t.val + (j 0).val
    rw [e0]; omega
  · show win2_4.index t 1 * 64 + 1 * (j 1).val = (j 1).val
    rw [e1]; omega

/-- The first head's product after the launch: the 8 row blocks written back tile its 16384 rows. -/
theorem val2m (c : Dev nD) : ((dat2 (F := Ideal) V c).arrAt 3 cfg2.N : Mat 16384 64) = prod256 (V c main_v1) (V c main_arg3) :=
  (dat2 (F := Ideal) V c).arrAt_eq_of_cover 3 (prod256 (V c main_v1) (V c main_arg3)) (fun t _ => flushed2m V c t) fun i => by
    have h0 : (i 0 : Nat) < 16384 := (i 0).isLt
    have h1 : (i 1 : Nat) < 64 := (i 1).isLt
    obtain ⟨t, ht⟩ : ∃ t : Fin cfg2.N, t.val = (i 0 : Nat) / 2048 :=
      ⟨⟨(i 0 : Nat) / 2048, by rw [show cfg2.N = 8 from N_2]; omega⟩, rfl⟩
    obtain ⟨-, -, -, -, -, -, e0, e1, -⟩ := idx2 t
    refine ⟨t, flush2_3 t, ?_⟩
    show i ∈ ((View.whole main_v2_0).slice (win2_3.rect t)).set
    rw [View.set_slice_whole, Rect.mem_set_unit]
    intro a
    match a with
    | ⟨0, _⟩ => show win2_3.index t 0 * 2048 ≤ (i 0 : Nat) ∧ (i 0 : Nat) < win2_3.index t 0 * 2048 + 2048
                rw [e0, ht]; omega
    | ⟨1, _⟩ => show win2_3.index t 1 * 64 ≤ (i 1 : Nat) ∧ (i 1 : Nat) < win2_3.index t 1 * 64 + 64
                rw [e1]; omega

/-- The second head's product after the launch, likewise. -/
theorem val2s (c : Dev nD) : ((dat2 (F := Ideal) V c).arrAt 4 cfg2.N : Mat 16384 64) = prod256 (V c main_v1) (V c main_arg4) :=
  (dat2 (F := Ideal) V c).arrAt_eq_of_cover 4 (prod256 (V c main_v1) (V c main_arg4)) (fun t _ => flushed2s V c t) fun i => by
    have h0 : (i 0 : Nat) < 16384 := (i 0).isLt
    have h1 : (i 1 : Nat) < 64 := (i 1).isLt
    obtain ⟨t, ht⟩ : ∃ t : Fin cfg2.N, t.val = (i 0 : Nat) / 2048 :=
      ⟨⟨(i 0 : Nat) / 2048, by rw [show cfg2.N = 8 from N_2]; omega⟩, rfl⟩
    obtain ⟨-, -, -, -, -, -, -, -, e0, e1⟩ := idx2 t
    refine ⟨t, flush2_4 t, ?_⟩
    show i ∈ ((View.whole main_v2_1).slice (win2_4.rect t)).set
    rw [View.set_slice_whole, Rect.mem_set_unit]
    intro a
    match a with
    | ⟨0, _⟩ => show win2_4.index t 0 * 2048 ≤ (i 0 : Nat) ∧ (i 0 : Nat) < win2_4.index t 0 * 2048 + 2048
                rw [e0, ht]; omega
    | ⟨1, _⟩ => show win2_4.index t 1 * 64 ≤ (i 1 : Nat) ∧ (i 1 : Nat) < win2_4.index t 1 * 64 + 64
                rw [e1]; omega

end

end Cert.KernelIdeal.Hand.Val2

end
-- ==== Proof.Val3.lean ====
/-
  The fourth launch at the extended reals: what its three result arrays hold after the run. Each running sum, after
  a grid point, is the sum over the column tiles seen so far in the point's row tile of the adjacency tile times the
  matching 2048 rows of the head's product; at the last column tile of a row tile that is the full product's row
  block (16384 = 8 · 2048). The mean is that sum, the deviation is the second sum clamped below at zero plus the small
  constant, the sample is noise times deviation plus mean. The sixteen write-backs tile the 16384 rows.
-/
import proofs.«137944_j3831110828045_1_alg».proof.Proof.Dat3
import proofs.«137944_j3831110828045_1_alg».proof.Proof.Spec
import Idealize.ShloMosaic.Lib.Pipeline.Value
import Idealize.ShloMosaic.Lib.ValueIdx
import Idealize.ShloMosaic.PureOps.Ideal
import Idealize.ShloMosaic.PureOps.Ideal.Laws
import Mathlib.Algebra.BigOperators.Fin
import Mathlib.Data.Fintype.BigOperators
import Mathlib.Logic.Equiv.Fin.Basic

set_option maxRecDepth 16384

noncomputable section

namespace Cert.KernelIdeal.Hand.Val3

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen
open Cert.Spec
open scoped BigOperators

/-! ## The tile product's index maps, axis by axis -/

theorem lhs3_0 (i : S1024x64.Idx) (q : Cert.KernelIdeal.dot_S1024x2048_S2048x64_S1024x64_1_0_0_1_n_n.contr.Idx) :
    (Cert.KernelIdeal.dot_S1024x2048_S2048x64_S1024x64_1_0_0_1_n_n.lhsIdx i q 0).val = (i 0).val := by
  unfold DotDims.lhsIdx
  rw [dif_neg (show ¬(0 : Fin S1024x2048.rank) ∈ Cert.KernelIdeal.dot_S1024x2048_S2048x64_S1024x64_1_0_0_1_n_n.lhsBatch by decide), dif_pos (show (0 : Fin S1024x2048.rank) ∈ Cert.KernelIdeal.dot_S1024x2048_S2048x64_S1024x64_1_0_0_1_n_n.lhsNonContracting by decide)]
  rfl
theorem lhs3_1 (i : S1024x64.Idx) (q : Cert.KernelIdeal.dot_S1024x2048_S2048x64_S1024x64_1_0_0_1_n_n.contr.Idx) :
    (Cert.KernelIdeal.dot_S1024x2048_S2048x64_S1024x64_1_0_0_1_n_n.lhsIdx i q 1).val = (q ⟨0, by decide⟩).val :=
  Cert.KernelIdeal.dot_S1024x2048_S2048x64_S1024x64_1_0_0_1_n_n.lhsIdx_val_of_single rfl i q
theorem rhs3_0 (i : S1024x64.Idx) (q : Cert.KernelIdeal.dot_S1024x2048_S2048x64_S1024x64_1_0_0_1_n_n.contr.Idx) :
    (Cert.KernelIdeal.dot_S1024x2048_S2048x64_S1024x64_1_0_0_1_n_n.rhsIdx i q 0).val = (q ⟨0, by decide⟩).val :=
  Cert.KernelIdeal.dot_S1024x2048_S2048x64_S1024x64_1_0_0_1_n_n.rhsIdx_val_of_single rfl i q
theorem rhs3_1 (i : S1024x64.Idx) (q : Cert.KernelIdeal.dot_S1024x2048_S2048x64_S1024x64_1_0_0_1_n_n.contr.Idx) :
    (Cert.KernelIdeal.dot_S1024x2048_S2048x64_S1024x64_1_0_0_1_n_n.rhsIdx i q 1).val = (i 1).val := by
  unfold DotDims.rhsIdx
  rw [dif_neg (show ¬(1 : Fin S2048x64.rank) ∈ Cert.KernelIdeal.dot_S1024x2048_S2048x64_S1024x64_1_0_0_1_n_n.rhsBatch by decide), dif_pos (show (1 : Fin S2048x64.rank) ∈ Cert.KernelIdeal.dot_S1024x2048_S2048x64_S1024x64_1_0_0_1_n_n.rhsNonContracting by decide)]
  rfl

/-- The tile product into the zero tile, at an entry: the sum over the 2048 contracted positions. -/
theorem tileprod_apply (x : FVec Ideal S1024x2048 .bf16) (v : FVec Ideal S2048x64 .bf16) (r : Fin 1024) (q : Fin 64) :
    matmul (F := Ideal) Cert.KernelIdeal.dot_S1024x2048_S2048x64_S1024x64_1_0_0_1_n_n none x v (constant (F := Ideal) S1024x64 .f32 0x00000000#32) (ix2 r q)
      = ∑ k : Fin 2048, x (ix2 r k) * v (ix2 k q) := by
  simp only [matmul]
  rw [Ideal.matmul_constant_zero_apply, ← Equiv.sum_comp (ValueIdx.contrEquiv1 Cert.KernelIdeal.dot_S1024x2048_S2048x64_S1024x64_1_0_0_1_n_n 2048 rfl rfl).symm]
  refine Finset.sum_congr rfl fun k _ => ?_
  have hk := ValueIdx.contrEquiv1_symm_val Cert.KernelIdeal.dot_S1024x2048_S2048x64_S1024x64_1_0_0_1_n_n 2048 rfl rfl k
  have el : Cert.KernelIdeal.dot_S1024x2048_S2048x64_S1024x64_1_0_0_1_n_n.lhsIdx (ix2 r q) ((ValueIdx.contrEquiv1 Cert.KernelIdeal.dot_S1024x2048_S2048x64_S1024x64_1_0_0_1_n_n 2048 rfl rfl).symm k) = ix2 r k := funext fun a => Fin.ext (by
    match a with
    | ⟨0, _⟩ => exact lhs3_0 _ _
    | ⟨1, _⟩ => exact (lhs3_1 _ _).trans hk)
  have er : Cert.KernelIdeal.dot_S1024x2048_S2048x64_S1024x64_1_0_0_1_n_n.rhsIdx (ix2 r q) ((ValueIdx.contrEquiv1 Cert.KernelIdeal.dot_S1024x2048_S2048x64_S1024x64_1_0_0_1_n_n 2048 rfl rfl).symm k) = ix2 k q := funext fun a => Fin.ext (by
    match a with
    | ⟨0, _⟩ => exact (rhs3_0 _ _).trans hk
    | ⟨1, _⟩ => exact rhs3_1 _ _)
  rw [el, er]

/-! ## The payloads at an entry -/

/-- The reset value of either running sum is zero everywhere. -/
theorem pay1_apply (i : S1024x64.Idx) : k3_pay1 (F := Ideal) i = 0 := by
  unfold k3_pay1
  rw [shapeCast_self]
  exact Ideal.ofBits_zero_f32
theorem pay2_apply (i : S1024x64.Idx) : k3_pay2 (F := Ideal) i = 0 := by
  unfold k3_pay2
  rw [shapeCast_self]
  exact Ideal.ofBits_zero_f32

/-- One step of the mean head's running sum at an entry: what it held plus the tile product's entry. -/
theorem pay4_apply (x : Vec Ideal S1024x2048 .f32) (a : Vec Ideal S1024x64 .f32) (v : Vec Ideal S2048x64 .bf16) (r : Fin 1024) (q : Fin 64) :
    k3_pay4 (F := Ideal) x a v (ix2 r q) = a (ix2 r q) + ∑ k : Fin 2048, x (ix2 r k) * v (ix2 k q) := by
  unfold k3_pay4 k3_pay3
  rw [shapeCast_self, shapeCast_self]
  refine (addf_apply _ _ _).trans ?_
  exact congrArg (a (ix2 r q) + ·) (tileprod_apply _ _ r q)
/-- One step of the deviation head's running sum at an entry, likewise. -/
theorem pay5_apply (x : Vec Ideal S1024x2048 .f32) (a : Vec Ideal S1024x64 .f32) (v : Vec Ideal S2048x64 .bf16) (r : Fin 1024) (q : Fin 64) :
    k3_pay5 (F := Ideal) x a v (ix2 r q) = a (ix2 r q) + ∑ k : Fin 2048, x (ix2 r k) * v (ix2 k q) := by
  unfold k3_pay5 k3_pay3
  rw [shapeCast_self, shapeCast_self]
  refine (addf_apply _ _ _).trans ?_
  exact congrArg (a (ix2 r q) + ·) (tileprod_apply _ _ r q)
/-- The deviation's epilogue at an entry: clamp below at zero, add the small constant. -/
theorem pay6_apply (s : Vec Ideal S1024x64 .f32) (i : S1024x64.Idx) :
    k3_pay6 (F := Ideal) s i = max (s i) (Ideal.ofBits .f32 0x00000000#32) + Ideal.ofBits .f32 0x38D1B717#32 := rfl
/-- The sample's epilogue at an entry: noise times deviation plus mean. -/
theorem pay7_apply (a s e : Vec Ideal S1024x64 .f32) (i : S1024x64.Idx) :
    k3_pay7 (F := Ideal) a s e i = e i * k3_pay6 (F := Ideal) s i + a i := rfl

/-! ## Which block each window has at a point, and a block's entries as entries of its array -/

theorem idx3_0 : ∀ t : Fin cfg3.N, win3_0.index t 0 = t.val / 8 ∧ win3_0.index t 1 = t.val % 8 :=
  (by decide +kernel : ∀ t : Fin grid3.N, win3_0.index t 0 = t.val / 8 ∧ win3_0.index t 1 = t.val % 8)
theorem idx3_1 : ∀ t : Fin cfg3.N, win3_1.index t 0 = t.val % 8 ∧ win3_1.index t 1 = 0 :=
  (by decide +kernel : ∀ t : Fin grid3.N, win3_1.index t 0 = t.val % 8 ∧ win3_1.index t 1 = 0)
theorem idx3_2 : ∀ t : Fin cfg3.N, win3_2.index t 0 = t.val % 8 ∧ win3_2.index t 1 = 0 :=
  (by decide +kernel : ∀ t : Fin grid3.N, win3_2.index t 0 = t.val % 8 ∧ win3_2.index t 1 = 0)
theorem idx3_3 : ∀ t : Fin cfg3.N, win3_3.index t 0 = t.val / 8 ∧ win3_3.index t 1 = 0 :=
  (by decide +kernel : ∀ t : Fin grid3.N, win3_3.index t 0 = t.val / 8 ∧ win3_3.index t 1 = 0)
theorem idx3_4 : ∀ t : Fin cfg3.N, win3_4.index t 0 = t.val / 8 ∧ win3_4.index t 1 = 0 :=
  (by decide +kernel : ∀ t : Fin grid3.N, win3_4.index t 0 = t.val / 8 ∧ win3_4.index t 1 = 0)
theorem idx3_5 : ∀ t : Fin cfg3.N, win3_5.index t 0 = t.val / 8 ∧ win3_5.index t 1 = 0 :=
  (by decide +kernel : ∀ t : Fin grid3.N, win3_5.index t 0 = t.val / 8 ∧ win3_5.index t 1 = 0)
theorem idx3_6 : ∀ t : Fin cfg3.N, win3_6.index t 0 = t.val / 8 ∧ win3_6.index t 1 = 0 :=
  (by decide +kernel : ∀ t : Fin grid3.N, win3_6.index t 0 = t.val / 8 ∧ win3_6.index t 1 = 0)
theorem N3 : cfg3.N = 128 := by decide +kernel

section
variable {F : FTy → Type} [FloatOps F]
variable (V : (c : Dev nD) → (b : Ref sig .tc) → Buf (Elt F) ((c : Thread nD τ).loc b))

/-- The adjacency tile at point `t` is rows `1024·(t/8) …`, columns `2048·(t%8) …` of the adjacency matrix. -/
theorem blk3_0_apply (c : Dev nD) (t : Fin cfg3.N) (x : S1024x2048.Idx) (k : S16384x16384.Idx)
    (hk0 : (k 0).val = 1024 * (t.val / 8) + (x 0).val) (hk1 : (k 1).val = 2048 * (t.val % 8) + (x 1).val) :
    (iblk3 V c 0 t : Vec F S1024x2048 .f32) x = (V c main_arg0 : S16384x16384.Idx → Elt F .f32) k := by
  have hi := idx3_0 t
  unfold iblk3
  rw [View.read_apply]
  show V c main_arg0 _ = V c main_arg0 _
  congr 1
  funext a
  apply Fin.ext
  match a with
  | ⟨0, _⟩ => show win3_0.index t 0 * 1024 + 1 * (x 0).val = (k 0).val; rw [hi.1, hk0]; omega
  | ⟨1, _⟩ => show win3_0.index t 1 * 2048 + 1 * (x 1).val = (k 1).val; rw [hi.2, hk1]; omega
/-- The mean head's product tile at point `t` is rows `2048·(t%8) …` of the mean head's product. -/
theorem blk3_1_apply (c : Dev nD) (t : Fin cfg3.N) (x : S2048x64.Idx) (k : S16384x64.Idx)
    (hk0 : (k 0).val = 2048 * (t.val % 8) + (x 0).val) (hk1 : (k 1).val = (x 1).val) :
    (iblk3 V c 1 t : Vec F S2048x64 .bf16) x = (V c main_v2_0 : S16384x64.Idx → Elt F .bf16) k := by
  have hi := idx3_1 t
  unfold iblk3
  rw [View.read_apply]
  show V c main_v2_0 _ = V c main_v2_0 _
  congr 1
  funext a
  apply Fin.ext
  match a with
  | ⟨0, _⟩ => show win3_1.index t 0 * 2048 + 1 * (x 0).val = (k 0).val; rw [hi.1, hk0]; omega
  | ⟨1, _⟩ => show win3_1.index t 1 * 64 + 1 * (x 1).val = (k 1).val; rw [hi.2, hk1]; omega
/-- The deviation head's product tile at point `t`, likewise. -/
theorem blk3_2_apply (c : Dev nD) (t : Fin cfg3.N) (x : S2048x64.Idx) (k : S16384x64.Idx)
    (hk0 : (k 0).val = 2048 * (t.val % 8) + (x 0).val) (hk1 : (k 1).val = (x 1).val) :
    (iblk3 V c 2 t : Vec F S2048x64 .bf16) x = (V c main_v2_1 : S16384x64.Idx → Elt F .bf16) k := by
  have hi := idx3_2 t
  unfold iblk3
  rw [View.read_apply]
  show V c main_v2_1 _ = V c main_v2_1 _
  congr 1
  funext a
  apply Fin.ext
  match a with
  | ⟨0, _⟩ => show win3_2.index t 0 * 2048 + 1 * (x 0).val = (k 0).val; rw [hi.1, hk0]; omega
  | ⟨1, _⟩ => show win3_2.index t 1 * 64 + 1 * (x 1).val = (k 1).val; rw [hi.2, hk1]; omega
/-- The noise tile at point `t` is rows `1024·(t/8) …` of the noise. -/
theorem blk3_3_apply (c : Dev nD) (t : Fin cfg3.N) (x : S1024x64.Idx) (k : S16384x64.Idx)
    (hk0 : (k 0).val = 1024 * (t.val / 8) + (x 0).val) (hk1 : (k 1).val = (x 1).val) :
    (iblk3 V c 3 t : Vec F S1024x64 .f32) x = (V c main_arg5 : S16384x64.Idx → Elt F .f32) k := by
  have hi := idx3_3 t
  unfold iblk3
  rw [View.read_apply]
  show V c main_arg5 _ = V c main_arg5 _
  congr 1
  funext a
  apply Fin.ext
  match a with
  | ⟨0, _⟩ => show win3_3.index t 0 * 1024 + 1 * (x 0).val = (k 0).val; rw [hi.1, hk0]; omega
  | ⟨1, _⟩ => show win3_3.index t 1 * 64 + 1 * (x 1).val = (k 1).val; rw [hi.2, hk1]; omega

end

/-! ## The running sums after a point -/

/-- A tile-valued quantity that is reset to `z` and stepped at the first column tile of a row tile, and stepped from
    the point before at every other, each step adding an addend `G (row tile) (column tile)` entry by entry: after
    the point at column tile `j` it is the sum of the addends of column tiles `0 … j` of the point's row tile. -/
theorem runsum (acc : (n : ℕ) → n < cfg3.N → Vec Ideal S1024x64 .f32)
    (stp : Fin cfg3.N → Vec Ideal S1024x64 .f32 → Vec Ideal S1024x64 .f32) (z : Vec Ideal S1024x64 .f32)
    (G : ℕ → ℕ → Fin 1024 → Fin 64 → EReal)
    (hz : ∀ i, z i = 0)
    (hstp : ∀ (t : Fin cfg3.N) (a : Vec Ideal S1024x64 .f32) (r : Fin 1024) (q : Fin 64),
      stp t a (ix2 r q) = a (ix2 r q) + G (t.val / 8) (t.val % 8) r q)
    (hfirst : ∀ t : Fin cfg3.N, t.val % 8 = 0 → acc t.val t.isLt = stp t z)
    (hnext : ∀ (t : Fin cfg3.N) (h : ¬t.val % 8 = 0),
      acc t.val t.isLt = stp t (acc (t.val - 1) (Nat.lt_of_le_of_lt (Nat.sub_le _ _) t.isLt))) :
    ∀ (j : ℕ) (t : Fin cfg3.N), t.val % 8 = j → ∀ (r : Fin 1024) (q : Fin 64),
      acc t.val t.isLt (ix2 r q) = ∑ s ∈ Finset.range (j + 1), G (t.val / 8) s r q := by
  intro j
  induction j with
  | zero =>
    intro t ht r q
    rw [hfirst t ht, hstp, hz, zero_add, Finset.sum_range_one, ht]
  | succ j ih =>
    intro t ht r q
    have hne : ¬t.val % 8 = 0 := by omega
    have hlt : t.val - 1 < cfg3.N := Nat.lt_of_le_of_lt (Nat.sub_le _ _) t.isLt
    have hd : (t.val - 1) / 8 = t.val / 8 := by omega
    have ih' : acc (t.val - 1) hlt (ix2 r q) = ∑ s ∈ Finset.range (j + 1), G ((t.val - 1) / 8) s r q :=
      ih ⟨t.val - 1, hlt⟩ (by show (t.val - 1) % 8 = j; omega) r q
    rw [hnext t hne, hstp, Finset.sum_range_succ, ih', hd, ht]

/-- A sum over 16384 positions is the sum over eight runs of 2048. -/
theorem sum_tiles (f : Fin 16384 → EReal) :
    ∑ k : Fin 16384, f k
      = ∑ s ∈ Finset.range 8, ∑ k : Fin 2048, f ⟨2048 * (s % 8) + k.val, by have := k.isLt; omega⟩ := by
  refine Eq.trans ?_ (Fin.sum_univ_eq_sum_range (fun s => ∑ k : Fin 2048, f ⟨2048 * (s % 8) + k.val, by have := k.isLt; omega⟩) 8)
  refine (Equiv.sum_comp (finProdFinEquiv (m := 8) (n := 2048)) f).symm.trans ?_
  rw [Fintype.sum_prod_type]
  refine Finset.sum_congr rfl fun s _ => Finset.sum_congr rfl fun k _ => congrArg f (Fin.ext ?_)
  show k.val + 2048 * s.val = 2048 * (s.val % 8) + k.val
  have := s.isLt
  omega

/-- The addend of row tile `b`, column tile `s`, at entry `(r, q)` of the tile: the 2048 products of the adjacency's
    row `1024·b + r`, columns `2048·s …`, with the matching rows of the head's product, column `q`. -/
def tileSum (A : Mat 16384 16384) (W : Mat 16384 64) (b s : ℕ) (r : Fin 1024) (q : Fin 64) : EReal :=
  ∑ k : Fin 2048, A (ix2 ⟨1024 * (b % 16) + r.val, by have := r.isLt; omega⟩ ⟨2048 * (s % 8) + k.val, by have := k.isLt; omega⟩)
    * W (ix2 ⟨2048 * (s % 8) + k.val, by have := k.isLt; omega⟩ q)

/-- Eight column tiles' addends are the full product's entry. -/
theorem tileSum_all (A : Mat 16384 16384) (W : Mat 16384 64) (b : ℕ) (hb : b < 16) (r : Fin 1024) (q : Fin 64) (i : (⟨2, ![16384, 64]⟩ : Shape).Idx)
    (hi0 : (i 0).val = 1024 * b + r.val) (hi1 : (i 1).val = q.val) :
    ∑ s ∈ Finset.range 8, tileSum A W b s r q = prodAdj64 A W i := by
  unfold prodAdj64
  rw [sum_tiles]
  refine Finset.sum_congr rfl fun s _ => ?_
  unfold tileSum
  refine Finset.sum_congr rfl fun k _ => ?_
  have e0 : (⟨1024 * (b % 16) + r.val, by have := r.isLt; omega⟩ : Fin 16384) = i 0 := Fin.ext (by show 1024 * (b % 16) + r.val = (i 0).val; omega)
  have e1 : q = i 1 := Fin.ext hi1.symm
  rw [e0, e1]

section
variable (V : (c : Dev nD) → (b : Ref sig .tc) → Buf (Elt Ideal) ((c : Thread nD τ).loc b))

/-- One step of the mean head's running sum at a point adds the point's tile sum. -/
theorem step3m (c : Dev nD) (t : Fin cfg3.N) (a : Vec Ideal S1024x64 .f32) (r : Fin 1024) (q : Fin 64) :
    k3_pay4 (F := Ideal) (iblk3 V c 0 t) a (iblk3 V c 1 t) (ix2 r q)
      = a (ix2 r q) + tileSum (V c main_arg0) (V c main_v2_0) (t.val / 8) (t.val % 8) r q := by
  have h128 : t.val < 128 := lt_of_lt_of_eq t.isLt N3
  refine (pay4_apply (iblk3 V c 0 t) a (iblk3 V c 1 t) r q).trans ?_
  refine congrArg (a (ix2 r q) + ·) ?_
  unfold tileSum
  refine Finset.sum_congr rfl fun k _ => ?_
  refine congrArg₂ (· * ·) ?_ ?_
  · exact blk3_0_apply V c t (ix2 r k) _
      (by show 1024 * (t.val / 8 % 16) + r.val = 1024 * (t.val / 8) + r.val; omega)
      (by show 2048 * (t.val % 8 % 8) + k.val = 2048 * (t.val % 8) + k.val; omega)
  · exact blk3_1_apply V c t (ix2 k q) _
      (by show 2048 * (t.val % 8 % 8) + k.val = 2048 * (t.val % 8) + k.val; omega) rfl
/-- One step of the deviation head's running sum, likewise. -/
theorem step3s (c : Dev nD) (t : Fin cfg3.N) (a : Vec Ideal S1024x64 .f32) (r : Fin 1024) (q : Fin 64) :
    k3_pay5 (F := Ideal) (iblk3 V c 0 t) a (iblk3 V c 2 t) (ix2 r q)
      = a (ix2 r q) + tileSum (V c main_arg0) (V c main_v2_1) (t.val / 8) (t.val % 8) r q := by
  have h128 : t.val < 128 := lt_of_lt_of_eq t.isLt N3
  refine (pay5_apply (iblk3 V c 0 t) a (iblk3 V c 2 t) r q).trans ?_
  refine congrArg (a (ix2 r q) + ·) ?_
  unfold tileSum
  refine Finset.sum_congr rfl fun k _ => ?_
  refine congrArg₂ (· * ·) ?_ ?_
  · exact blk3_0_apply V c t (ix2 r k) _
      (by show 1024 * (t.val / 8 % 16) + r.val = 1024 * (t.val / 8) + r.val; omega)
      (by show 2048 * (t.val % 8 % 8) + k.val = 2048 * (t.val % 8) + k.val; omega)
  · exact blk3_2_apply V c t (ix2 k q) _
      (by show 2048 * (t.val % 8 % 8) + k.val = 2048 * (t.val % 8) + k.val; omega) rfl

/-- The mean head's running sum after a point: the tile sums of the column tiles seen so far in its row tile. -/
theorem acc3m_apply (c : Dev nD) (t : Fin cfg3.N) (r : Fin 1024) (q : Fin 64) :
    acc3m V c t.val t.isLt (ix2 r q)
      = ∑ s ∈ Finset.range (t.val % 8 + 1), tileSum (V c main_arg0) (V c main_v2_0) (t.val / 8) s r q :=
  runsum (acc3m V c) (fun t a => k3_pay4 (F := Ideal) (iblk3 V c 0 t) a (iblk3 V c 1 t)) (k3_pay1 (F := Ideal))
    (tileSum (V c main_arg0) (V c main_v2_0)) pay1_apply (step3m V c) (acc3m_first V c) (acc3m_next V c) (t.val % 8) t rfl r q
/-- The deviation head's running sum after a point, likewise. -/
theorem acc3s_apply (c : Dev nD) (t : Fin cfg3.N) (r : Fin 1024) (q : Fin 64) :
    acc3s V c t.val t.isLt (ix2 r q)
      = ∑ s ∈ Finset.range (t.val % 8 + 1), tileSum (V c main_arg0) (V c main_v2_1) (t.val / 8) s r q :=
  runsum (acc3s V c) (fun t a => k3_pay5 (F := Ideal) (iblk3 V c 0 t) a (iblk3 V c 2 t)) (k3_pay2 (F := Ideal))
    (tileSum (V c main_arg0) (V c main_v2_1)) pay2_apply (step3s V c) (acc3s_first V c) (acc3s_next V c) (t.val % 8) t rfl r q

/-! ## What the last column tile of a row tile writes back, entry by entry -/

/-- At a last column tile the mean head's running sum is the full product's row block. -/
theorem mean_at (c : Dev nD) (t : Fin cfg3.N) (h7 : t.val % 8 = 7) (j : S1024x64.Idx) (i : S16384x64.Idx)
    (hi0 : (i 0).val = 1024 * (t.val / 8) + (j 0).val) (hi1 : (i 1).val = (j 1).val) :
    acc3m V c t.val t.isLt j = prodAdj64 (V c main_arg0) (V c main_v2_0) i := by
  have h128 : t.val < 128 := lt_of_lt_of_eq t.isLt N3
  obtain ⟨r, q, rfl⟩ : ∃ (r : Fin 1024) (q : Fin 64), j = ix2 r q := ⟨j 0, j 1, eq_ix2 j⟩
  rw [acc3m_apply V c t r q, h7]
  exact tileSum_all _ _ (t.val / 8) (by omega) r q i hi0 hi1
/-- At a last column tile the deviation head's running sum is its full product's row block. -/
theorem sdev_at (c : Dev nD) (t : Fin cfg3.N) (h7 : t.val % 8 = 7) (j : S1024x64.Idx) (i : S16384x64.Idx)
    (hi0 : (i 0).val = 1024 * (t.val / 8) + (j 0).val) (hi1 : (i 1).val = (j 1).val) :
    acc3s V c t.val t.isLt j = prodAdj64 (V c main_arg0) (V c main_v2_1) i := by
  have h128 : t.val < 128 := lt_of_lt_of_eq t.isLt N3
  obtain ⟨r, q, rfl⟩ : ∃ (r : Fin 1024) (q : Fin 64), j = ix2 r q := ⟨j 0, j 1, eq_ix2 j⟩
  rw [acc3s_apply V c t r q, h7]
  exact tileSum_all _ _ (t.val / 8) (by omega) r q i hi0 hi1
/-- The deviation written back there: the clamped product plus the small constant. -/
theorem dev_at (c : Dev nD) (t : Fin cfg3.N) (h7 : t.val % 8 = 7) (j : S1024x64.Idx) (i : S16384x64.Idx)
    (hi0 : (i 0).val = 1024 * (t.val / 8) + (j 0).val) (hi1 : (i 1).val = (j 1).val) :
    k3_pay6 (F := Ideal) (acc3s V c t.val t.isLt) j = devOf (V c main_arg0) (V c main_v2_1) i := by
  refine (pay6_apply _ j).trans ?_
  show _ = max (prodAdj64 (V c main_arg0) (V c main_v2_1) i) (Ideal.ofBits .f32 0x00000000#32) + Ideal.ofBits .f32 0x38D1B717#32
  rw [sdev_at V c t h7 j i hi0 hi1]
/-- The sample written back there: noise times deviation plus mean. -/
theorem sample_at (c : Dev nD) (t : Fin cfg3.N) (h7 : t.val % 8 = 7) (j : S1024x64.Idx) (i : S16384x64.Idx)
    (hi0 : (i 0).val = 1024 * (t.val / 8) + (j 0).val) (hi1 : (i 1).val = (j 1).val) :
    k3_pay7 (F := Ideal) (acc3m V c t.val t.isLt) (acc3s V c t.val t.isLt) (iblk3 V c 3 t) j
      = sampleOf (V c main_arg5) (devOf (V c main_arg0) (V c main_v2_1)) (prodAdj64 (V c main_arg0) (V c main_v2_0)) i := by
  refine (pay7_apply _ _ _ j).trans ?_
  exact congrArg₂ (· + ·) (congrArg₂ (· * ·) (blk3_3_apply V c t j i hi0 hi1) (dev_at V c t h7 j i hi0 hi1)) (mean_at V c t h7 j i hi0 hi1)

end

/-! ## The write-backs, the cover, the three result arrays -/

section
variable (V : (c : Dev nD) → (b : Ref sig .tc) → Buf (Elt Ideal) ((c : Thread nD τ).loc b))

/-- What a last column tile writes back to the mean is its row block of the full product. -/
theorem flushed3_5 (c : Dev nD) (t : Fin cfg3.N) (hf : (cfg3.win 5).flush t = true) :
    (dat3 (F := Ideal) V c).flushed 5 t = ((cfg3.win 5).blk t).view.read (Elt Ideal) (prodAdj64 (V c main_arg0) (V c main_v2_0)) := by
  have h7 : t.val % 8 = 7 := (flush3_5 t).mp hf
  have hi := idx3_5 t
  have hcut : ∀ X : Vec Ideal S1024x64 .f32, (cfg3.win 5).cut (grid3.coords t) X = X := fun X => rfl
  have hread : ∀ (G : Mat 16384 64) (j : S1024x64.Idx),
      ((cfg3.win 5).blk t).view.read (Elt Ideal) G j = G (((cfg3.win 5).blk t).view.emb j) := fun G j => rfl
  show (cfg3.win 5).cut (grid3.coords t) ((dat3 (F := Ideal) V c).after 5 t) = _
  rw [after3_5, hcut]
  funext j
  refine Eq.trans ?_ (hread _ j).symm
  refine mean_at V c t h7 j _ ?_ ?_
  · show win3_5.index t 0 * 1024 + 1 * (j 0).val = 1024 * (t.val / 8) + (j 0).val
    rw [hi.1]; omega
  · show win3_5.index t 1 * 64 + 1 * (j 1).val = (j 1).val
    rw [hi.2]; omega

/-- What it writes back to the deviation is its row block of the deviation. -/
theorem flushed3_6 (c : Dev nD) (t : Fin cfg3.N) (hf : (cfg3.win 6).flush t = true) :
    (dat3 (F := Ideal) V c).flushed 6 t = ((cfg3.win 6).blk t).view.read (Elt Ideal) (devOf (V c main_arg0) (V c main_v2_1)) := by
  have h7 : t.val % 8 = 7 := (flush3_6 t).mp hf
  have hi := idx3_6 t
  have hcut : ∀ X : Vec Ideal S1024x64 .f32, (cfg3.win 6).cut (grid3.coords t) X = X := fun X => rfl
  have hread : ∀ (G : Mat 16384 64) (j : S1024x64.Idx),
      ((cfg3.win 6).blk t).view.read (Elt Ideal) G j = G (((cfg3.win 6).blk t).view.emb j) := fun G j => rfl
  show (cfg3.win 6).cut (grid3.coords t) ((dat3 (F := Ideal) V c).after 6 t) = _
  rw [after3_6, hcut]
  funext j
  refine Eq.trans ?_ (hread _ j).symm
  refine dev_at V c t h7 j _ ?_ ?_
  · show win3_6.index t 0 * 1024 + 1 * (j 0).val = 1024 * (t.val / 8) + (j 0).val
    rw [hi.1]; omega
  · show win3_6.index t 1 * 64 + 1 * (j 1).val = (j 1).val
    rw [hi.2]; omega

/-- What it writes back to the sample is its row block of the sample. -/
theorem flushed3_4 (c : Dev nD) (t : Fin cfg3.N) (hf : (cfg3.win 4).flush t = true) :
    (dat3 (F := Ideal) V c).flushed 4 t = ((cfg3.win 4).blk t).view.read (Elt Ideal) (sampleOf (V c main_arg5) (devOf (V c main_arg0) (V c main_v2_1)) (prodAdj64 (V c main_arg0) (V c main_v2_0))) := by
  have h7 : t.val % 8 = 7 := (flush3_4 t).mp hf
  have hi := idx3_4 t
  have hcut : ∀ X : Vec Ideal S1024x64 .f32, (cfg3.win 4).cut (grid3.coords t) X = X := fun X => rfl
  have hread : ∀ (G : Mat 16384 64) (j : S1024x64.Idx),
      ((cfg3.win 4).blk t).view.read (Elt Ideal) G j = G (((cfg3.win 4).blk t).view.emb j) := fun G j => rfl
  show (cfg3.win 4).cut (grid3.coords t) ((dat3 (F := Ideal) V c).after 4 t) = _
  rw [after3_4, hcut]
  funext j
  refine Eq.trans ?_ (hread _ j).symm
  refine sample_at V c t h7 j _ ?_ ?_
  · show win3_4.index t 0 * 1024 + 1 * (j 0).val = 1024 * (t.val / 8) + (j 0).val
    rw [hi.1]; omega
  · show win3_4.index t 1 * 64 + 1 * (j 1).val = (j 1).val
    rw [hi.2]; omega

/-- Row `ρ` of result 4 lies in the block written back at the last column tile of row tile `ρ / 1024`. -/
theorem cover3_4 (i : S16384x64.Idx) : ∃ t : Fin cfg3.N, (cfg3.win 4).flush t = true ∧ i ∈ ((cfg3.win 4).blk t).view.set := by
  have hi0 : (i 0).val < 16384 := (i 0).isLt
  have hi1 : (i 1).val < 64 := (i 1).isLt
  obtain ⟨t, ht⟩ : ∃ t : Fin cfg3.N, t.val = 8 * ((i 0).val / 1024) + 7 :=
    ⟨⟨8 * ((i 0).val / 1024) + 7, lt_of_lt_of_eq (by omega) N3.symm⟩, rfl⟩
  have hi := idx3_4 t
  refine ⟨t, (flush3_4 t).mpr (by omega), ?_⟩
  show i ∈ ((View.whole main_v3_0).slice (win3_4.rect t)).set
  rw [View.set_slice_whole, Rect.mem_set_unit]
  intro a
  match a with
  | ⟨0, _⟩ =>
    show win3_4.index t 0 * 1024 ≤ (i 0).val ∧ (i 0).val < win3_4.index t 0 * 1024 + 1024
    rw [hi.1]; omega
  | ⟨1, _⟩ =>
    show win3_4.index t 1 * 64 ≤ (i 1).val ∧ (i 1).val < win3_4.index t 1 * 64 + 64
    rw [hi.2]; omega

/-- Row `ρ` of result 5 lies in the block written back at the last column tile of row tile `ρ / 1024`. -/
theorem cover3_5 (i : S16384x64.Idx) : ∃ t : Fin cfg3.N, (cfg3.win 5).flush t = true ∧ i ∈ ((cfg3.win 5).blk t).view.set := by
  have hi0 : (i 0).val < 16384 := (i 0).isLt
  have hi1 : (i 1).val < 64 := (i 1).isLt
  obtain ⟨t, ht⟩ : ∃ t : Fin cfg3.N, t.val = 8 * ((i 0).val / 1024) + 7 :=
    ⟨⟨8 * ((i 0).val / 1024) + 7, lt_of_lt_of_eq (by omega) N3.symm⟩, rfl⟩
  have hi := idx3_5 t
  refine ⟨t, (flush3_5 t).mpr (by omega), ?_⟩
  show i ∈ ((View.whole main_v3_1).slice (win3_5.rect t)).set
  rw [View.set_slice_whole, Rect.mem_set_unit]
  intro a
  match a with
  | ⟨0, _⟩ =>
    show win3_5.index t 0 * 1024 ≤ (i 0).val ∧ (i 0).val < win3_5.index t 0 * 1024 + 1024
    rw [hi.1]; omega
  | ⟨1, _⟩ =>
    show win3_5.index t 1 * 64 ≤ (i 1).val ∧ (i 1).val < win3_5.index t 1 * 64 + 64
    rw [hi.2]; omega

/-- Row `ρ` of result 6 lies in the block written back at the last column tile of row tile `ρ / 1024`. -/
theorem cover3_6 (i : S16384x64.Idx) : ∃ t : Fin cfg3.N, (cfg3.win 6).flush t = true ∧ i ∈ ((cfg3.win 6).blk t).view.set := by
  have hi0 : (i 0).val < 16384 := (i 0).isLt
  have hi1 : (i 1).val < 64 := (i 1).isLt
  obtain ⟨t, ht⟩ : ∃ t : Fin cfg3.N, t.val = 8 * ((i 0).val / 1024) + 7 :=
    ⟨⟨8 * ((i 0).val / 1024) + 7, lt_of_lt_of_eq (by omega) N3.symm⟩, rfl⟩
  have hi := idx3_6 t
  refine ⟨t, (flush3_6 t).mpr (by omega), ?_⟩
  show i ∈ ((View.whole main_v3_2).slice (win3_6.rect t)).set
  rw [View.set_slice_whole, Rect.mem_set_unit]
  intro a
  match a with
  | ⟨0, _⟩ =>
    show win3_6.index t 0 * 1024 ≤ (i 0).val ∧ (i 0).val < win3_6.index t 0 * 1024 + 1024
    rw [hi.1]; omega
  | ⟨1, _⟩ =>
    show win3_6.index t 1 * 64 ≤ (i 1).val ∧ (i 1).val < win3_6.index t 1 * 64 + 64
    rw [hi.2]; omega

/-- The mean array after the run: adjacency times the mean head's product. -/
theorem val3m (c : Dev nD) : ((dat3 (F := Ideal) V c).arrAt 5 cfg3.N : Mat 16384 64) = prodAdj64 (V c main_arg0) (V c main_v2_0) :=
  (dat3 (F := Ideal) V c).arrAt_eq_of_cover 5 (prodAdj64 (V c main_arg0) (V c main_v2_0)) (flushed3_5 V c) (fun i => cover3_5 i)
/-- The deviation array after the run. -/
theorem val3s (c : Dev nD) : ((dat3 (F := Ideal) V c).arrAt 6 cfg3.N : Mat 16384 64) = devOf (V c main_arg0) (V c main_v2_1) :=
  (dat3 (F := Ideal) V c).arrAt_eq_of_cover 6 (devOf (V c main_arg0) (V c main_v2_1)) (flushed3_6 V c) (fun i => cover3_6 i)
/-- The sample array after the run. -/
theorem val3z (c : Dev nD) : ((dat3 (F := Ideal) V c).arrAt 4 cfg3.N : Mat 16384 64)
    = sampleOf (V c main_arg5) (devOf (V c main_arg0) (V c main_v2_1)) (prodAdj64 (V c main_arg0) (V c main_v2_0)) :=
  (dat3 (F := Ideal) V c).arrAt_eq_of_cover 4 (sampleOf (V c main_arg5) (devOf (V c main_arg0) (V c main_v2_1)) (prodAdj64 (V c main_arg0) (V c main_v2_0))) (flushed3_4 V c) (fun i => cover3_4 i)

end

end Cert.KernelIdeal.Hand.Val3

end
-- ==== Proof.Final.lean ====
/-
  The results' values: through the fold of the arrays' contents, each launch's output read as a function of the
  arrays it found (the four value lemmas), composed from the program's end back to the launch memory. At the
  extended reals the program ends with
    mean   = adj · (tanh(adj · (x · W0)) · W_mean),
    dev    = max(adj · (tanh(adj · (x · W0)) · W_std), 0) + c,
    sample = eps · dev + mean,
  entry by entry, and every argument as launched.
-/
import proofs.«137944_j3831110828045_1_alg».proof.Proof.Launch
import proofs.«137944_j3831110828045_1_alg».proof.Proof.Val0
import proofs.«137944_j3831110828045_1_alg».proof.Proof.Val1
import proofs.«137944_j3831110828045_1_alg».proof.Proof.Val2
import proofs.«137944_j3831110828045_1_alg».proof.Proof.Val3

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Cert.Spec

variable (m : (ℓ : Loc nD τ sig) → Buf (Elt Ideal) ℓ) (ρ : Dev nD → PrngReg)

/-- The launch memory's six arguments on core `c`, as matrices of extended reals. -/
abbrev argA (c : Dev nD) : Mat 16384 16384 := m ((c.tc : Thread nD τ).loc main_arg0)
abbrev argX (c : Dev nD) : Mat 16384 512 := m ((c.tc : Thread nD τ).loc main_arg1)
abbrev argW0 (c : Dev nD) : Mat 512 256 := m ((c.tc : Thread nD τ).loc main_arg2)
abbrev argWm (c : Dev nD) : Mat 256 64 := m ((c.tc : Thread nD τ).loc main_arg3)
abbrev argWs (c : Dev nD) : Mat 256 64 := m ((c.tc : Thread nD τ).loc main_arg4)
abbrev argE (c : Dev nD) : Mat 16384 64 := m ((c.tc : Thread nD τ).loc main_arg5)

/-- The first product as the second launch finds it. -/
theorem v0_is (c : Dev nD) : (E1 m c main_v0 : Mat 16384 256) = prod512 (argX m c) (argW0 m c) :=
  (E1_v0 m c).trans (Val0.val0 (E0 m) c)

/-- The hidden layer as the third launch finds it. -/
theorem h_is (c : Dev nD) : (E2 m c main_v1 : Mat 16384 256) = hidden (argA m c) (prod512 (argX m c) (argW0 m c)) :=
  (E2_v1 m c).trans ((Val1.val1 (E1 m) c).trans (congrArg₂ Cert.Spec.hidden (E1_arg0 m c) (v0_is m c)))

/-- The two heads' products as the fourth launch finds them. -/
theorem v1_is (c : Dev nD) : (E3 m c main_v2_0 : Mat 16384 64) = prod256 (hidden (argA m c) (prod512 (argX m c) (argW0 m c))) (argWm m c) :=
  (E3_v2_0 m c).trans ((Val2.val2m (E2 m) c).trans (congrArg₂ prod256 (h_is m c) (E2_arg3 m c)))
theorem v2_is (c : Dev nD) : (E3 m c main_v2_1 : Mat 16384 64) = prod256 (hidden (argA m c) (prod512 (argX m c) (argW0 m c))) (argWs m c) :=
  (E3_v2_1 m c).trans ((Val2.val2s (E2 m) c).trans (congrArg₂ prod256 (h_is m c) (E2_arg4 m c)))

/-- The mean at the program's end. -/
theorem mean_is (c : Dev nD) : (E4 m c main_v3_1 : Mat 16384 64)
    = prodAdj64 (argA m c) (prod256 (hidden (argA m c) (prod512 (argX m c) (argW0 m c))) (argWm m c)) :=
  (E4_v3_1 m c).trans ((Val3.val3m (E3 m) c).trans (congrArg₂ prodAdj64 (E3_arg0 m c) (v1_is m c)))

/-- The deviation at the program's end. -/
theorem dev_is (c : Dev nD) : (E4 m c main_v3_2 : Mat 16384 64)
    = devOf (argA m c) (prod256 (hidden (argA m c) (prod512 (argX m c) (argW0 m c))) (argWs m c)) :=
  (E4_v3_2 m c).trans ((Val3.val3s (E3 m) c).trans (congrArg₂ devOf (E3_arg0 m c) (v2_is m c)))

theorem sampleOf_congr {e e' s s' u u' : Mat 16384 64} (he : e = e') (hs : s = s') (hu : u = u') :
    sampleOf e s u = sampleOf e' s' u' := by subst he; subst hs; subst hu; rfl

/-- The sample at the program's end. -/
theorem sample_is (c : Dev nD) : (E4 m c main_v3_0 : Mat 16384 64)
    = sampleOf (argE m c) (devOf (argA m c) (prod256 (hidden (argA m c) (prod512 (argX m c) (argW0 m c))) (argWs m c)))
        (prodAdj64 (argA m c) (prod256 (hidden (argA m c) (prod512 (argX m c) (argW0 m c))) (argWm m c))) :=
  (E4_v3_0 m c).trans ((Val3.val3z (E3 m) c).trans (sampleOf_congr (E3_arg5 m c)
    (congrArg₂ devOf (E3_arg0 m c) (v2_is m c)) (congrArg₂ prodAdj64 (E3_arg0 m c) (v1_is m c))))

/-- THE VALUE RUN at the extended reals: the three results at their closed forms, every argument as launched. -/
theorem value_run : θ_run defs (onTc (τ := τ) (main (F := Ideal))) ⟨m, fun _ => 0, ρ⟩ (fun r => ∀ c : Dev nD,
      r.2.mem ((c.tc : Thread nD τ).loc main_v3_0)
          = sampleOf (argE m c) (devOf (argA m c) (prod256 (hidden (argA m c) (prod512 (argX m c) (argW0 m c))) (argWs m c)))
              (prodAdj64 (argA m c) (prod256 (hidden (argA m c) (prod512 (argX m c) (argW0 m c))) (argWm m c)))
      ∧ r.2.mem ((c.tc : Thread nD τ).loc main_v3_1)
          = prodAdj64 (argA m c) (prod256 (hidden (argA m c) (prod512 (argX m c) (argW0 m c))) (argWm m c))
      ∧ r.2.mem ((c.tc : Thread nD τ).loc main_v3_2)
          = devOf (argA m c) (prod256 (hidden (argA m c) (prod512 (argX m c) (argW0 m c))) (argWs m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_v3_0 (by decide))).trans (sample_is m c),
     (h c _ (mem_uc main_v3_1 (by decide))).trans (mean_is m c),
     (h c _ (mem_uc main_v3_2 (by decide))).trans (dev_is m c),
     (h c _ (mem_uc main_arg0 (by decide))).trans (E4_arg0 m c),
     (h c _ (mem_uc main_arg1 (by decide))).trans (E4_arg1 m c),
     (h c _ (mem_uc main_arg2 (by decide))).trans (E4_arg2 m c),
     (h c _ (mem_uc main_arg3 (by decide))).trans (E4_arg3 m c),
     (h c _ (mem_uc main_arg4 (by decide))).trans (E4_arg4 m c),
     (h c _ (mem_uc main_arg5 (by decide))).trans (E4_arg5 m c)⟩) (run_all m ρ)

end Cert.KernelIdeal.Hand

end
-- ==== Proof.RefIs.lean ====
/-
  The reference, operation by operation, is the specification: each of its matrix products read at an entry is the
  sum over the contracted index of the products of the operands' entries, its tanh, maximum, sum and product act
  entry by entry, and a broadcast scalar constant is that constant at every entry.  Composed, its three results are
  the mean head, the deviation head and the sample of the specification.
-/
import proofs.«137944_j3831110828045_1_alg».proof.Proof.Gen.ReferenceIdeal.Read
import proofs.«137944_j3831110828045_1_alg».proof.Proof.Spec
import Idealize.ShloMosaic.PureOps.Ideal
import Idealize.ShloMosaic.PureOps.Ideal.Laws
import Idealize.ShloMosaic.Lib.ValueIdx
import Idealize.ShloMosaic.Lib.Pipeline.Value

noncomputable section

open Cert.ReferenceIdeal Cert.ReferenceIdeal.Gen Cert.Spec Idealize.ShloMosaic Idealize.ShloMosaic.ValueIdx
open Idealize.ShloMosaic.StableHlo
open scoped BigOperators

namespace Cert.ReferenceIdeal.Hand

/-- The product `dot_S16384x512_S512x256_S16384x256_1_0_0_1_n_n` read at an entry: the sum over the contracted index of the products. -/
theorem dot512_apply (l : (⟨S16384x512, .f32⟩ : BufTy).Contents (Elt Ideal)) (r : (⟨S512x256, .f32⟩ : BufTy).Contents (Elt Ideal)) (i : S16384x256.Idx) :
    (Host.dotGeneral (F := Ideal) (φ₁ := .f32) (φ₂ := .f32) dot_S16384x512_S512x256_S16384x256_1_0_0_1_n_n none l r : (⟨S16384x256, .f32⟩ : BufTy).Contents (Elt Ideal)) i
      = ∑ k : Fin 512, l (ix2 (i 0) k) * r (ix2 k (i 1)) := by
  simp only [Host.dotGeneral]
  rw [Ideal.dotGeneral_apply, ← Equiv.sum_comp (ValueIdx.contrEquiv1 dot_S16384x512_S512x256_S16384x256_1_0_0_1_n_n 512 rfl rfl).symm]
  refine Finset.sum_congr rfl fun k _ => ?_
  have hk := ValueIdx.contrEquiv1_symm_val dot_S16384x512_S512x256_S16384x256_1_0_0_1_n_n 512 rfl rfl k
  have el : dot_S16384x512_S512x256_S16384x256_1_0_0_1_n_n.lhsIdx i ((ValueIdx.contrEquiv1 dot_S16384x512_S512x256_S16384x256_1_0_0_1_n_n 512 rfl rfl).symm k) = ix2 (i 0) k :=
    funext fun a => Fin.ext (by
      match a with
      | ⟨0, _⟩ => exact Read.lhs_main_v0_0 _ _
      | ⟨1, _⟩ => exact (Read.lhs_main_v0_1 _ _).trans hk)
  have er : dot_S16384x512_S512x256_S16384x256_1_0_0_1_n_n.rhsIdx i ((ValueIdx.contrEquiv1 dot_S16384x512_S512x256_S16384x256_1_0_0_1_n_n 512 rfl rfl).symm k) = ix2 k (i 1) :=
    funext fun a => Fin.ext (by
      match a with
      | ⟨0, _⟩ => exact (Read.rhs_main_v0_0 _ _).trans hk
      | ⟨1, _⟩ => exact Read.rhs_main_v0_1 _ _)
  rw [el, er]
  rfl

/-- The product `dot_S16384x16384_S16384x256_S16384x256_1_0_0_1_n_n` read at an entry: the sum over the contracted index of the products. -/
theorem dotAdj256_apply (l : (⟨S16384x16384, .f32⟩ : BufTy).Contents (Elt Ideal)) (r : (⟨S16384x256, .f32⟩ : BufTy).Contents (Elt Ideal)) (i : S16384x256.Idx) :
    (Host.dotGeneral (F := Ideal) (φ₁ := .f32) (φ₂ := .f32) dot_S16384x16384_S16384x256_S16384x256_1_0_0_1_n_n none l r : (⟨S16384x256, .f32⟩ : BufTy).Contents (Elt Ideal)) i
      = ∑ k : Fin 16384, l (ix2 (i 0) k) * r (ix2 k (i 1)) := by
  simp only [Host.dotGeneral]
  rw [Ideal.dotGeneral_apply, ← Equiv.sum_comp (ValueIdx.contrEquiv1 dot_S16384x16384_S16384x256_S16384x256_1_0_0_1_n_n 16384 rfl rfl).symm]
  refine Finset.sum_congr rfl fun k _ => ?_
  have hk := ValueIdx.contrEquiv1_symm_val dot_S16384x16384_S16384x256_S16384x256_1_0_0_1_n_n 16384 rfl rfl k
  have el : dot_S16384x16384_S16384x256_S16384x256_1_0_0_1_n_n.lhsIdx i ((ValueIdx.contrEquiv1 dot_S16384x16384_S16384x256_S16384x256_1_0_0_1_n_n 16384 rfl rfl).symm k) = ix2 (i 0) k :=
    funext fun a => Fin.ext (by
      match a with
      | ⟨0, _⟩ => exact Read.lhs_main_v1_0 _ _
      | ⟨1, _⟩ => exact (Read.lhs_main_v1_1 _ _).trans hk)
  have er : dot_S16384x16384_S16384x256_S16384x256_1_0_0_1_n_n.rhsIdx i ((ValueIdx.contrEquiv1 dot_S16384x16384_S16384x256_S16384x256_1_0_0_1_n_n 16384 rfl rfl).symm k) = ix2 k (i 1) :=
    funext fun a => Fin.ext (by
      match a with
      | ⟨0, _⟩ => exact (Read.rhs_main_v1_0 _ _).trans hk
      | ⟨1, _⟩ => exact Read.rhs_main_v1_1 _ _)
  rw [el, er]
  rfl

/-- The product `dot_S16384x256_S256x64_S16384x64_1_0_0_1_n_n` read at an entry: the sum over the contracted index of the products. -/
theorem dot256_apply (l : (⟨S16384x256, .f32⟩ : BufTy).Contents (Elt Ideal)) (r : (⟨S256x64, .f32⟩ : BufTy).Contents (Elt Ideal)) (i : S16384x64.Idx) :
    (Host.dotGeneral (F := Ideal) (φ₁ := .f32) (φ₂ := .f32) dot_S16384x256_S256x64_S16384x64_1_0_0_1_n_n none l r : (⟨S16384x64, .f32⟩ : BufTy).Contents (Elt Ideal)) i
      = ∑ k : Fin 256, l (ix2 (i 0) k) * r (ix2 k (i 1)) := by
  simp only [Host.dotGeneral]
  rw [Ideal.dotGeneral_apply, ← Equiv.sum_comp (ValueIdx.contrEquiv1 dot_S16384x256_S256x64_S16384x64_1_0_0_1_n_n 256 rfl rfl).symm]
  refine Finset.sum_congr rfl fun k _ => ?_
  have hk := ValueIdx.contrEquiv1_symm_val dot_S16384x256_S256x64_S16384x64_1_0_0_1_n_n 256 rfl rfl k
  have el : dot_S16384x256_S256x64_S16384x64_1_0_0_1_n_n.lhsIdx i ((ValueIdx.contrEquiv1 dot_S16384x256_S256x64_S16384x64_1_0_0_1_n_n 256 rfl rfl).symm k) = ix2 (i 0) k :=
    funext fun a => Fin.ext (by
      match a with
      | ⟨0, _⟩ => exact Read.lhs_main_v3_0 _ _
      | ⟨1, _⟩ => exact (Read.lhs_main_v3_1 _ _).trans hk)
  have er : dot_S16384x256_S256x64_S16384x64_1_0_0_1_n_n.rhsIdx i ((ValueIdx.contrEquiv1 dot_S16384x256_S256x64_S16384x64_1_0_0_1_n_n 256 rfl rfl).symm k) = ix2 k (i 1) :=
    funext fun a => Fin.ext (by
      match a with
      | ⟨0, _⟩ => exact (Read.rhs_main_v3_0 _ _).trans hk
      | ⟨1, _⟩ => exact Read.rhs_main_v3_1 _ _)
  rw [el, er]
  rfl

/-- The product `dot_S16384x16384_S16384x64_S16384x64_1_0_0_1_n_n` read at an entry: the sum over the contracted index of the products. -/
theorem dotAdj64_apply (l : (⟨S16384x16384, .f32⟩ : BufTy).Contents (Elt Ideal)) (r : (⟨S16384x64, .f32⟩ : BufTy).Contents (Elt Ideal)) (i : S16384x64.Idx) :
    (Host.dotGeneral (F := Ideal) (φ₁ := .f32) (φ₂ := .f32) dot_S16384x16384_S16384x64_S16384x64_1_0_0_1_n_n none l r : (⟨S16384x64, .f32⟩ : BufTy).Contents (Elt Ideal)) i
      = ∑ k : Fin 16384, l (ix2 (i 0) k) * r (ix2 k (i 1)) := by
  simp only [Host.dotGeneral]
  rw [Ideal.dotGeneral_apply, ← Equiv.sum_comp (ValueIdx.contrEquiv1 dot_S16384x16384_S16384x64_S16384x64_1_0_0_1_n_n 16384 rfl rfl).symm]
  refine Finset.sum_congr rfl fun k _ => ?_
  have hk := ValueIdx.contrEquiv1_symm_val dot_S16384x16384_S16384x64_S16384x64_1_0_0_1_n_n 16384 rfl rfl k
  have el : dot_S16384x16384_S16384x64_S16384x64_1_0_0_1_n_n.lhsIdx i ((ValueIdx.contrEquiv1 dot_S16384x16384_S16384x64_S16384x64_1_0_0_1_n_n 16384 rfl rfl).symm k) = ix2 (i 0) k :=
    funext fun a => Fin.ext (by
      match a with
      | ⟨0, _⟩ => exact Read.lhs_main_v4_0 _ _
      | ⟨1, _⟩ => exact (Read.lhs_main_v4_1 _ _).trans hk)
  have er : dot_S16384x16384_S16384x64_S16384x64_1_0_0_1_n_n.rhsIdx i ((ValueIdx.contrEquiv1 dot_S16384x16384_S16384x64_S16384x64_1_0_0_1_n_n 16384 rfl rfl).symm k) = ix2 k (i 1) :=
    funext fun a => Fin.ext (by
      match a with
      | ⟨0, _⟩ => exact (Read.rhs_main_v4_0 _ _).trans hk
      | ⟨1, _⟩ => exact Read.rhs_main_v4_1 _ _)
  rw [el, er]
  rfl

/-- A scalar constant broadcast over the [16384, 64] matrix is that constant at every entry. -/
theorem bcast_const_apply (b : BitVec 32) (i : S16384x64.Idx) :
    (broadcastInDim S16384x64 ![] bcast_S_S16384x64 (constant (F := Ideal) S_ .f32 b) : (⟨S16384x64, .f32⟩ : BufTy).Contents (Elt Ideal)) i
      = Ideal.ofBits .f32 b := by
  rw [broadcastInDim_apply _ bcast_S_S16384x64 (constant (F := Ideal) S_ .f32 b) i (fun a => a.elim0) (fun a => a.elim0)]
  rfl

theorem ref_prod512 (x : (⟨S16384x512, .f32⟩ : BufTy).Contents (Elt Ideal)) (w : (⟨S512x256, .f32⟩ : BufTy).Contents (Elt Ideal)) :
    (Host.dotGeneral (F := Ideal) (φ₁ := .f32) (φ₂ := .f32) dot_S16384x512_S512x256_S16384x256_1_0_0_1_n_n none x w : (⟨S16384x256, .f32⟩ : BufTy).Contents (Elt Ideal)) = prod512 x w :=
  funext fun i => dot512_apply x w i

theorem ref_hidden (a : (⟨S16384x16384, .f32⟩ : BufTy).Contents (Elt Ideal)) (v : (⟨S16384x256, .f32⟩ : BufTy).Contents (Elt Ideal)) :
    (Host.tanh (F := Ideal) (φ := .f32) (Host.dotGeneral (F := Ideal) (φ₁ := .f32) (φ₂ := .f32) dot_S16384x16384_S16384x256_S16384x256_1_0_0_1_n_n none a v) : (⟨S16384x256, .f32⟩ : BufTy).Contents (Elt Ideal)) = hidden a v := by
  funext i
  show FloatOps.hostUnary (F := Ideal) (φ := .f32) .tanh
      ((Host.dotGeneral (F := Ideal) (φ₁ := .f32) (φ₂ := .f32) dot_S16384x16384_S16384x256_S16384x256_1_0_0_1_n_n none a v : (⟨S16384x256, .f32⟩ : BufTy).Contents (Elt Ideal)) i) = _
  rw [dotAdj256_apply, Ideal.hostUnary_tanh_def]
  rfl

theorem ref_prod256 (h : (⟨S16384x256, .f32⟩ : BufTy).Contents (Elt Ideal)) (w : (⟨S256x64, .f32⟩ : BufTy).Contents (Elt Ideal)) :
    (Host.dotGeneral (F := Ideal) (φ₁ := .f32) (φ₂ := .f32) dot_S16384x256_S256x64_S16384x64_1_0_0_1_n_n none h w : (⟨S16384x64, .f32⟩ : BufTy).Contents (Elt Ideal)) = prod256 h w :=
  funext fun i => dot256_apply h w i

theorem ref_prodAdj64 (a : (⟨S16384x16384, .f32⟩ : BufTy).Contents (Elt Ideal)) (v : (⟨S16384x64, .f32⟩ : BufTy).Contents (Elt Ideal)) :
    (Host.dotGeneral (F := Ideal) (φ₁ := .f32) (φ₂ := .f32) dot_S16384x16384_S16384x64_S16384x64_1_0_0_1_n_n none a v : (⟨S16384x64, .f32⟩ : BufTy).Contents (Elt Ideal)) = prodAdj64 a v :=
  funext fun i => dotAdj64_apply a v i

theorem ref_dev (a : (⟨S16384x16384, .f32⟩ : BufTy).Contents (Elt Ideal)) (v : (⟨S16384x64, .f32⟩ : BufTy).Contents (Elt Ideal)) :
    (addf (F := Ideal) (φ := .f32) (maximumf (F := Ideal) (φ := .f32) (Host.dotGeneral (F := Ideal) (φ₁ := .f32) (φ₂ := .f32) dot_S16384x16384_S16384x64_S16384x64_1_0_0_1_n_n none a v) (broadcastInDim S16384x64 ![] bcast_S_S16384x64 (constant (F := Ideal) S_ .f32 0x00000000#32))) (broadcastInDim S16384x64 ![] bcast_S_S16384x64 (constant (F := Ideal) S_ .f32 0x38D1B717#32)) : (⟨S16384x64, .f32⟩ : BufTy).Contents (Elt Ideal))
      = devOf a v := by
  funext i
  rw [ValueIdx.addf_apply, ValueIdx.maximumf_apply, bcast_const_apply, bcast_const_apply, dotAdj64_apply]
  rfl

theorem ref_sample (e s m : (⟨S16384x64, .f32⟩ : BufTy).Contents (Elt Ideal)) :
    (addf (F := Ideal) (φ := .f32) (mulf (F := Ideal) (φ := .f32) (e) (s)) (m) : (⟨S16384x64, .f32⟩ : BufTy).Contents (Elt Ideal)) = sampleOf e s m := by
  funext i
  rw [ValueIdx.addf_apply, ValueIdx.mulf_apply]
  rfl

/-- The reference's mean result is the specification's mean head. -/
theorem ref_mean_eq (a : (⟨S16384x16384, .f32⟩ : BufTy).Contents (Elt Ideal)) (x : (⟨S16384x512, .f32⟩ : BufTy).Contents (Elt Ideal)) (w0 : (⟨S512x256, .f32⟩ : BufTy).Contents (Elt Ideal)) (wm : (⟨S256x64, .f32⟩ : BufTy).Contents (Elt Ideal)) :
    (Host.dotGeneral (F := Ideal) (φ₁ := .f32) (φ₂ := .f32) dot_S16384x16384_S16384x64_S16384x64_1_0_0_1_n_n none a (Host.dotGeneral (F := Ideal) (φ₁ := .f32) (φ₂ := .f32) dot_S16384x256_S256x64_S16384x64_1_0_0_1_n_n none (Host.tanh (F := Ideal) (φ := .f32) (Host.dotGeneral (F := Ideal) (φ₁ := .f32) (φ₂ := .f32) dot_S16384x16384_S16384x256_S16384x256_1_0_0_1_n_n none a (Host.dotGeneral (F := Ideal) (φ₁ := .f32) (φ₂ := .f32) dot_S16384x512_S512x256_S16384x256_1_0_0_1_n_n none x w0))) wm) : (⟨S16384x64, .f32⟩ : BufTy).Contents (Elt Ideal)) = prodAdj64 a (prod256 (hidden a (prod512 x w0)) wm) := by
  rw [ref_prod512, ref_hidden, ref_prod256, ref_prodAdj64]

/-- The reference's deviation result is the specification's deviation head. -/
theorem ref_dev_eq (a : (⟨S16384x16384, .f32⟩ : BufTy).Contents (Elt Ideal)) (x : (⟨S16384x512, .f32⟩ : BufTy).Contents (Elt Ideal)) (w0 : (⟨S512x256, .f32⟩ : BufTy).Contents (Elt Ideal)) (ws : (⟨S256x64, .f32⟩ : BufTy).Contents (Elt Ideal)) :
    (addf (F := Ideal) (φ := .f32) (maximumf (F := Ideal) (φ := .f32) (Host.dotGeneral (F := Ideal) (φ₁ := .f32) (φ₂ := .f32) dot_S16384x16384_S16384x64_S16384x64_1_0_0_1_n_n none a (Host.dotGeneral (F := Ideal) (φ₁ := .f32) (φ₂ := .f32) dot_S16384x256_S256x64_S16384x64_1_0_0_1_n_n none (Host.tanh (F := Ideal) (φ := .f32) (Host.dotGeneral (F := Ideal) (φ₁ := .f32) (φ₂ := .f32) dot_S16384x16384_S16384x256_S16384x256_1_0_0_1_n_n none a (Host.dotGeneral (F := Ideal) (φ₁ := .f32) (φ₂ := .f32) dot_S16384x512_S512x256_S16384x256_1_0_0_1_n_n none x w0))) ws)) (broadcastInDim S16384x64 ![] bcast_S_S16384x64 (constant (F := Ideal) S_ .f32 0x00000000#32))) (broadcastInDim S16384x64 ![] bcast_S_S16384x64 (constant (F := Ideal) S_ .f32 0x38D1B717#32)) : (⟨S16384x64, .f32⟩ : BufTy).Contents (Elt Ideal)) = devOf a (prod256 (hidden a (prod512 x w0)) ws) := by
  rw [ref_prod512, ref_hidden, ref_prod256, ref_dev]

/-- The reference's sample result is the specification's sample of the noise, the deviation head and the mean head. -/
theorem ref_sample_eq (a : (⟨S16384x16384, .f32⟩ : BufTy).Contents (Elt Ideal)) (x : (⟨S16384x512, .f32⟩ : BufTy).Contents (Elt Ideal)) (w0 : (⟨S512x256, .f32⟩ : BufTy).Contents (Elt Ideal)) (wm ws : (⟨S256x64, .f32⟩ : BufTy).Contents (Elt Ideal)) (e : (⟨S16384x64, .f32⟩ : BufTy).Contents (Elt Ideal)) :
    (addf (F := Ideal) (φ := .f32) (mulf (F := Ideal) (φ := .f32) (e) (addf (F := Ideal) (φ := .f32) (maximumf (F := Ideal) (φ := .f32) (Host.dotGeneral (F := Ideal) (φ₁ := .f32) (φ₂ := .f32) dot_S16384x16384_S16384x64_S16384x64_1_0_0_1_n_n none a (Host.dotGeneral (F := Ideal) (φ₁ := .f32) (φ₂ := .f32) dot_S16384x256_S256x64_S16384x64_1_0_0_1_n_n none (Host.tanh (F := Ideal) (φ := .f32) (Host.dotGeneral (F := Ideal) (φ₁ := .f32) (φ₂ := .f32) dot_S16384x16384_S16384x256_S16384x256_1_0_0_1_n_n none a (Host.dotGeneral (F := Ideal) (φ₁ := .f32) (φ₂ := .f32) dot_S16384x512_S512x256_S16384x256_1_0_0_1_n_n none x w0))) ws)) (broadcastInDim S16384x64 ![] bcast_S_S16384x64 (constant (F := Ideal) S_ .f32 0x00000000#32))) (broadcastInDim S16384x64 ![] bcast_S_S16384x64 (constant (F := Ideal) S_ .f32 0x38D1B717#32)))) (Host.dotGeneral (F := Ideal) (φ₁ := .f32) (φ₂ := .f32) dot_S16384x16384_S16384x64_S16384x64_1_0_0_1_n_n none a (Host.dotGeneral (F := Ideal) (φ₁ := .f32) (φ₂ := .f32) dot_S16384x256_S256x64_S16384x64_1_0_0_1_n_n none (Host.tanh (F := Ideal) (φ := .f32) (Host.dotGeneral (F := Ideal) (φ₁ := .f32) (φ₂ := .f32) dot_S16384x16384_S16384x256_S16384x256_1_0_0_1_n_n none a (Host.dotGeneral (F := Ideal) (φ₁ := .f32) (φ₂ := .f32) dot_S16384x512_S512x256_S16384x256_1_0_0_1_n_n none x w0))) wm)) : (⟨S16384x64, .f32⟩ : BufTy).Contents (Elt Ideal))
      = sampleOf e (devOf a (prod256 (hidden a (prod512 x w0)) ws))
          (prodAdj64 a (prod256 (hidden a (prod512 x w0)) wm)) := by
  rw [ref_dev_eq, ref_mean_eq, ref_sample]

end Cert.ReferenceIdeal.Hand

end
-- ==== Proof.lean ====
/-
  The certificate: a four-launch graph-convolution encoder against its reference, over the extended reals.
  The program computes, for an adjacency matrix adj, features x, weights W0, W_mean, W_std and noise eps,
    h = tanh(adj · (x · W0)),  mean = adj · (h · W_mean),  dev = max(adj · (h · W_std), 0) + c,  sample = eps · dev + mean,
  each adjacency product accumulated over 8 column tiles in a scratch buffer that is reset at the first tile and read
  out at the last. The reference computes the same three results with whole matrix products. Over the extended reals
  a tiled sum is the whole sum (addition is commutative and associative there, and adding to zero changes nothing), a
  change of float format is the identity, and the two programs apply the same tanh, the same maximum with zero and the
  same constant: so the results agree entry by entry, with no use of the inputs' finiteness.
  The frames (both readings of the kernel terminate, fault nowhere and leave the six arguments unchanged) come from
  the run of the four launches in a row; the reference's from its run read back. The idealization rewrote nothing.
-/
import proofs.«137944_j3831110828045_1_alg».proof.Defs
import proofs.«137944_j3831110828045_1_alg».proof.Proof.Gen.Kernel
import proofs.«137944_j3831110828045_1_alg».proof.Proof.Gen.KernelIdeal
import proofs.«137944_j3831110828045_1_alg».proof.Proof.Gen.ReferenceIdeal
import proofs.«137944_j3831110828045_1_alg».proof.Proof.Gen.Pre_finite_inputs
import proofs.«137944_j3831110828045_1_alg».proof.Proof.Gen.ReferenceIdeal.Run
import proofs.«137944_j3831110828045_1_alg».proof.Proof.Word.Launch
import proofs.«137944_j3831110828045_1_alg».proof.Proof.Final
import proofs.«137944_j3831110828045_1_alg».proof.Proof.RefIs
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_k : Cert.frame_Kernel (hKernel := Cert.Kernel.Gen.facts) (hPre_finite_inputs := Cert.Pre_finite_inputs.Gen.facts) :=
  fun m ρ _ => Cert.Kernel.Hand.frame_run (F := Bits) m ρ

/-- So does its reading at the extended reals. -/
theorem frame_ki : Cert.frame_KernelIdeal (hKernelIdeal := Cert.KernelIdeal.Gen.facts) (hPre_finite_inputs := Cert.Pre_finite_inputs.Gen.facts) :=
  fun m ρ _ => Cert.KernelIdeal.Hand.frame_run (F := Ideal) m ρ

/-- The reference runs and leaves its arguments unchanged: its run read back, the results dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2.2) (Cert.ReferenceIdeal.Value.run (F := Ideal) m ρ)

/-- The two programs, from memories that agree on the arguments, end with the same sample, mean and deviation. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨_, _, _, Cert.KernelIdeal.Hand.value_run m ρ, ?_⟩
  refine (θ_run Cert.ReferenceIdeal.defs _ _).mono (fun _ h c => ?_) (Cert.ReferenceIdeal.Value.run (F := Ideal) m' ρ')
  obtain ⟨a0, a1, a2, a3, a4, a5⟩ := hagree c
  refine ⟨(h c).1.trans ?_, (h c).2.1.trans ?_, (h c).2.2.1.trans ?_, (h c).2.2.2⟩
  · rw [a0, a1, a2, a3, a4, a5]
    exact Cert.ReferenceIdeal.Hand.ref_sample_eq _ _ _ _ _ _
  · rw [a0, a1, a2, a3]
    exact Cert.ReferenceIdeal.Hand.ref_mean_eq _ _ _ _
  · rw [a0, a1, a2, a4]
    exact Cert.ReferenceIdeal.Hand.ref_dev_eq _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
